-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1000 : Shape := ⟨2, ![65536, 1000]⟩
abbrev S65536 : Shape := ⟨1, ![65536]⟩
abbrev S1000 : Shape := ⟨1, ![1000]⟩
abbrev S_ : Shape := ⟨0, ![]⟩

class Facts : Prop where
  bcast_S_S65536x1000 : S_.BroadcastsInDim S65536x1000 (![] : Fin 0 → Fin S65536x1000.rank)
  reducesTo_S65536x1000_S_d0_1 : S65536x1000.ReducesTo [0, 1] S_
  h_S_ : 0 < S_.numel
  bcast_S_S1000 : S_.BroadcastsInDim S1000 (![] : Fin 0 → Fin S1000.rank)
  reducesTo_S1000_S_d0 : S1000.ReducesTo [0] S_
  bcast_S_S65536 : S_.BroadcastsInDim S65536 (![] : Fin 0 → Fin S65536.rank)
  reducesTo_S65536_S_d0 : S65536.ReducesTo [0] S_

variable [Facts]

def fn_part1 {F : FTy → Type} [FloatOps F] (main_arg2 : FVec F S1000 .f32) (main_v12 : IVec S_ 1) (main_v15 : IVec S_ 1) : IVec S_ 1 :=
  let main_v16 : IVec S_ 1 := andi main_v12 main_v15
  let main_cst_6 : FVec F S_ .f32 := constant S_ .f32 0x00000000#32
  let main_v17 : FVec F S1000 .f32 := broadcastInDim S1000 ![] bcast_S_S1000 main_cst_6
  let main_v18 : IVec S1000 1 := cmpf .oge main_arg2 main_v17
  let main_c_7 : IVec S_ 1 := constantI S_ 1 1#1
  let main_v19 : IVec S_ 1 := (fun x v => Host.reduce IntOp.andi x v reducesTo_S1000_S_d0 h_S_) main_v18 main_c_7
  let main_v20 : IVec S_ 1 := andi main_v16 main_v19
  main_v20

def fn {F : FTy → Type} [FloatOps F] (main_arg0 : FVec F S65536x1000 .f32) (main_arg1 : IVec S65536 32) (main_arg2 : FVec F S1000 .f32) : IVec S_ 1 :=
  let main_v0 : FVec F S65536x1000 .f32 := Host.absf main_arg0
  let main_cst : FVec F S_ .f32 := constant S_ .f32 0x7F800000#32
  let main_v1 : FVec F S65536x1000 .f32 := broadcastInDim S65536x1000 ![] bcast_S_S65536x1000 main_cst
  let main_v2 : IVec S65536x1000 1 := cmpf .olt main_v0 main_v1
  let main_c : IVec S_ 1 := constantI S_ 1 1#1
  let main_v3 : IVec S_ 1 := (fun x v => Host.reduce IntOp.andi x v reducesTo_S65536x1000_S_d0_1 h_S_) main_v2 main_c
  let main_v4 : FVec F S1000 .f32 := Host.absf main_arg2
  let main_cst_0 : FVec F S_ .f32 := constant S_ .f32 0x7F800000#32
  let main_v5 : FVec F S1000 .f32 := broadcastInDim S1000 ![] bcast_S_S1000 main_cst_0
  let main_v6 : IVec S1000 1 := cmpf .olt main_v4 main_v5
  let main_c_1 : IVec S_ 1 := constantI S_ 1 1#1
  let main_v7 : IVec S_ 1 := (fun x v => Host.reduce IntOp.andi x v reducesTo_S1000_S_d0 h_S_) main_v6 main_c_1
  let main_v8 : IVec S_ 1 := andi main_v3 main_v7
  let main_c_2 : IVec S_ 32 := constantI S_ 32 0#32
  let main_v9 : IVec S65536 32 := broadcastInDim S65536 ![] bcast_S_S65536 main_c_2
  let main_v10 : IVec S65536 1 := cmpi .sge main_arg1 main_v9
  let main_c_3 : IVec S_ 1 := constantI S_ 1 1#1
  let main_v11 : IVec S_ 1 := (fun x v => Host.reduce IntOp.andi x v reducesTo_S65536_S_d0 h_S_) main_v10 main_c_3
  let main_v12 : IVec S_ 1 := andi main_v8 main_v11
  let main_c_4 : IVec S_ 32 := constantI S_ 32 1000#32
  let main_v13 : IVec S65536 32 := broadcastInDim S65536 ![] bcast_S_S65536 main_c_4
  let main_v14 : IVec S65536 1 := cmpi .slt main_arg1 main_v13
  let main_c_5 : IVec S_ 1 := constantI S_ 1 1#1
  let main_v15 : IVec S_ 1 := (fun x v => Host.reduce IntOp.andi x v reducesTo_S65536_S_d0 h_S_) main_v14 main_c_5
  fn_part1 (F := F) main_arg2 main_v12 main_v15
-- ==== Kernel.lean ====
abbrev S65536x1000 : Shape := ⟨2, ![65536, 1000]⟩
abbrev S65536 : Shape := ⟨1, ![65536]⟩
abbrev S1000 : Shape := ⟨1, ![1000]⟩
abbrev S_ : Shape := ⟨0, ![]⟩
abbrev S16x1000 : Shape := ⟨2, ![16, 1000]⟩
abbrev S1024x1000 : Shape := ⟨2, ![1024, 1000]⟩
abbrev S1024 : Shape := ⟨1, ![1024]⟩
abbrev S8x1000 : Shape := ⟨2, ![8, 1000]⟩
abbrev S1024x1 : Shape := ⟨2, ![1024, 1]⟩
abbrev S1x1024 : Shape := ⟨2, ![1, 1024]⟩
abbrev S2x1024 : Shape := ⟨2, ![2, 1024]⟩
abbrev S2x1000 : Shape := ⟨2, ![2, 1000]⟩
abbrev S1x1000 : Shape := ⟨2, ![1, 1000]⟩
abbrev S65536x1 : Shape := ⟨2, ![65536, 1]⟩

abbrev nBuf : Space → Nat
  | .hbm => 61
  | .vmem => 10
  | .smem => 0
  | _ => 0

abbrev bufTy : (tb : Table) → Fin (tcTables nBuf tb) → BufTy
  | .hbm, ⟨0, _⟩ => ⟨S65536x1000, .f32⟩
  | .hbm, ⟨1, _⟩ => ⟨S65536, .i32⟩
  | .hbm, ⟨2, _⟩ => ⟨S1000, .f32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S65536, .i32⟩
  | .hbm, ⟨7, _⟩ => ⟨S65536, .i32⟩
  | .hbm, ⟨8, _⟩ => ⟨S_, .i32⟩
  | .hbm, ⟨9, _⟩ => ⟨S65536, .i32⟩
  | .hbm, ⟨10, _⟩ => ⟨S65536, .i32⟩
  | .hbm, ⟨11, _⟩ => ⟨S65536, .f32⟩
  | .hbm, ⟨12, _⟩ => ⟨S16x1000, .f32⟩
  | .hbm, ⟨13, _⟩ => ⟨S16x1000, .f32⟩
  | .hbm, ⟨14, _⟩ => ⟨S1x1000, .f32⟩
  | .hbm, ⟨15, _⟩ => ⟨S1000, .f32⟩
  | .hbm, ⟨16, _⟩ => ⟨S1x1000, .f32⟩
  | .hbm, ⟨17, _⟩ => ⟨S1000, .f32⟩
  | .hbm, ⟨18, _⟩ => ⟨S1000, .f32⟩
  | .hbm, ⟨19, _⟩ => ⟨S1x1000, .f32⟩
  | .hbm, ⟨20, _⟩ => ⟨S1000, .f32⟩
  | .hbm, ⟨21, _⟩ => ⟨S1x1000, .f32⟩
  | .hbm, ⟨22, _⟩ => ⟨S1000, .f32⟩
  | .hbm, ⟨23, _⟩ => ⟨S1000, .f32⟩
  | .hbm, ⟨24, _⟩ => ⟨S_, .f32⟩
  | .hbm, ⟨25, _⟩ => ⟨S1000, .f32⟩
  | .hbm, ⟨26, _⟩ => ⟨S1000, .f32⟩
  | .hbm, ⟨27, _⟩ => ⟨S1000, .f32⟩
  | .hbm, ⟨28, _⟩ => ⟨S1000, .f32⟩
  | .hbm, ⟨29, _⟩ => ⟨S_, .f32⟩
  | .hbm, ⟨30, _⟩ => ⟨S1000, .f32⟩
  | .hbm, ⟨31, _⟩ => ⟨S1000, .i1⟩
  | .hbm, ⟨32, _⟩ => ⟨S_, .f32⟩
  | .hbm, ⟨33, _⟩ => ⟨S1000, .f32⟩
  | .hbm, ⟨34, _⟩ => ⟨S1000, .f32⟩
  | .hbm, ⟨35, _⟩ => ⟨S_, .f32⟩
  | .hbm, ⟨36, _⟩ => ⟨S1000, .f32⟩
  | .hbm, ⟨37, _⟩ => ⟨S1000, .f32⟩
  | .hbm, ⟨38, _⟩ => ⟨S1000, .f32⟩
  | .hbm, ⟨39, _⟩ => ⟨S1000, .f32⟩
  | .hbm, ⟨40, _⟩ => ⟨S_, .i32⟩
  | .hbm, ⟨41, _⟩ => ⟨S65536, .i32⟩
  | .hbm, ⟨42, _⟩ => ⟨S65536, .i1⟩
  | .hbm, ⟨43, _⟩ => ⟨S_, .i32⟩
  | .hbm, ⟨44, _⟩ => ⟨S65536, .i32⟩
  | .hbm, ⟨45, _⟩ => ⟨S65536, .i32⟩
  | .hbm, ⟨46, _⟩ => ⟨S65536, .i32⟩
  | .hbm, ⟨47, _⟩ => ⟨S65536x1, .i32⟩
  | .hbm, ⟨48, _⟩ => ⟨S65536, .f32⟩
  | .hbm, ⟨49, _⟩ => ⟨S_, .f32⟩
  | .hbm, ⟨50, _⟩ => ⟨S65536, .f32⟩
  | .hbm, ⟨51, _⟩ => ⟨S65536, .f32⟩
  | .hbm, ⟨52, _⟩ => ⟨S_, .f32⟩
  | .hbm, ⟨53, _⟩ => ⟨S65536, .f32⟩
  | .hbm, ⟨54, _⟩ => ⟨S65536, .f32⟩
  | .hbm, ⟨55, _⟩ => ⟨S65536, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .local _ .vmem, ⟨0, _⟩ => ⟨S1024x1000, .f32⟩
  | .local _ .vmem, ⟨1, _⟩ => ⟨S1024x1000, .f32⟩
  | .local _ .vmem, ⟨2, _⟩ => ⟨S1024, .i32⟩
  | .local _ .vmem, ⟨3, _⟩ => ⟨S1024, .i32⟩
  | .local _ .vmem, ⟨4, _⟩ => ⟨S1024, .f32⟩
  | .local _ .vmem, ⟨5, _⟩ => ⟨S1024, .f32⟩
  | .local _ .vmem, ⟨6, _⟩ => ⟨S8x1000, .f32⟩
  | .local _ .vmem, ⟨7, _⟩ => ⟨S8x1000, .f32⟩
  | .local _ .vmem, ⟨8, _⟩ => ⟨S8x1000, .f32⟩
  | .local _ .vmem, ⟨9, _⟩ => ⟨S8x1000, .f32⟩
  | _, _ => ⟨S65536x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v0 : Ref sig .tc := ⟨.hbm, 10, rfl⟩
abbrev main_v1_0 : Ref sig .tc := ⟨.hbm, 11, rfl⟩
abbrev main_v1_1 : Ref sig .tc := ⟨.hbm, 12, rfl⟩
abbrev main_v1_2 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_1 : Ref sig .tc := ⟨.hbm, 29, rfl⟩
abbrev main_v16 : Ref sig .tc := ⟨.hbm, 30, rfl⟩
abbrev main_v17 : Ref sig .tc := ⟨.hbm, 31, rfl⟩
abbrev main_cst_2 : Ref sig .tc := ⟨.hbm, 32, rfl⟩
abbrev main_v18 : Ref sig .tc := ⟨.hbm, 33, rfl⟩
abbrev main_v19 : Ref sig .tc := ⟨.hbm, 34, rfl⟩
abbrev main_cst_3 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_4 : Ref sig .tc := ⟨.hbm, 40, rfl⟩
abbrev main_v24 : Ref sig .tc := ⟨.hbm, 41, rfl⟩
abbrev main_v25 : Ref sig .tc := ⟨.hbm, 42, rfl⟩
abbrev main_c_5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_6 : Ref sig .tc := ⟨.hbm, 49, rfl⟩
abbrev main_v31 : Ref sig .tc := ⟨.hbm, 50, rfl⟩
abbrev main_v32 : Ref sig .tc := ⟨.hbm, 51, rfl⟩
abbrev main_cst_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_8 : Ref sig .tc := ⟨.hbm, 56, rfl⟩
abbrev main_v36 : Ref sig .tc := ⟨.hbm, 57, rfl⟩
abbrev main_cst_9 : Ref sig .tc := ⟨.hbm, 58, rfl⟩
abbrev main_v37 : Ref sig .tc := ⟨.hbm, 59, rfl⟩
abbrev main_v38 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 1 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  ![v1.toNat]

def cc0_transform_2 (i : grid0.Coords) : Fin 1 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  ![v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x1000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x1000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bcast_S_S65536 : S_.BroadcastsInDim S65536 (![] : Fin 0 → Fin S65536.rank)
  inb_S1024x1000_S1024x1000_0_0 : ∀ a, (![0, 0] : Fin 2 → Nat) a + S1024x1000.size a ≤ S1024x1000.size a
  h_S1024x1000 : 0 < S1024x1000.numel
  reduces_S1024x1000_S1024 : S1024x1000.Reduces [1] S1024
  shapeCasts_S1024_S1024x1 : S1024.ShapeCasts S1024x1
  broadcasts_S1024x1_S1024x1000 : S1024x1.Broadcasts S1024x1000
  inb_S1024_S1024_0 : ∀ a, (![0] : Fin 1 → Nat) a + S1024.size a ≤ S1024.size a
  h_S1024 : 0 < S1024.numel
  shapeCasts_S1024_S1024 : S1024.ShapeCasts S1024
  iota_S1024x1000_d1_w32 : S1024x1000.Iotas .tc 32 [1]
  shapeCasts_S1024x1_S1024 : S1024x1.ShapeCasts S1024
  inb_S8x1000_S8x1000_0_0 : ∀ a, (![0, 0] : Fin 2 → Nat) a + S8x1000.size a ≤ S8x1000.size a
  h_S8x1000 : 0 < S8x1000.numel
  natLt_1_32 : 1 < 32
  bitsLt_bf16_f32 : FTy.bits .bf16 < FTy.bits .f32
  shapeCasts_S1024_S1x1024 : S1024.ShapeCasts S1x1024
  concatenates_S1x1024_S1x1024_S2x1024_d0 : Shape.Concatenates [S1x1024, S1x1024] S2x1024 0
  inb_S8x1000_S1x1000_0_0 : ∀ a, (![0, 0] : Fin 2 → Nat) a + S1x1000.size a ≤ S8x1000.size a
  h_S1x1000 : 0 < S1x1000.numel
  shapeCasts_S1x1000_S1x1000 : S1x1000.ShapeCasts S1x1000
  slices_S2x1000_o0_0_S1x1000 : S2x1000.Slices ![0, 0] S1x1000
  slices_S2x1000_o1_0_S1x1000 : S2x1000.Slices ![1, 0] S1x1000
  slices_S16x1000_S1x1000_0_0 : S16x1000.Slices ![0, 0] S1x1000
  shapeCasts_S1x1000_S1000 : S1x1000.ShapeCasts S1000
  slices_S16x1000_S1x1000_8_0 : S16x1000.Slices ![8, 0] S1x1000
  bcast_S_S1000 : S_.BroadcastsInDim S1000 (![] : Fin 0 → Fin S1000.rank)
  bcast_S65536_S65536x1_0 : S65536.BroadcastsInDim S65536x1 (![0] : Fin 1 → Fin S65536x1.rank)
  reducesTo_S65536_S_d0 : S65536.ReducesTo [0] S_
  h_S_ : 0 < S_.numel
  dot_S2x1024_S1024x1000_S2x1000_1_0_0_1_n_n_wf : DotDims.WF S2x1024 S1024x1000 S2x1000 [1] [0] [0] [1] [] []
  gather_S1000_S65536x1_S65536_n_0_n_n_0_1_1_wf : GatherDims.WF S1000 S65536x1 S65536 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1000.size a ≤ S65536x1000.size a
  hwx0_0 : ∀ i : grid0.Coords, EltTy.bits .f32 = 32 ∨ (Rect.block (s := S65536x1000) S1024x1000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024.size a ≤ S65536.size a
  hwx0_1 : ∀ i : grid0.Coords, EltTy.bits .i32 = 32 ∨ (Rect.block (s := S65536) S1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S65536.size a
  hwx0_2 : ∀ i : grid0.Coords, EltTy.bits .f32 = 32 ∨ (Rect.block (s := S65536) S1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x1000.size a ≤ S16x1000.size a
  hwx0_3 : ∀ i : grid0.Coords, EltTy.bits .f32 = 32 ∨ (Rect.block (s := S16x1000) S8x1000.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x1000.size a ≤ S16x1000.size a
  hwx0_4 : ∀ i : grid0.Coords, EltTy.bits .f32 = 32 ∨ (Rect.block (s := S16x1000) S8x1000.size (cc0_transform_4 i) (hinb0_4 i)).WholeWords (EltTy.packing .f32)

variable [Facts₀]

def dot_S2x1024_S1024x1000_S2x1000_1_0_0_1_n_n : DotDims S2x1024 S1024x1000 S2x1000 where
  lhsContracting := [1]
  rhsContracting := [0]
  lhsNonContracting := [0]
  rhsNonContracting := [1]
  lhsBatch := []
  rhsBatch := []
  wf := dot_S2x1024_S1024x1000_S2x1000_1_0_0_1_n_n_wf
def gather_S1000_S65536x1_S65536_n_0_n_n_0_1_1 : GatherDims S1000 S65536x1 S65536 where
  offsetDims := []
  collapsedSliceDims := [0]
  operandBatchingDims := []
  startIndicesBatchingDims := []
  startIndexMap := [0]
  indexVectorDim := 1
  sliceSizes := ![1]
  wf := gather_S1000_S65536x1_S65536_n_0_n_n_0_1_1_wf

abbrev win0_0 : Pipeline.Window sig grid0 :=
  Pipeline.Window.ofSpec (Memref.whole main_arg0) S1024x1000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S8x1000.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_2) S8x1000.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S65536x1000 : Shape := ⟨2, ![65536, 1000]⟩
abbrev S65536 : Shape := ⟨1, ![65536]⟩
abbrev S1000 : Shape := ⟨1, ![1000]⟩
abbrev S_ : Shape := ⟨0, ![]⟩
abbrev S65536x1 : Shape := ⟨2, ![65536, 1]⟩
abbrev S65536x1x1 : Shape := ⟨3, ![65536, 1, 1]⟩
abbrev S1 : Shape := ⟨1, ![1]⟩
abbrev S1x1x1 : Shape := ⟨3, ![1, 1, 1]⟩

abbrev nBuf : Space → Nat
  | .hbm => 96
  | .vmem => 0
  | .smem => 0
  | _ => 0

abbrev bufTy : (tb : Table) → Fin (tcTables nBuf tb) → BufTy
  | .hbm, ⟨0, _⟩ => ⟨S65536x1000, .f32⟩
  | .hbm, ⟨1, _⟩ => ⟨S65536, .i32⟩
  | .hbm, ⟨2, _⟩ => ⟨S1000, .f32⟩
  | .hbm, ⟨3, _⟩ => ⟨S_, .f32⟩
  | .hbm, ⟨4, _⟩ => ⟨S65536, .f32⟩
  | .hbm, ⟨5, _⟩ => ⟨S_, .f32⟩
  | .hbm, ⟨6, _⟩ => ⟨S65536, .f32⟩
  | .hbm, ⟨7, _⟩ => ⟨S65536, .f32⟩
  | .hbm, ⟨8, _⟩ => ⟨S65536x1, .f32⟩
  | .hbm, ⟨9, _⟩ => ⟨S65536x1000, .f32⟩
  | .hbm, ⟨10, _⟩ => ⟨S65536x1000, .f32⟩
  | .hbm, ⟨11, _⟩ => ⟨S65536x1000, .f32⟩
  | .hbm, ⟨12, _⟩ => ⟨S_, .f32⟩
  | .hbm, ⟨13, _⟩ => ⟨S65536, .f32⟩
  | .hbm, ⟨14, _⟩ => ⟨S65536x1, .f32⟩
  | .hbm, ⟨15, _⟩ => ⟨S65536x1, .f32⟩
  | .hbm, ⟨16, _⟩ => ⟨S65536x1000, .f32⟩
  | .hbm, ⟨17, _⟩ => ⟨S65536x1000, .f32⟩
  | .hbm, ⟨18, _⟩ => ⟨S65536x1, .i32⟩
  | .hbm, ⟨19, _⟩ => ⟨S_, .i32⟩
  | .hbm, ⟨20, _⟩ => ⟨S65536x1, .i32⟩
  | .hbm, ⟨21, _⟩ => ⟨S65536x1, .i1⟩
  | .hbm, ⟨22, _⟩ => ⟨S_, .i32⟩
  | .hbm, ⟨23, _⟩ => ⟨S65536x1, .i32⟩
  | .hbm, ⟨24, _⟩ => ⟨S65536x1, .i32⟩
  | .hbm, ⟨25, _⟩ => ⟨S65536x1, .i32⟩
  | .hbm, ⟨26, _⟩ => ⟨S65536x1x1, .i32⟩
  | .hbm, ⟨27, _⟩ => ⟨S1, .i32⟩
  | .hbm, ⟨28, _⟩ => ⟨S_, .i32⟩
  | .hbm, ⟨29, _⟩ => ⟨S65536x1x1, .i32⟩
  | .hbm, ⟨30, _⟩ => ⟨S65536x1x1, .i1⟩
  | .hbm, ⟨31, _⟩ => ⟨S1x1x1, .i32⟩
  | .hbm, ⟨32, _⟩ => ⟨S65536x1x1, .i32⟩
  | .hbm, ⟨33, _⟩ => ⟨S65536x1x1, .i1⟩
  | .hbm, ⟨34, _⟩ => ⟨S65536x1x1, .i1⟩
  | .hbm, ⟨35, _⟩ => ⟨S_, .i1⟩
  | .hbm, ⟨36, _⟩ => ⟨S65536x1, .i1⟩
  | .hbm, ⟨37, _⟩ => ⟨S65536x1, .f32⟩
  | .hbm, ⟨38, _⟩ => ⟨S_, .f32⟩
  | .hbm, ⟨39, _⟩ => ⟨S65536x1, .f32⟩
  | .hbm, ⟨40, _⟩ => ⟨S65536x1, .f32⟩
  | .hbm, ⟨41, _⟩ => ⟨S65536, .f32⟩
  | .hbm, ⟨42, _⟩ => ⟨S65536, .f32⟩
  | .hbm, ⟨43, _⟩ => ⟨S_, .f32⟩
  | .hbm, ⟨44, _⟩ => ⟨S1000, .f32⟩
  | .hbm, ⟨45, _⟩ => ⟨S65536x1, .i32⟩
  | .hbm, ⟨46, _⟩ => ⟨S1000, .f32⟩
  | .hbm, ⟨47, _⟩ => ⟨S_, .f32⟩
  | .hbm, ⟨48, _⟩ => ⟨S65536, .f32⟩
  | .hbm, ⟨49, _⟩ => ⟨S_, .f32⟩
  | .hbm, ⟨50, _⟩ => ⟨S1000, .f32⟩
  | .hbm, ⟨51, _⟩ => ⟨S65536x1, .i32⟩
  | .hbm, ⟨52, _⟩ => ⟨S1000, .f32⟩
  | .hbm, ⟨53, _⟩ => ⟨S_, .f32⟩
  | .hbm, ⟨54, _⟩ => ⟨S1000, .f32⟩
  | .hbm, ⟨55, _⟩ => ⟨S1000, .f32⟩
  | .hbm, ⟨56, _⟩ => ⟨S1000, .f32⟩
  | .hbm, ⟨57, _⟩ => ⟨S1000, .f32⟩
  | .hbm, ⟨58, _⟩ => ⟨S_, .f32⟩
  | .hbm, ⟨59, _⟩ => ⟨S1000, .f32⟩
  | .hbm, ⟨60, _⟩ => ⟨S1000, .i1⟩
  | .hbm, ⟨61, _⟩ => ⟨S_, .f32⟩
  | .hbm, ⟨62, _⟩ => ⟨S1000, .f32⟩
  | .hbm, ⟨63, _⟩ => ⟨S1000, .f32⟩
  | .hbm, ⟨64, _⟩ => ⟨S_, .f32⟩
  | .hbm, ⟨65, _⟩ => ⟨S1000, .f32⟩
  | .hbm, ⟨66, _⟩ => ⟨S1000, .f32⟩
  | .hbm, ⟨67, _⟩ => ⟨S1000, .f32⟩
  | .hbm, ⟨68, _⟩ => ⟨S1000, .f32⟩
  | .hbm, ⟨69, _⟩ => ⟨S_, .i32⟩
  | .hbm, ⟨70, _⟩ => ⟨S65536, .i32⟩
  | .hbm, ⟨71, _⟩ => ⟨S65536, .i1⟩
  | .hbm, ⟨72, _⟩ => ⟨S_, .i32⟩
  | .hbm, ⟨73, _⟩ => ⟨S65536, .i32⟩
  | .hbm, ⟨74, _⟩ => ⟨S65536, .i32⟩
  | .hbm, ⟨75, _⟩ => ⟨S65536, .i32⟩
  | .hbm, ⟨76, _⟩ => ⟨S65536x1, .i32⟩
  | .hbm, ⟨77, _⟩ => ⟨S65536, .f32⟩
  | .hbm, ⟨78, _⟩ => ⟨S_, .f32⟩
  | .hbm, ⟨79, _⟩ => ⟨S65536, .f32⟩
  | .hbm, ⟨80, _⟩ => ⟨S65536, .f32⟩
  | .hbm, ⟨81, _⟩ => ⟨S_, .f32⟩
  | .hbm, ⟨82, _⟩ => ⟨S65536, .f32⟩
  | .hbm, ⟨83, _⟩ => ⟨S65536, .f32⟩
  | .hbm, ⟨84, _⟩ => ⟨S_, .f32⟩
  | .hbm, ⟨85, _⟩ => ⟨S_, .f32⟩
  | .hbm, ⟨86, _⟩ => ⟨S65536, .f32⟩
  | .hbm, ⟨87, _⟩ => ⟨S65536, .f32⟩
  | .hbm, ⟨88, _⟩ => ⟨S_, .f32⟩
  | .hbm, ⟨89, _⟩ => ⟨S65536, .f32⟩
  | .hbm, ⟨90, _⟩ => ⟨S65536, .f32⟩
  | .hbm, ⟨91, _⟩ => ⟨S65536, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | _, _ => ⟨S65536x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_call0_cst_0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_cst_1 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_v0 : Ref sig .tc := ⟨.hbm, 17, rfl⟩
abbrev main_v1 : Ref sig .tc := ⟨.hbm, 18, rfl⟩
abbrev main_call1_c : Ref sig .tc := ⟨.hbm, 19, rfl⟩
abbrev main_call1_v0 : Ref sig .tc := ⟨.hbm, 20, rfl⟩
abbrev main_call1_v1 : Ref sig .tc := ⟨.hbm, 21, rfl⟩
abbrev main_call1_c_0 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_call1_v5 : Ref sig .tc := ⟨.hbm, 26, rfl⟩
abbrev main_call1_c_1 : Ref sig .tc := ⟨.hbm, 27, rfl⟩
abbrev main_call1_c_2 : Ref sig .tc := ⟨.hbm, 28, rfl⟩
abbrev main_call1_v6 : Ref sig .tc := ⟨.hbm, 29, rfl⟩
abbrev main_call1_v7 : Ref sig .tc := ⟨.hbm, 30, rfl⟩
abbrev main_call1_v8 : Ref sig .tc := ⟨.hbm, 31, rfl⟩
abbrev main_call1_v9 : Ref sig .tc := ⟨.hbm, 32, rfl⟩
abbrev main_call1_v10 : Ref sig .tc := ⟨.hbm, 33, rfl⟩
abbrev main_call1_v11 : Ref sig .tc := ⟨.hbm, 34, rfl⟩
abbrev main_call1_c_3 : Ref sig .tc := ⟨.hbm, 35, rfl⟩
abbrev main_call1_v12 : Ref sig .tc := ⟨.hbm, 36, rfl⟩
abbrev main_call1_v13 : Ref sig .tc := ⟨.hbm, 37, rfl⟩
abbrev main_call1_cst : Ref sig .tc := ⟨.hbm, 38, rfl⟩
abbrev main_call1_v14 : Ref sig .tc := ⟨.hbm, 39, rfl⟩
abbrev main_v2 : Ref sig .tc := ⟨.hbm, 40, rfl⟩
abbrev main_v3 : Ref sig .tc := ⟨.hbm, 41, rfl⟩
abbrev main_v4 : Ref sig .tc := ⟨.hbm, 42, rfl⟩
abbrev main_cst : Ref sig .tc := ⟨.hbm, 43, rfl⟩
abbrev main_v5 : Ref sig .tc := ⟨.hbm, 44, rfl⟩
abbrev main_v6 : Ref sig .tc := ⟨.hbm, 45, rfl⟩
abbrev main_v7 : Ref sig .tc := ⟨.hbm, 46, rfl⟩
abbrev main_cst_0 : Ref sig .tc := ⟨.hbm, 47, rfl⟩
abbrev main_v8 : Ref sig .tc := ⟨.hbm, 48, rfl⟩
abbrev main_cst_1 : Ref sig .tc := ⟨.hbm, 49, rfl⟩
abbrev main_v9 : Ref sig .tc := ⟨.hbm, 50, rfl⟩
abbrev main_v10 : Ref sig .tc := ⟨.hbm, 51, rfl⟩
abbrev main_v11 : Ref sig .tc := ⟨.hbm, 52, rfl⟩
abbrev main_cst_2 : Ref sig .tc := ⟨.hbm, 53, rfl⟩
abbrev main_v12 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_cst_3 : Ref sig .tc := ⟨.hbm, 58, rfl⟩
abbrev main_v16 : Ref sig .tc := ⟨.hbm, 59, rfl⟩
abbrev main_v17 : Ref sig .tc := ⟨.hbm, 60, rfl⟩
abbrev main_cst_4 : Ref sig .tc := ⟨.hbm, 61, rfl⟩
abbrev main_v18 : Ref sig .tc := ⟨.hbm, 62, rfl⟩
abbrev main_v19 : Ref sig .tc := ⟨.hbm, 63, rfl⟩
abbrev main_cst_5 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_c : Ref sig .tc := ⟨.hbm, 69, rfl⟩
abbrev main_v24 : Ref sig .tc := ⟨.hbm, 70, rfl⟩
abbrev main_v25 : Ref sig .tc := ⟨.hbm, 71, rfl⟩
abbrev main_c_6 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_cst_7 : Ref sig .tc := ⟨.hbm, 78, rfl⟩
abbrev main_v31 : Ref sig .tc := ⟨.hbm, 79, rfl⟩
abbrev main_v32 : Ref sig .tc := ⟨.hbm, 80, rfl⟩
abbrev main_cst_8 : Ref sig .tc := ⟨.hbm, 81, rfl⟩
abbrev main_v33 : Ref sig .tc := ⟨.hbm, 82, rfl⟩
abbrev main_v34 : Ref sig .tc := ⟨.hbm, 83, rfl⟩
abbrev main_cst_9 : Ref sig .tc := ⟨.hbm, 84, rfl⟩
abbrev main_v35 : Ref sig .tc := ⟨.hbm, 85, rfl⟩
abbrev main_v36 : Ref sig .tc := ⟨.hbm, 86, rfl⟩
abbrev main_v37 : Ref sig .tc := ⟨.hbm, 87, rfl⟩
abbrev main_cst_10 : Ref sig .tc := ⟨.hbm, 88, rfl⟩
abbrev main_v38 : Ref sig .tc := ⟨.hbm, 89, rfl⟩
abbrev main_v39 : Ref sig .tc := ⟨.hbm, 90, rfl⟩
abbrev main_v40 : Ref sig .tc := ⟨.hbm, 91, rfl⟩
abbrev main_cst_11 : Ref sig .tc := ⟨.hbm, 92, rfl⟩
abbrev main_v41 : Ref sig .tc := ⟨.hbm, 93, rfl⟩
abbrev main_cst_12 : Ref sig .tc := ⟨.hbm, 94, rfl⟩
abbrev main_v42 : Ref sig .tc := ⟨.hbm, 95, rfl⟩

abbrev nD : Nat := 1
abbrev τ : Topo := Topo.v7x

variable {F : FTy → Type} [FloatOps F]

class Facts₀ : Prop where
  reducesTo_S65536x1000_S65536_d1 : S65536x1000.ReducesTo [1] S65536
  h_S_ : 0 < S_.numel
  bcast_S_S65536 : S_.BroadcastsInDim S65536 (![] : Fin 0 → Fin S65536.rank)
  bcast_S65536_S65536x1_0 : S65536.BroadcastsInDim S65536x1 (![0] : Fin 1 → Fin S65536x1.rank)
  bcast_S65536x1_S65536x1000_0_1 : S65536x1.BroadcastsInDim S65536x1000 (![0, 1] : Fin 2 → Fin S65536x1000.rank)
  bcast_S_S65536x1 : S_.BroadcastsInDim S65536x1 (![] : Fin 0 → Fin S65536x1.rank)
  shapeCasts_S65536x1_S65536x1x1 : S65536x1.ShapeCasts S65536x1x1
  bcast_S_S65536x1x1 : S_.BroadcastsInDim S65536x1x1 (![] : Fin 0 → Fin S65536x1x1.rank)
  bcast_S1_S1x1x1_2 : S1.BroadcastsInDim S1x1x1 (![2] : Fin 1 → Fin S1x1x1.rank)
  bcast_S1x1x1_S65536x1x1_0_1_2 : S1x1x1.BroadcastsInDim S65536x1x1 (![0, 1, 2] : Fin 3 → Fin S65536x1x1.rank)
  reducesTo_S65536x1x1_S65536x1_d2 : S65536x1x1.ReducesTo [2] S65536x1
  shapeCasts_S65536x1_S65536 : S65536x1.ShapeCasts S65536
  bcast_S_S1000 : S_.BroadcastsInDim S1000 (![] : Fin 0 → Fin S1000.rank)
  reducesTo_S65536_S_d0 : S65536.ReducesTo [0] S_
  gather_S65536x1000_S65536x1x1_S65536x1_n_1_0_0_1_2_11_wf : GatherDims.WF S65536x1000 S65536x1x1 S65536x1 [] [1] [0] [1] [0] 2 ![1, 1]
  scatter_S1000_S65536x1_S65536_n_0_0_1_wf : ScatterDims.WF S1000 S65536x1 S65536 [] [0] [0] 1
  gather_S1000_S65536x1_S65536_n_0_n_n_0_1_1_wf : GatherDims.WF S1000 S65536x1 S65536 [] [0] [] [0] [] 1 ![1]

variable [Facts₀]

def gather_S65536x1000_S65536x1x1_S65536x1_n_1_0_0_1_2_11 : GatherDims S65536x1000 S65536x1x1 S65536x1 where
  offsetDims := []
  collapsedSliceDims := [1]
  operandBatchingDims := [0]
  startIndicesBatchingDims := [0]
  startIndexMap := [1]
  indexVectorDim := 2
  sliceSizes := ![1, 1]
  wf := gather_S65536x1000_S65536x1x1_S65536x1_n_1_0_0_1_2_11_wf
def scatter_S1000_S65536x1_S65536_n_0_0_1 : ScatterDims S1000 S65536x1 S65536 where
  updateWindowDims := []
  insertedWindowDims := [0]
  scatterDimsToOperandDims := [0]
  indexVectorDim := 1
  wf := scatter_S1000_S65536x1_S65536_n_0_0_1_wf
def gather_S1000_S65536x1_S65536_n_0_n_n_0_1_1 : GatherDims S1000 S65536x1 S65536 where
  offsetDims := []
  collapsedSliceDims := [0]
  operandBatchingDims := []
  startIndicesBatchingDims := []
  startIndexMap := [0]
  indexVectorDim := 1
  sliceSizes := ![1]
  wf := gather_S1000_S65536x1_S65536_n_0_n_n_0_1_1_wf

class Facts : Prop extends Facts₀ where

variable [Facts]
-- ==== Proof.LibCarry.lean ====
/-
  A buffer that no operation of a stretch of host operations writes holds after the stretch what it held before it.
  `keep_host ops` closes a goal `StableHlo.after ops V b = V b` (also when the left side is an abbreviation for it) for a
  literal list `ops` and a literal buffer `b`: it unfolds the list, reads off what each operation writes, and tells each
  written buffer from `b` by deciding that the two references differ.
-/
import Idealize.ShloMosaic.Lib.StableHlo.Run

open Idealize.ShloMosaic

/-- `keep_host ops`: the stretch `ops` does not write the goal's buffer. -/
macro "keep_host " ops:ident : tactic => `(tactic|
  exact StableHlo.after_of_forall_not_mem _ _ (List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))
-- ==== Proof.RefStages.lean ====
/-
  The reference program's run, read stage by stage. Its 93 host operations fall into six consecutive stretches,
  each of which reads only the three argument arrays and the one or two values the stretch before it left:
  the log-softmax (operations 0-14, leaving the log-probabilities), the gather along the class axis and its
  negation (15-39, leaving the per-sample cross entropies), the two per-class scatters (40-49, leaving the
  per-class sums and counts), the update of the gradient magnitudes (50-65), the per-sample weights (66-80) and
  the renormalised weighted mean (81-92). After each stretch the value it leaves is the corresponding stage of
  Proof/RefRead.lean applied to the argument arrays, the argument arrays and the values still to be read are
  unchanged; so the result buffer ends at the last stage.
-/
import proofs.«420719_j14912126452149_3_alg».proof.Proof.RefRead
import proofs.«420719_j14912126452149_3_alg».proof.Proof.LibCarry
import Idealize.ShloMosaic.Lib.StableHlo.Run

noncomputable section

namespace Cert.ReferenceIdeal.RStage

open Cert.ReferenceIdeal Cert.ReferenceIdeal.Gen Cert.ReferenceIdeal.RunP Cert.ReferenceIdeal.ReadP
open Idealize.ShloMosaic Idealize.ShloMosaic.TcCoe Idealize.SL.Sem Idealize.ShloMosaic.StableHlo

variable {F : FTy → Type} [FloatOps F]

/-! ## The six stretches

The operations of each stretch as a list of their own. The operations of the three called functions are written at
typed references in the program's list; here they are written as the plain operations at the same buffers with the same
functions, which they equal (`t1_eq`, `t2_eq`, `t4_eq`): a stretch's composed value then carries no transport. -/

abbrev s1 : List (HloOp τ sig (Elt F)) :=
  [ nullary main_call0_cst ((constant S_ .f32 0xFF800000#32) : (⟨S_, .f32⟩ : BufTy).Contents (Elt F)),
    binary main_arg0 main_call0_cst main_call0_v0 ((fun x v => Host.reduce FloatOps.maximumf x v reducesTo_S65536x1000_S65536_d1 h_S_) : (⟨S65536x1000, .f32⟩ : BufTy).Contents (Elt F) → (⟨S_, .f32⟩ : BufTy).Contents (Elt F) → (⟨S65536, .f32⟩ : BufTy).Contents (Elt F)),
    nullary main_call0_cst_0 ((constant S_ .f32 0xFF800000#32) : (⟨S_, .f32⟩ : BufTy).Contents (Elt F)),
    unary main_call0_cst_0 main_call0_v1 ((broadcastInDim S65536 ![] bcast_S_S65536) : (⟨S_, .f32⟩ : BufTy).Contents (Elt F) → (⟨S65536, .f32⟩ : BufTy).Contents (Elt F)),
    binary main_call0_v1 main_call0_v0 main_call0_v2 (maximumf : (⟨S65536, .f32⟩ : BufTy).Contents (Elt F) → (⟨S65536, .f32⟩ : BufTy).Contents (Elt F) → (⟨S65536, .f32⟩ : BufTy).Contents (Elt F)),
    unary main_call0_v2 main_call0_v3 ((broadcastInDim S65536x1 ![0] bcast_S65536_S65536x1_0) : (⟨S65536, .f32⟩ : BufTy).Contents (Elt F) → (⟨S65536x1, .f32⟩ : BufTy).Contents (Elt F)),
    unary main_call0_v3 main_call0_v4 ((broadcastInDim S65536x1000 ![0, 1] bcast_S65536x1_S65536x1000_0_1) : (⟨S65536x1, .f32⟩ : BufTy).Contents (Elt F) → (⟨S65536x1000, .f32⟩ : BufTy).Contents (Elt F)),
    binary main_arg0 main_call0_v4 main_call0_v5 (subf : (⟨S65536x1000, .f32⟩ : BufTy).Contents (Elt F) → (⟨S65536x1000, .f32⟩ : BufTy).Contents (Elt F) → (⟨S65536x1000, .f32⟩ : BufTy).Contents (Elt F)),
    unary main_call0_v5 main_call0_v6 (Host.exp : (⟨S65536x1000, .f32⟩ : BufTy).Contents (Elt F) → (⟨S65536x1000, .f32⟩ : BufTy).Contents (Elt F)),
    nullary main_call0_cst_1 ((constant S_ .f32 0x00000000#32) : (⟨S_, .f32⟩ : BufTy).Contents (Elt F)),
    binary main_call0_v6 main_call0_cst_1 main_call0_v7 ((fun x v => Host.reduceAdd x v reducesTo_S65536x1000_S65536_d1 h_S_) : (⟨S65536x1000, .f32⟩ : BufTy).Contents (Elt F) → (⟨S_, .f32⟩ : BufTy).Contents (Elt F) → (⟨S65536, .f32⟩ : BufTy).Contents (Elt F)),
    unary main_call0_v7 main_call0_v8 ((broadcastInDim S65536x1 ![0] bcast_S65536_S65536x1_0) : (⟨S65536, .f32⟩ : BufTy).Contents (Elt F) → (⟨S65536x1, .f32⟩ : BufTy).Contents (Elt F)),
    unary main_call0_v8 main_call0_v9 (Host.log : (⟨S65536x1, .f32⟩ : BufTy).Contents (Elt F) → (⟨S65536x1, .f32⟩ : BufTy).Contents (Elt F)),
    unary main_call0_v9 main_call0_v10 ((broadcastInDim S65536x1000 ![0, 1] bcast_S65536x1_S65536x1000_0_1) : (⟨S65536x1, .f32⟩ : BufTy).Contents (Elt F) → (⟨S65536x1000, .f32⟩ : BufTy).Contents (Elt F)),
    binary main_call0_v5 main_call0_v10 main_v0 (subf : (⟨S65536x1000, .f32⟩ : BufTy).Contents (Elt F) → (⟨S65536x1000, .f32⟩ : BufTy).Contents (Elt F) → (⟨S65536x1000, .f32⟩ : BufTy).Contents (Elt F)) ]

abbrev s2 : List (HloOp τ sig (Elt F)) :=
  [ unary main_arg1 main_v1 (broadcastInDim S65536x1 ![0] bcast_S65536_S65536x1_0 : (⟨S65536, .i32⟩ : BufTy).Contents (Elt F) → (⟨S65536x1, .i32⟩ : BufTy).Contents (Elt F)),
    nullary main_call1_c ((constantI S_ 32 0#32) : (⟨S_, .i32⟩ : BufTy).Contents (Elt F)),
    unary main_call1_c main_call1_v0 ((broadcastInDim S65536x1 ![] bcast_S_S65536x1) : (⟨S_, .i32⟩ : BufTy).Contents (Elt F) → (⟨S65536x1, .i32⟩ : BufTy).Contents (Elt F)),
    binary main_v1 main_call1_v0 main_call1_v1 ((cmpi .slt) : (⟨S65536x1, .i32⟩ : BufTy).Contents (Elt F) → (⟨S65536x1, .i32⟩ : BufTy).Contents (Elt F) → (⟨S65536x1, .i1⟩ : BufTy).Contents (Elt F)),
    nullary main_call1_c_0 ((constantI S_ 32 1000#32) : (⟨S_, .i32⟩ : BufTy).Contents (Elt F)),
    unary main_call1_c_0 main_call1_v2 ((broadcastInDim S65536x1 ![] bcast_S_S65536x1) : (⟨S_, .i32⟩ : BufTy).Contents (Elt F) → (⟨S65536x1, .i32⟩ : BufTy).Contents (Elt F)),
    binary main_v1 main_call1_v2 main_call1_v3 (addi : (⟨S65536x1, .i32⟩ : BufTy).Contents (Elt F) → (⟨S65536x1, .i32⟩ : BufTy).Contents (Elt F) → (⟨S65536x1, .i32⟩ : BufTy).Contents (Elt F)),
    ternary main_call1_v1 main_call1_v3 main_v1 main_call1_v4 (select : (⟨S65536x1, .i1⟩ : BufTy).Contents (Elt F) → (⟨S65536x1, .i32⟩ : BufTy).Contents (Elt F) → (⟨S65536x1, .i32⟩ : BufTy).Contents (Elt F) → (⟨S65536x1, .i32⟩ : BufTy).Contents (Elt F)),
    reshape main_call1_v4 main_call1_v5 rfl shapeCasts_S65536x1_S65536x1x1,
    nullary main_call1_c_1 ((constantI S1 32 999#32) : (⟨S1, .i32⟩ : BufTy).Contents (Elt F)),
    nullary main_call1_c_2 ((constantI S_ 32 0#32) : (⟨S_, .i32⟩ : BufTy).Contents (Elt F)),
    unary main_call1_c_2 main_call1_v6 ((broadcastInDim S65536x1x1 ![] bcast_S_S65536x1x1) : (⟨S_, .i32⟩ : BufTy).Contents (Elt F) → (⟨S65536x1x1, .i32⟩ : BufTy).Contents (Elt F)),
    binary main_call1_v5 main_call1_v6 main_call1_v7 ((cmpi .sge) : (⟨S65536x1x1, .i32⟩ : BufTy).Contents (Elt F) → (⟨S65536x1x1, .i32⟩ : BufTy).Contents (Elt F) → (⟨S65536x1x1, .i1⟩ : BufTy).Contents (Elt F)),
    unary main_call1_c_1 main_call1_v8 ((broadcastInDim S1x1x1 ![2] bcast_S1_S1x1x1_2) : (⟨S1, .i32⟩ : BufTy).Contents (Elt F) → (⟨S1x1x1, .i32⟩ : BufTy).Contents (Elt F)),
    unary main_call1_v8 main_call1_v9 ((broadcastInDim S65536x1x1 ![0, 1, 2] bcast_S1x1x1_S65536x1x1_0_1_2) : (⟨S1x1x1, .i32⟩ : BufTy).Contents (Elt F) → (⟨S65536x1x1, .i32⟩ : BufTy).Contents (Elt F)),
    binary main_call1_v5 main_call1_v9 main_call1_v10 ((cmpi .sle) : (⟨S65536x1x1, .i32⟩ : BufTy).Contents (Elt F) → (⟨S65536x1x1, .i32⟩ : BufTy).Contents (Elt F) → (⟨S65536x1x1, .i1⟩ : BufTy).Contents (Elt F)),
    binary main_call1_v7 main_call1_v10 main_call1_v11 (andi : (⟨S65536x1x1, .i1⟩ : BufTy).Contents (Elt F) → (⟨S65536x1x1, .i1⟩ : BufTy).Contents (Elt F) → (⟨S65536x1x1, .i1⟩ : BufTy).Contents (Elt F)),
    nullary main_call1_c_3 ((constantI S_ 1 1#1) : (⟨S_, .i1⟩ : BufTy).Contents (Elt F)),
    binary main_call1_v11 main_call1_c_3 main_call1_v12 ((fun x v => Host.reduce IntOp.andi x v reducesTo_S65536x1x1_S65536x1_d2 h_S_) : (⟨S65536x1x1, .i1⟩ : BufTy).Contents (Elt F) → (⟨S_, .i1⟩ : BufTy).Contents (Elt F) → (⟨S65536x1, .i1⟩ : BufTy).Contents (Elt F)),
    binary main_v0 main_call1_v5 main_call1_v13 ((fun x i => Host.gather gather_S65536x1000_S65536x1x1_S65536x1_n_1_0_0_1_2_11 x i) : (⟨S65536x1000, .f32⟩ : BufTy).Contents (Elt F) → (⟨S65536x1x1, .i32⟩ : BufTy).Contents (Elt F) → (⟨S65536x1, .f32⟩ : BufTy).Contents (Elt F)),
    nullary main_call1_cst ((constant S_ .f32 0x7FC00000#32) : (⟨S_, .f32⟩ : BufTy).Contents (Elt F)),
    unary main_call1_cst main_call1_v14 ((broadcastInDim S65536x1 ![] bcast_S_S65536x1) : (⟨S_, .f32⟩ : BufTy).Contents (Elt F) → (⟨S65536x1, .f32⟩ : BufTy).Contents (Elt F)),
    ternary main_call1_v12 main_call1_v13 main_call1_v14 main_v2 (select : (⟨S65536x1, .i1⟩ : BufTy).Contents (Elt F) → (⟨S65536x1, .f32⟩ : BufTy).Contents (Elt F) → (⟨S65536x1, .f32⟩ : BufTy).Contents (Elt F) → (⟨S65536x1, .f32⟩ : BufTy).Contents (Elt F)),
    reshape main_v2 main_v3 rfl shapeCasts_S65536x1_S65536,
    unary main_v3 main_v4 (Host.negf : (⟨S65536, .f32⟩ : BufTy).Contents (Elt F) → (⟨S65536, .f32⟩ : BufTy).Contents (Elt F)) ]

abbrev s3 : List (HloOp τ sig (Elt F)) :=
  [ nullary main_cst (constant S_ .f32 0x00000000#32),
    unary main_cst main_v5 (broadcastInDim S1000 ![] bcast_S_S1000 : (⟨S_, .f32⟩ : BufTy).Contents (Elt F) → (⟨S1000, .f32⟩ : BufTy).Contents (Elt F)),
    unary main_arg1 main_v6 (broadcastInDim S65536x1 ![0] bcast_S65536_S65536x1_0 : (⟨S65536, .i32⟩ : BufTy).Contents (Elt F) → (⟨S65536x1, .i32⟩ : BufTy).Contents (Elt F)),
    ternary main_v5 main_v6 main_v4 main_v7 ((fun x i u => Host.scatterAdd scatter_S1000_S65536x1_S65536_n_0_0_1 x i u) : (⟨S1000, .f32⟩ : BufTy).Contents (Elt F) → (⟨S65536x1, .i32⟩ : BufTy).Contents (Elt F) → (⟨S65536, .f32⟩ : BufTy).Contents (Elt F) → (⟨S1000, .f32⟩ : BufTy).Contents (Elt F)),
    nullary main_cst_0 (constant S_ .f32 0x3F800000#32),
    unary main_cst_0 main_v8 (broadcastInDim S65536 ![] bcast_S_S65536 : (⟨S_, .f32⟩ : BufTy).Contents (Elt F) → (⟨S65536, .f32⟩ : BufTy).Contents (Elt F)),
    nullary main_cst_1 (constant S_ .f32 0x00000000#32),
    unary main_cst_1 main_v9 (broadcastInDim S1000 ![] bcast_S_S1000 : (⟨S_, .f32⟩ : BufTy).Contents (Elt F) → (⟨S1000, .f32⟩ : BufTy).Contents (Elt F)),
    unary main_arg1 main_v10 (broadcastInDim S65536x1 ![0] bcast_S65536_S65536x1_0 : (⟨S65536, .i32⟩ : BufTy).Contents (Elt F) → (⟨S65536x1, .i32⟩ : BufTy).Contents (Elt F)),
    ternary main_v9 main_v10 main_v8 main_v11 ((fun x i u => Host.scatterAdd scatter_S1000_S65536x1_S65536_n_0_0_1 x i u) : (⟨S1000, .f32⟩ : BufTy).Contents (Elt F) → (⟨S65536x1, .i32⟩ : BufTy).Contents (Elt F) → (⟨S65536, .f32⟩ : BufTy).Contents (Elt F) → (⟨S1000, .f32⟩ : BufTy).Contents (Elt F)) ]

abbrev s4 : List (HloOp τ sig (Elt F)) :=
  [ nullary main_cst_2 (constant S_ .f32 0x3F800000#32),
    unary main_cst_2 main_v12 (broadcastInDim S1000 ![] bcast_S_S1000 : (⟨S_, .f32⟩ : BufTy).Contents (Elt F) → (⟨S1000, .f32⟩ : BufTy).Contents (Elt F)),
    binary main_v11 main_v12 main_v13 (maximumf : (⟨S1000, .f32⟩ : BufTy).Contents (Elt F) → (⟨S1000, .f32⟩ : BufTy).Contents (Elt F) → (⟨S1000, .f32⟩ : BufTy).Contents (Elt F)),
    binary main_v7 main_v13 main_v14 (Host.divf : (⟨S1000, .f32⟩ : BufTy).Contents (Elt F) → (⟨S1000, .f32⟩ : BufTy).Contents (Elt F) → (⟨S1000, .f32⟩ : BufTy).Contents (Elt F)),
    unary main_v14 main_v15 (Host.absf : (⟨S1000, .f32⟩ : BufTy).Contents (Elt F) → (⟨S1000, .f32⟩ : BufTy).Contents (Elt F)),
    nullary main_cst_3 (constant S_ .f32 0x00000000#32),
    unary main_cst_3 main_v16 (broadcastInDim S1000 ![] bcast_S_S1000 : (⟨S_, .f32⟩ : BufTy).Contents (Elt F) → (⟨S1000, .f32⟩ : BufTy).Contents (Elt F)),
    binary main_v11 main_v16 main_v17 (cmpf (F := F) .ogt : (⟨S1000, .f32⟩ : BufTy).Contents (Elt F) → (⟨S1000, .f32⟩ : BufTy).Contents (Elt F) → (⟨S1000, .i1⟩ : BufTy).Contents (Elt F)),
    nullary main_cst_4 (constant S_ .f32 0x3F666666#32),
    unary main_cst_4 main_v18 (broadcastInDim S1000 ![] bcast_S_S1000 : (⟨S_, .f32⟩ : BufTy).Contents (Elt F) → (⟨S1000, .f32⟩ : BufTy).Contents (Elt F)),
    binary main_v18 main_arg2 main_v19 (mulf : (⟨S1000, .f32⟩ : BufTy).Contents (Elt F) → (⟨S1000, .f32⟩ : BufTy).Contents (Elt F) → (⟨S1000, .f32⟩ : BufTy).Contents (Elt F)),
    nullary main_cst_5 (constant S_ .f32 0x3DCCCCCD#32),
    unary main_cst_5 main_v20 (broadcastInDim S1000 ![] bcast_S_S1000 : (⟨S_, .f32⟩ : BufTy).Contents (Elt F) → (⟨S1000, .f32⟩ : BufTy).Contents (Elt F)),
    binary main_v20 main_v15 main_v21 (mulf : (⟨S1000, .f32⟩ : BufTy).Contents (Elt F) → (⟨S1000, .f32⟩ : BufTy).Contents (Elt F) → (⟨S1000, .f32⟩ : BufTy).Contents (Elt F)),
    binary main_v19 main_v21 main_v22 (addf : (⟨S1000, .f32⟩ : BufTy).Contents (Elt F) → (⟨S1000, .f32⟩ : BufTy).Contents (Elt F) → (⟨S1000, .f32⟩ : BufTy).Contents (Elt F)),
    ternary main_v17 main_v22 main_arg2 main_v23 (select : (⟨S1000, .i1⟩ : BufTy).Contents (Elt F) → (⟨S1000, .f32⟩ : BufTy).Contents (Elt F) → (⟨S1000, .f32⟩ : BufTy).Contents (Elt F) → (⟨S1000, .f32⟩ : BufTy).Contents (Elt F)) ]

abbrev s5 : List (HloOp τ sig (Elt F)) :=
  [ nullary main_c (constantI S_ 32 0#32),
    unary main_c main_v24 (broadcastInDim S65536 ![] bcast_S_S65536 : (⟨S_, .i32⟩ : BufTy).Contents (Elt F) → (⟨S65536, .i32⟩ : BufTy).Contents (Elt F)),
    binary main_arg1 main_v24 main_v25 (cmpi .slt : (⟨S65536, .i32⟩ : BufTy).Contents (Elt F) → (⟨S65536, .i32⟩ : BufTy).Contents (Elt F) → (⟨S65536, .i1⟩ : BufTy).Contents (Elt F)),
    nullary main_c_6 (constantI S_ 32 1000#32),
    unary main_c_6 main_v26 (broadcastInDim S65536 ![] bcast_S_S65536 : (⟨S_, .i32⟩ : BufTy).Contents (Elt F) → (⟨S65536, .i32⟩ : BufTy).Contents (Elt F)),
    binary main_arg1 main_v26 main_v27 (addi : (⟨S65536, .i32⟩ : BufTy).Contents (Elt F) → (⟨S65536, .i32⟩ : BufTy).Contents (Elt F) → (⟨S65536, .i32⟩ : BufTy).Contents (Elt F)),
    ternary main_v25 main_v27 main_arg1 main_v28 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    unary main_v28 main_v29 (broadcastInDim S65536x1 ![0] bcast_S65536_S65536x1_0 : (⟨S65536, .i32⟩ : BufTy).Contents (Elt F) → (⟨S65536x1, .i32⟩ : BufTy).Contents (Elt F)),
    binary main_v23 main_v29 main_v30 ((fun x i => Host.gather gather_S1000_S65536x1_S65536_n_0_n_n_0_1_1 x i) : (⟨S1000, .f32⟩ : BufTy).Contents (Elt F) → (⟨S65536x1, .i32⟩ : BufTy).Contents (Elt F) → (⟨S65536, .f32⟩ : BufTy).Contents (Elt F)),
    nullary main_cst_7 (constant S_ .f32 0x358637BD#32),
    unary main_cst_7 main_v31 (broadcastInDim S65536 ![] bcast_S_S65536 : (⟨S_, .f32⟩ : BufTy).Contents (Elt F) → (⟨S65536, .f32⟩ : BufTy).Contents (Elt F)),
    binary main_v30 main_v31 main_v32 (addf : (⟨S65536, .f32⟩ : BufTy).Contents (Elt F) → (⟨S65536, .f32⟩ : BufTy).Contents (Elt F) → (⟨S65536, .f32⟩ : BufTy).Contents (Elt F)),
    nullary main_cst_8 (constant S_ .f32 0x3F800000#32),
    unary main_cst_8 main_v33 (broadcastInDim S65536 ![] bcast_S_S65536 : (⟨S_, .f32⟩ : BufTy).Contents (Elt F) → (⟨S65536, .f32⟩ : BufTy).Contents (Elt F)),
    binary main_v33 main_v32 main_v34 (Host.divf : (⟨S65536, .f32⟩ : BufTy).Contents (Elt F) → (⟨S65536, .f32⟩ : BufTy).Contents (Elt F) → (⟨S65536, .f32⟩ : BufTy).Contents (Elt F)) ]

abbrev s6 : List (HloOp τ sig (Elt F)) :=
  [ nullary main_cst_9 (constant S_ .f32 0x00000000#32),
    binary main_v34 main_cst_9 main_v35 ((fun x v => Host.reduceAdd x v reducesTo_S65536_S_d0 h_S_) : (⟨S65536, .f32⟩ : BufTy).Contents (Elt F) → (⟨S_, .f32⟩ : BufTy).Contents (Elt F) → (⟨S_, .f32⟩ : BufTy).Contents (Elt F)),
    unary main_v35 main_v36 (broadcastInDim S65536 ![] bcast_S_S65536 : (⟨S_, .f32⟩ : BufTy).Contents (Elt F) → (⟨S65536, .f32⟩ : BufTy).Contents (Elt F)),
    binary main_v34 main_v36 main_v37 (Host.divf : (⟨S65536, .f32⟩ : BufTy).Contents (Elt F) → (⟨S65536, .f32⟩ : BufTy).Contents (Elt F) → (⟨S65536, .f32⟩ : BufTy).Contents (Elt F)),
    nullary main_cst_10 (constant S_ .f32 0x47800000#32),
    unary main_cst_10 main_v38 (broadcastInDim S65536 ![] bcast_S_S65536 : (⟨S_, .f32⟩ : BufTy).Contents (Elt F) → (⟨S65536, .f32⟩ : BufTy).Contents (Elt F)),
    binary main_v37 main_v38 main_v39 (mulf : (⟨S65536, .f32⟩ : BufTy).Contents (Elt F) → (⟨S65536, .f32⟩ : BufTy).Contents (Elt F) → (⟨S65536, .f32⟩ : BufTy).Contents (Elt F)),
    binary main_v39 main_v4 main_v40 (mulf : (⟨S65536, .f32⟩ : BufTy).Contents (Elt F) → (⟨S65536, .f32⟩ : BufTy).Contents (Elt F) → (⟨S65536, .f32⟩ : BufTy).Contents (Elt F)),
    nullary main_cst_11 (constant S_ .f32 0x00000000#32),
    binary main_v40 main_cst_11 main_v41 ((fun x v => Host.reduceAdd x v reducesTo_S65536_S_d0 h_S_) : (⟨S65536, .f32⟩ : BufTy).Contents (Elt F) → (⟨S_, .f32⟩ : BufTy).Contents (Elt F) → (⟨S_, .f32⟩ : BufTy).Contents (Elt F)),
    nullary main_cst_12 (constant S_ .f32 0x47800000#32),
    binary main_v41 main_cst_12 main_v42 (Host.divf : (⟨S_, .f32⟩ : BufTy).Contents (Elt F) → (⟨S_, .f32⟩ : BufTy).Contents (Elt F) → (⟨S_, .f32⟩ : BufTy).Contents (Elt F)) ]

/-! The first, second and fourth stretch as the program's list has them, at typed references. -/

abbrev t1 : List (HloOp τ sig (Elt F)) :=
  [ TRef.nullary (TRef.of (T := ⟨S_, .f32⟩) main_call0_cst) (constant S_ .f32 0xFF800000#32),
    TRef.binary (TRef.of (T := ⟨S65536x1000, .f32⟩) main_arg0) (TRef.of (T := ⟨S_, .f32⟩) main_call0_cst) (TRef.of (T := ⟨S65536, .f32⟩) main_call0_v0) (fun x v => Host.reduce FloatOps.maximumf x v reducesTo_S65536x1000_S65536_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S65536, .f32⟩) main_call0_v1) (broadcastInDim S65536 ![] bcast_S_S65536),
    TRef.binary (TRef.of (T := ⟨S65536, .f32⟩) main_call0_v1) (TRef.of (T := ⟨S65536, .f32⟩) main_call0_v0) (TRef.of (T := ⟨S65536, .f32⟩) main_call0_v2) maximumf,
    TRef.unary (TRef.of (T := ⟨S65536, .f32⟩) main_call0_v2) (TRef.of (T := ⟨S65536x1, .f32⟩) main_call0_v3) (broadcastInDim S65536x1 ![0] bcast_S65536_S65536x1_0),
    TRef.unary (TRef.of (T := ⟨S65536x1, .f32⟩) main_call0_v3) (TRef.of (T := ⟨S65536x1000, .f32⟩) main_call0_v4) (broadcastInDim S65536x1000 ![0, 1] bcast_S65536x1_S65536x1000_0_1),
    TRef.binary (TRef.of (T := ⟨S65536x1000, .f32⟩) main_arg0) (TRef.of (T := ⟨S65536x1000, .f32⟩) main_call0_v4) (TRef.of (T := ⟨S65536x1000, .f32⟩) main_call0_v5) subf,
    TRef.unary (TRef.of (T := ⟨S65536x1000, .f32⟩) main_call0_v5) (TRef.of (T := ⟨S65536x1000, .f32⟩) main_call0_v6) Host.exp,
    TRef.nullary (TRef.of (T := ⟨S_, .f32⟩) main_call0_cst_1) (constant S_ .f32 0x00000000#32),
    TRef.binary (TRef.of (T := ⟨S65536x1000, .f32⟩) main_call0_v6) (TRef.of (T := ⟨S_, .f32⟩) main_call0_cst_1) (TRef.of (T := ⟨S65536, .f32⟩) main_call0_v7) (fun x v => Host.reduceAdd x v reducesTo_S65536x1000_S65536_d1 h_S_),
    TRef.unary (TRef.of (T := ⟨S65536, .f32⟩) main_call0_v7) (TRef.of (T := ⟨S65536x1, .f32⟩) main_call0_v8) (broadcastInDim S65536x1 ![0] bcast_S65536_S65536x1_0),
    TRef.unary (TRef.of (T := ⟨S65536x1, .f32⟩) main_call0_v8) (TRef.of (T := ⟨S65536x1, .f32⟩) main_call0_v9) Host.log,
    TRef.unary (TRef.of (T := ⟨S65536x1, .f32⟩) main_call0_v9) (TRef.of (T := ⟨S65536x1000, .f32⟩) main_call0_v10) (broadcastInDim S65536x1000 ![0, 1] bcast_S65536x1_S65536x1000_0_1),
    TRef.binary (TRef.of (T := ⟨S65536x1000, .f32⟩) main_call0_v5) (TRef.of (T := ⟨S65536x1000, .f32⟩) main_call0_v10) (TRef.of (T := ⟨S65536x1000, .f32⟩) main_v0) subf ]

abbrev t2 : List (HloOp τ sig (Elt F)) :=
  [ unary main_arg1 main_v1 (broadcastInDim S65536x1 ![0] bcast_S65536_S65536x1_0 : (⟨S65536, .i32⟩ : BufTy).Contents (Elt F) → (⟨S65536x1, .i32⟩ : BufTy).Contents (Elt F)),
    TRef.nullary (TRef.of (T := ⟨S_, .i32⟩) main_call1_c) (constantI S_ 32 0#32),
    TRef.unary (TRef.of (T := ⟨S_, .i32⟩) main_call1_c) (TRef.of (T := ⟨S65536x1, .i32⟩) main_call1_v0) (broadcastInDim S65536x1 ![] bcast_S_S65536x1),
    TRef.binary (TRef.of (T := ⟨S65536x1, .i32⟩) main_v1) (TRef.of (T := ⟨S65536x1, .i32⟩) main_call1_v0) (TRef.of (T := ⟨S65536x1, .i1⟩) main_call1_v1) (cmpi .slt),
    TRef.nullary (TRef.of (T := ⟨S_, .i32⟩) main_call1_c_0) (constantI S_ 32 1000#32),
    TRef.unary (TRef.of (T := ⟨S_, .i32⟩) main_call1_c_0) (TRef.of (T := ⟨S65536x1, .i32⟩) main_call1_v2) (broadcastInDim S65536x1 ![] bcast_S_S65536x1),
    TRef.binary (TRef.of (T := ⟨S65536x1, .i32⟩) main_v1) (TRef.of (T := ⟨S65536x1, .i32⟩) main_call1_v2) (TRef.of (T := ⟨S65536x1, .i32⟩) main_call1_v3) addi,
    TRef.ternary (TRef.of (T := ⟨S65536x1, .i1⟩) main_call1_v1) (TRef.of (T := ⟨S65536x1, .i32⟩) main_call1_v3) (TRef.of (T := ⟨S65536x1, .i32⟩) main_v1) (TRef.of (T := ⟨S65536x1, .i32⟩) main_call1_v4) select,
    TRef.reshape (TRef.of (T := ⟨S65536x1, .i32⟩) main_call1_v4) (TRef.of (T := ⟨S65536x1x1, .i32⟩) main_call1_v5) rfl shapeCasts_S65536x1_S65536x1x1,
    TRef.nullary (TRef.of (T := ⟨S1, .i32⟩) main_call1_c_1) (constantI S1 32 999#32),
    TRef.nullary (TRef.of (T := ⟨S_, .i32⟩) main_call1_c_2) (constantI S_ 32 0#32),
    TRef.unary (TRef.of (T := ⟨S_, .i32⟩) main_call1_c_2) (TRef.of (T := ⟨S65536x1x1, .i32⟩) main_call1_v6) (broadcastInDim S65536x1x1 ![] bcast_S_S65536x1x1),
    TRef.binary (TRef.of (T := ⟨S65536x1x1, .i32⟩) main_call1_v5) (TRef.of (T := ⟨S65536x1x1, .i32⟩) main_call1_v6) (TRef.of (T := ⟨S65536x1x1, .i1⟩) main_call1_v7) (cmpi .sge),
    TRef.unary (TRef.of (T := ⟨S1, .i32⟩) main_call1_c_1) (TRef.of (T := ⟨S1x1x1, .i32⟩) main_call1_v8) (broadcastInDim S1x1x1 ![2] bcast_S1_S1x1x1_2),
    TRef.unary (TRef.of (T := ⟨S1x1x1, .i32⟩) main_call1_v8) (TRef.of (T := ⟨S65536x1x1, .i32⟩) main_call1_v9) (broadcastInDim S65536x1x1 ![0, 1, 2] bcast_S1x1x1_S65536x1x1_0_1_2),
    TRef.binary (TRef.of (T := ⟨S65536x1x1, .i32⟩) main_call1_v5) (TRef.of (T := ⟨S65536x1x1, .i32⟩) main_call1_v9) (TRef.of (T := ⟨S65536x1x1, .i1⟩) main_call1_v10) (cmpi .sle),
    TRef.binary (TRef.of (T := ⟨S65536x1x1, .i1⟩) main_call1_v7) (TRef.of (T := ⟨S65536x1x1, .i1⟩) main_call1_v10) (TRef.of (T := ⟨S65536x1x1, .i1⟩) main_call1_v11) andi,
    TRef.nullary (TRef.of (T := ⟨S_, .i1⟩) main_call1_c_3) (constantI S_ 1 1#1),
    TRef.binary (TRef.of (T := ⟨S65536x1x1, .i1⟩) main_call1_v11) (TRef.of (T := ⟨S_, .i1⟩) main_call1_c_3) (TRef.of (T := ⟨S65536x1, .i1⟩) main_call1_v12) (fun x v => Host.reduce IntOp.andi x v reducesTo_S65536x1x1_S65536x1_d2 h_S_),
    TRef.binary (TRef.of (T := ⟨S65536x1000, .f32⟩) main_v0) (TRef.of (T := ⟨S65536x1x1, .i32⟩) main_call1_v5) (TRef.of (T := ⟨S65536x1, .f32⟩) main_call1_v13) (fun x i => Host.gather gather_S65536x1000_S65536x1x1_S65536x1_n_1_0_0_1_2_11 x i),
    TRef.nullary (TRef.of (T := ⟨S_, .f32⟩) main_call1_cst) (constant S_ .f32 0x7FC00000#32),
    TRef.unary (TRef.of (T := ⟨S_, .f32⟩) main_call1_cst) (TRef.of (T := ⟨S65536x1, .f32⟩) main_call1_v14) (broadcastInDim S65536x1 ![] bcast_S_S65536x1),
    TRef.ternary (TRef.of (T := ⟨S65536x1, .i1⟩) main_call1_v12) (TRef.of (T := ⟨S65536x1, .f32⟩) main_call1_v13) (TRef.of (T := ⟨S65536x1, .f32⟩) main_call1_v14) (TRef.of (T := ⟨S65536x1, .f32⟩) main_v2) select,
    reshape main_v2 main_v3 rfl shapeCasts_S65536x1_S65536,
    unary main_v3 main_v4 (Host.negf : (⟨S65536, .f32⟩ : BufTy).Contents (Elt F) → (⟨S65536, .f32⟩ : BufTy).Contents (Elt F)) ]

abbrev t4 : List (HloOp τ sig (Elt F)) :=
  [ nullary main_cst_2 (constant S_ .f32 0x3F800000#32),
    unary main_cst_2 main_v12 (broadcastInDim S1000 ![] bcast_S_S1000 : (⟨S_, .f32⟩ : BufTy).Contents (Elt F) → (⟨S1000, .f32⟩ : BufTy).Contents (Elt F)),
    binary main_v11 main_v12 main_v13 (maximumf : (⟨S1000, .f32⟩ : BufTy).Contents (Elt F) → (⟨S1000, .f32⟩ : BufTy).Contents (Elt F) → (⟨S1000, .f32⟩ : BufTy).Contents (Elt F)),
    binary main_v7 main_v13 main_v14 (Host.divf : (⟨S1000, .f32⟩ : BufTy).Contents (Elt F) → (⟨S1000, .f32⟩ : BufTy).Contents (Elt F) → (⟨S1000, .f32⟩ : BufTy).Contents (Elt F)),
    unary main_v14 main_v15 (Host.absf : (⟨S1000, .f32⟩ : BufTy).Contents (Elt F) → (⟨S1000, .f32⟩ : BufTy).Contents (Elt F)),
    nullary main_cst_3 (constant S_ .f32 0x00000000#32),
    unary main_cst_3 main_v16 (broadcastInDim S1000 ![] bcast_S_S1000 : (⟨S_, .f32⟩ : BufTy).Contents (Elt F) → (⟨S1000, .f32⟩ : BufTy).Contents (Elt F)),
    binary main_v11 main_v16 main_v17 (cmpf (F := F) .ogt : (⟨S1000, .f32⟩ : BufTy).Contents (Elt F) → (⟨S1000, .f32⟩ : BufTy).Contents (Elt F) → (⟨S1000, .i1⟩ : BufTy).Contents (Elt F)),
    nullary main_cst_4 (constant S_ .f32 0x3F666666#32),
    unary main_cst_4 main_v18 (broadcastInDim S1000 ![] bcast_S_S1000 : (⟨S_, .f32⟩ : BufTy).Contents (Elt F) → (⟨S1000, .f32⟩ : BufTy).Contents (Elt F)),
    binary main_v18 main_arg2 main_v19 (mulf : (⟨S1000, .f32⟩ : BufTy).Contents (Elt F) → (⟨S1000, .f32⟩ : BufTy).Contents (Elt F) → (⟨S1000, .f32⟩ : BufTy).Contents (Elt F)),
    nullary main_cst_5 (constant S_ .f32 0x3DCCCCCD#32),
    unary main_cst_5 main_v20 (broadcastInDim S1000 ![] bcast_S_S1000 : (⟨S_, .f32⟩ : BufTy).Contents (Elt F) → (⟨S1000, .f32⟩ : BufTy).Contents (Elt F)),
    binary main_v20 main_v15 main_v21 (mulf : (⟨S1000, .f32⟩ : BufTy).Contents (Elt F) → (⟨S1000, .f32⟩ : BufTy).Contents (Elt F) → (⟨S1000, .f32⟩ : BufTy).Contents (Elt F)),
    binary main_v19 main_v21 main_v22 (addf : (⟨S1000, .f32⟩ : BufTy).Contents (Elt F) → (⟨S1000, .f32⟩ : BufTy).Contents (Elt F) → (⟨S1000, .f32⟩ : BufTy).Contents (Elt F)),
    TRef.ternary (TRef.of (T := ⟨S1000, .i1⟩) main_v17) (TRef.of (T := ⟨S1000, .f32⟩) main_v22) (TRef.of (T := ⟨S1000, .f32⟩) main_arg2) (TRef.of (T := ⟨S1000, .f32⟩) main_v23) select ]

/-! A typed-reference operation at literal references is the plain operation at the same buffers with the same function:
    the transport along the reference's type equation is the identity once that equation is between equal types. -/

private theorem tnullary_eq {y : Ref sig .tc} {Ty : BufTy} (hy : y.ty = Ty) (dy : y.space ≠ .host)
    (uy : y.isScoped = false) (v : Ty.Contents (Elt F)) (w : y.ty.Contents (Elt F)) (hvw : HEq v w)
    (hy' : y.space ≠ .host ∧ (y : DevRef τ sig).isScoped = false) :
    (TRef.nullary (τ := τ) (⟨y, hy, dy, uy⟩ : TRef sig Ty) v : HloOp τ sig (Elt F)) = nullary y w hy' := by
  subst hy; cases hvw; rfl

private theorem tunary_eq {x y : Ref sig .tc} {Tx Ty : BufTy} (hx : x.ty = Tx) (hy : y.ty = Ty)
    (dx : x.space ≠ .host) (ux : x.isScoped = false) (dy : y.space ≠ .host) (uy : y.isScoped = false)
    (f : Tx.Contents (Elt F) → Ty.Contents (Elt F)) (g : x.ty.Contents (Elt F) → y.ty.Contents (Elt F)) (hfg : HEq f g)
    (hx' : x.space ≠ .host ∧ (x : DevRef τ sig).isScoped = false)
    (hy' : y.space ≠ .host ∧ (y : DevRef τ sig).isScoped = false) :
    (TRef.unary (τ := τ) (⟨x, hx, dx, ux⟩ : TRef sig Tx) (⟨y, hy, dy, uy⟩ : TRef sig Ty) f : HloOp τ sig (Elt F))
      = unary x y g hx' hy' := by
  subst hx; subst hy; cases hfg; rfl

private theorem tbinary_eq {a b y : Ref sig .tc} {Ta Tb Ty : BufTy} (ha : a.ty = Ta) (hb : b.ty = Tb) (hy : y.ty = Ty)
    (da : a.space ≠ .host) (ua : a.isScoped = false) (db : b.space ≠ .host) (ub : b.isScoped = false)
    (dy : y.space ≠ .host) (uy : y.isScoped = false)
    (f : Ta.Contents (Elt F) → Tb.Contents (Elt F) → Ty.Contents (Elt F))
    (g : a.ty.Contents (Elt F) → b.ty.Contents (Elt F) → y.ty.Contents (Elt F)) (hfg : HEq f g)
    (ha' : a.space ≠ .host ∧ (a : DevRef τ sig).isScoped = false)
    (hb' : b.space ≠ .host ∧ (b : DevRef τ sig).isScoped = false)
    (hy' : y.space ≠ .host ∧ (y : DevRef τ sig).isScoped = false) :
    (TRef.binary (τ := τ) (⟨a, ha, da, ua⟩ : TRef sig Ta) (⟨b, hb, db, ub⟩ : TRef sig Tb) (⟨y, hy, dy, uy⟩ : TRef sig Ty) f
        : HloOp τ sig (Elt F))
      = binary a b y g ha' hb' hy' := by
  subst ha; subst hb; subst hy; cases hfg; rfl

private theorem tternary_eq {c a b y : Ref sig .tc} {Tc Ta Tb Ty : BufTy} (hc : c.ty = Tc) (ha : a.ty = Ta) (hb : b.ty = Tb)
    (hy : y.ty = Ty)
    (dc : c.space ≠ .host) (uc : c.isScoped = false) (da : a.space ≠ .host) (ua : a.isScoped = false)
    (db : b.space ≠ .host) (ub : b.isScoped = false) (dy : y.space ≠ .host) (uy : y.isScoped = false)
    (f : Tc.Contents (Elt F) → Ta.Contents (Elt F) → Tb.Contents (Elt F) → Ty.Contents (Elt F))
    (g : c.ty.Contents (Elt F) → a.ty.Contents (Elt F) → b.ty.Contents (Elt F) → y.ty.Contents (Elt F)) (hfg : HEq f g)
    (hc' : c.space ≠ .host ∧ (c : DevRef τ sig).isScoped = false)
    (ha' : a.space ≠ .host ∧ (a : DevRef τ sig).isScoped = false)
    (hb' : b.space ≠ .host ∧ (b : DevRef τ sig).isScoped = false)
    (hy' : y.space ≠ .host ∧ (y : DevRef τ sig).isScoped = false) :
    (TRef.ternary (τ := τ) (⟨c, hc, dc, uc⟩ : TRef sig Tc) (⟨a, ha, da, ua⟩ : TRef sig Ta) (⟨b, hb, db, ub⟩ : TRef sig Tb)
        (⟨y, hy, dy, uy⟩ : TRef sig Ty) f : HloOp τ sig (Elt F))
      = ternary c a b y g hc' ha' hb' hy' := by
  subst hc; subst ha; subst hb; subst hy; cases hfg; rfl

/-! ## The program is the six stretches in a row -/

set_option maxRecDepth 8192 in
set_option maxHeartbeats 4000000 in
theorem ops_eq_t : (ops : List (HloOp τ sig (Elt F))) = t1 ++ (t2 ++ (s3 ++ (t4 ++ (s5 ++ s6)))) := rfl

theorem t1_eq : (t1 : List (HloOp τ sig (Elt F))) = s1 := by
  refine congrArg₂ List.cons (tnullary_eq _ _ _ _ _ HEq.rfl _) ?_
  refine congrArg₂ List.cons (tbinary_eq _ _ _ _ _ _ _ _ _ _ _ HEq.rfl _ _ _) ?_
  refine congrArg₂ List.cons (tnullary_eq _ _ _ _ _ HEq.rfl _) ?_
  refine congrArg₂ List.cons (tunary_eq _ _ _ _ _ _ _ _ HEq.rfl _ _) ?_
  refine congrArg₂ List.cons (tbinary_eq _ _ _ _ _ _ _ _ _ _ _ HEq.rfl _ _ _) ?_
  refine congrArg₂ List.cons (tunary_eq _ _ _ _ _ _ _ _ HEq.rfl _ _) ?_
  refine congrArg₂ List.cons (tunary_eq _ _ _ _ _ _ _ _ HEq.rfl _ _) ?_
  refine congrArg₂ List.cons (tbinary_eq _ _ _ _ _ _ _ _ _ _ _ HEq.rfl _ _ _) ?_
  refine congrArg₂ List.cons (tunary_eq _ _ _ _ _ _ _ _ HEq.rfl _ _) ?_
  refine congrArg₂ List.cons (tnullary_eq _ _ _ _ _ HEq.rfl _) ?_
  refine congrArg₂ List.cons (tbinary_eq _ _ _ _ _ _ _ _ _ _ _ HEq.rfl _ _ _) ?_
  refine congrArg₂ List.cons (tunary_eq _ _ _ _ _ _ _ _ HEq.rfl _ _) ?_
  refine congrArg₂ List.cons (tunary_eq _ _ _ _ _ _ _ _ HEq.rfl _ _) ?_
  refine congrArg₂ List.cons (tunary_eq _ _ _ _ _ _ _ _ HEq.rfl _ _) ?_
  refine congrArg₂ List.cons (tbinary_eq _ _ _ _ _ _ _ _ _ _ _ HEq.rfl _ _ _) ?_
  rfl

theorem t2_eq : (t2 : List (HloOp τ sig (Elt F))) = s2 := by
  refine congrArg₂ List.cons rfl ?_
  refine congrArg₂ List.cons (tnullary_eq _ _ _ _ _ HEq.rfl _) ?_
  refine congrArg₂ List.cons (tunary_eq _ _ _ _ _ _ _ _ HEq.rfl _ _) ?_
  refine congrArg₂ List.cons (tbinary_eq _ _ _ _ _ _ _ _ _ _ _ HEq.rfl _ _ _) ?_
  refine congrArg₂ List.cons (tnullary_eq _ _ _ _ _ HEq.rfl _) ?_
  refine congrArg₂ List.cons (tunary_eq _ _ _ _ _ _ _ _ HEq.rfl _ _) ?_
  refine congrArg₂ List.cons (tbinary_eq _ _ _ _ _ _ _ _ _ _ _ HEq.rfl _ _ _) ?_
  refine congrArg₂ List.cons (tternary_eq _ _ _ _ _ _ _ _ _ _ _ _ _ _ HEq.rfl _ _ _ _) ?_
  refine congrArg₂ List.cons rfl ?_
  refine congrArg₂ List.cons (tnullary_eq _ _ _ _ _ HEq.rfl _) ?_
  refine congrArg₂ List.cons (tnullary_eq _ _ _ _ _ HEq.rfl _) ?_
  refine congrArg₂ List.cons (tunary_eq _ _ _ _ _ _ _ _ HEq.rfl _ _) ?_
  refine congrArg₂ List.cons (tbinary_eq _ _ _ _ _ _ _ _ _ _ _ HEq.rfl _ _ _) ?_
  refine congrArg₂ List.cons (tunary_eq _ _ _ _ _ _ _ _ HEq.rfl _ _) ?_
  refine congrArg₂ List.cons (tunary_eq _ _ _ _ _ _ _ _ HEq.rfl _ _) ?_
  refine congrArg₂ List.cons (tbinary_eq _ _ _ _ _ _ _ _ _ _ _ HEq.rfl _ _ _) ?_
  refine congrArg₂ List.cons (tbinary_eq _ _ _ _ _ _ _ _ _ _ _ HEq.rfl _ _ _) ?_
  refine congrArg₂ List.cons (tnullary_eq _ _ _ _ _ HEq.rfl _) ?_
  refine congrArg₂ List.cons (tbinary_eq _ _ _ _ _ _ _ _ _ _ _ HEq.rfl _ _ _) ?_
  refine congrArg₂ List.cons (tbinary_eq _ _ _ _ _ _ _ _ _ _ _ HEq.rfl _ _ _) ?_
  refine congrArg₂ List.cons (tnullary_eq _ _ _ _ _ HEq.rfl _) ?_
  refine congrArg₂ List.cons (tunary_eq _ _ _ _ _ _ _ _ HEq.rfl _ _) ?_
  refine congrArg₂ List.cons (tternary_eq _ _ _ _ _ _ _ _ _ _ _ _ _ _ HEq.rfl _ _ _ _) ?_
  refine congrArg₂ List.cons rfl ?_
  refine congrArg₂ List.cons rfl ?_
  rfl

theorem t4_eq : (t4 : List (HloOp τ sig (Elt F))) = s4 := by
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons (tternary_eq _ _ _ _ _ _ _ _ _ _ _ _ _ _ HEq.rfl _ _ _ _) ?_
  rfl

theorem ops_eq : (ops : List (HloOp τ sig (Elt F))) = s1 ++ (s2 ++ (s3 ++ (s4 ++ (s5 ++ s6)))) := by
  rw [ops_eq_t, t1_eq, t2_eq, t4_eq]

/-! ## What each stretch leaves

Over any contents `W`: if the buffers a stretch reads hold the stages named (the arguments: `x0 x1 x2`), the buffer it leaves
holds its own stage. Each is the composition of the stretch's operations' results, rewritten at what it reads. -/

/-- The log-softmax: operations 0-14. -/
theorem s1_v0 (W : Valuation τ sig (Elt F)) (x0 : (⟨S65536x1000, .f32⟩ : BufTy).Contents (Elt F))
    (h0 : W (Proc.devRef .tc main_arg0) = x0) :
    after s1 W (Proc.devRef .tc main_v0) = val_main_v0 (F := F) x0 := by
  after_results_simp
  rw [h0]
  rfl

/-- The gather along the class axis and its negation: operations 15-39. -/
theorem s2_v4 (W : Valuation τ sig (Elt F)) (x0 : (⟨S65536x1000, .f32⟩ : BufTy).Contents (Elt F))
    (x1 : (⟨S65536, .i32⟩ : BufTy).Contents (Elt F))
    (h0 : W (Proc.devRef .tc main_v0) = val_main_v0 (F := F) x0) (h1 : W (Proc.devRef .tc main_arg1) = x1) :
    after s2 W (Proc.devRef .tc main_v4) = val_main_v4 (F := F) x0 x1 := by
  after_results_simp
  rw [h0, h1]
  rfl

/-- The two per-class scatters: operations 40-49. The per-class sums. -/
theorem s3_v7 (W : Valuation τ sig (Elt F)) (x0 : (⟨S65536x1000, .f32⟩ : BufTy).Contents (Elt F)) (x1 : (⟨S65536, .i32⟩ : BufTy).Contents (Elt F))
    (h4 : W (Proc.devRef .tc main_v4) = val_main_v4 (F := F) x0 x1) (h1 : W (Proc.devRef .tc main_arg1) = x1) :
    after s3 W (Proc.devRef .tc main_v7) = val_main_v7 (F := F) x0 x1 := by
  after_results_simp
  rw [h4, h1]
  rfl

/-- The per-class counts. -/
theorem s3_v11 (W : Valuation τ sig (Elt F)) (x1 : (⟨S65536, .i32⟩ : BufTy).Contents (Elt F)) (h1 : W (Proc.devRef .tc main_arg1) = x1) :
    after s3 W (Proc.devRef .tc main_v11) = val_main_v11 (F := F) x1 := by
  after_results_simp
  rw [h1]
  rfl

/-- The update of the gradient magnitudes: operations 50-65. -/
theorem s4_v23 (W : Valuation τ sig (Elt F)) (x0 : (⟨S65536x1000, .f32⟩ : BufTy).Contents (Elt F)) (x1 : (⟨S65536, .i32⟩ : BufTy).Contents (Elt F)) (x2 : (⟨S1000, .f32⟩ : BufTy).Contents (Elt F))
    (h7 : W (Proc.devRef .tc main_v7) = val_main_v7 (F := F) x0 x1) (h11 : W (Proc.devRef .tc main_v11) = val_main_v11 (F := F) x1)
    (h2 : W (Proc.devRef .tc main_arg2) = x2) :
    after s4 W (Proc.devRef .tc main_v23) = val_main_v23 (F := F) x0 x1 x2 := by
  after_results_simp
  rw [h7, h11, h2]
  rfl

/-- The per-sample weights: operations 66-80. -/
theorem s5_v34 (W : Valuation τ sig (Elt F)) (x0 : (⟨S65536x1000, .f32⟩ : BufTy).Contents (Elt F)) (x1 : (⟨S65536, .i32⟩ : BufTy).Contents (Elt F)) (x2 : (⟨S1000, .f32⟩ : BufTy).Contents (Elt F))
    (h23 : W (Proc.devRef .tc main_v23) = val_main_v23 (F := F) x0 x1 x2) (h1 : W (Proc.devRef .tc main_arg1) = x1) :
    after s5 W (Proc.devRef .tc main_v34) = val_main_v34 (F := F) x0 x1 x2 := by
  after_results_simp
  rw [h23, h1]
  rfl

/-- The renormalised weighted mean: operations 81-92. -/
theorem s6_v42 (W : Valuation τ sig (Elt F)) (x0 : (⟨S65536x1000, .f32⟩ : BufTy).Contents (Elt F)) (x1 : (⟨S65536, .i32⟩ : BufTy).Contents (Elt F)) (x2 : (⟨S1000, .f32⟩ : BufTy).Contents (Elt F))
    (h34 : W (Proc.devRef .tc main_v34) = val_main_v34 (F := F) x0 x1 x2) (h4 : W (Proc.devRef .tc main_v4) = val_main_v4 (F := F) x0 x1) :
    after s6 W (Proc.devRef .tc main_v42) = val_main_v42 (F := F) x0 x1 x2 := by
  after_results_simp
  rw [h34, h4]
  rfl

/-- The six stretches one after the other: from any contents whose argument buffers hold `x0 x1 x2`, the result buffer
    ends at the last stage of `x0 x1 x2`. Each stretch is fed the value the one before it left and the arguments, which
    no operation writes; the cross entropies of the second stretch are carried over the three stretches that do not
    write them to the last one, which reads them again. -/
theorem after_ops_v42 (V : Valuation τ sig (Elt F)) (x0 : (⟨S65536x1000, .f32⟩ : BufTy).Contents (Elt F)) (x1 : (⟨S65536, .i32⟩ : BufTy).Contents (Elt F)) (x2 : (⟨S1000, .f32⟩ : BufTy).Contents (Elt F))
    (h0 : V (Proc.devRef .tc main_arg0) = x0) (h1 : V (Proc.devRef .tc main_arg1) = x1) (h2 : V (Proc.devRef .tc main_arg2) = x2) :
    after ops V (Proc.devRef .tc main_v42) = val_main_v42 (F := F) x0 x1 x2 := by
  rw [ops_eq, after_append, after_append, after_append, after_append, after_append]
  -- after the log-softmax
  have e1 : after s1 V (Proc.devRef .tc main_v0) = val_main_v0 (F := F) x0 := s1_v0 V x0 h0
  have a1 : after s1 V (Proc.devRef .tc main_arg1) = x1 := (by keep_host s1 : after s1 V (Proc.devRef .tc main_arg1) = V (Proc.devRef .tc main_arg1)).trans h1
  have a2 : after s1 V (Proc.devRef .tc main_arg2) = x2 := (by keep_host s1 : after s1 V (Proc.devRef .tc main_arg2) = V (Proc.devRef .tc main_arg2)).trans h2
  generalize after s1 V = W1 at e1 a1 a2 ⊢
  -- after the gather and the negation
  have e2 : after s2 W1 (Proc.devRef .tc main_v4) = val_main_v4 (F := F) x0 x1 := s2_v4 W1 x0 x1 e1 a1
  have b1 : after s2 W1 (Proc.devRef .tc main_arg1) = x1 := (by keep_host s2 : after s2 W1 (Proc.devRef .tc main_arg1) = W1 (Proc.devRef .tc main_arg1)).trans a1
  have b2 : after s2 W1 (Proc.devRef .tc main_arg2) = x2 := (by keep_host s2 : after s2 W1 (Proc.devRef .tc main_arg2) = W1 (Proc.devRef .tc main_arg2)).trans a2
  generalize after s2 W1 = W2 at e2 b1 b2 ⊢
  -- after the two scatters
  have e3 : after s3 W2 (Proc.devRef .tc main_v7) = val_main_v7 (F := F) x0 x1 := s3_v7 W2 x0 x1 e2 b1
  have e3' : after s3 W2 (Proc.devRef .tc main_v11) = val_main_v11 (F := F) x1 := s3_v11 W2 x1 b1
  have k3 : after s3 W2 (Proc.devRef .tc main_v4) = val_main_v4 (F := F) x0 x1 := (by keep_host s3 : after s3 W2 (Proc.devRef .tc main_v4) = W2 (Proc.devRef .tc main_v4)).trans e2
  have c1 : after s3 W2 (Proc.devRef .tc main_arg1) = x1 := (by keep_host s3 : after s3 W2 (Proc.devRef .tc main_arg1) = W2 (Proc.devRef .tc main_arg1)).trans b1
  have c2 : after s3 W2 (Proc.devRef .tc main_arg2) = x2 := (by keep_host s3 : after s3 W2 (Proc.devRef .tc main_arg2) = W2 (Proc.devRef .tc main_arg2)).trans b2
  generalize after s3 W2 = W3 at e3 e3' k3 c1 c2 ⊢
  -- after the update of the gradient magnitudes
  have e4 : after s4 W3 (Proc.devRef .tc main_v23) = val_main_v23 (F := F) x0 x1 x2 := s4_v23 W3 x0 x1 x2 e3 e3' c2
  have k4 : after s4 W3 (Proc.devRef .tc main_v4) = val_main_v4 (F := F) x0 x1 := (by keep_host s4 : after s4 W3 (Proc.devRef .tc main_v4) = W3 (Proc.devRef .tc main_v4)).trans k3
  have d1 : after s4 W3 (Proc.devRef .tc main_arg1) = x1 := (by keep_host s4 : after s4 W3 (Proc.devRef .tc main_arg1) = W3 (Proc.devRef .tc main_arg1)).trans c1
  generalize after s4 W3 = W4 at e4 k4 d1 ⊢
  -- after the per-sample weights
  have e5 : after s5 W4 (Proc.devRef .tc main_v34) = val_main_v34 (F := F) x0 x1 x2 := s5_v34 W4 x0 x1 x2 e4 d1
  have k5 : after s5 W4 (Proc.devRef .tc main_v4) = val_main_v4 (F := F) x0 x1 := (by keep_host s5 : after s5 W4 (Proc.devRef .tc main_v4) = W4 (Proc.devRef .tc main_v4)).trans k4
  generalize after s5 W4 = W5 at e5 k5 ⊢
  -- the weighted mean
  exact s6_v42 W5 x0 x1 x2 e5 k5

/-- On every device, for any float values, from any memory with zero counters: every weakly fair execution of the
    reference terminates with its result at the last stage of the argument arrays and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v42)
          = val_main_v42 (F := F) (m ((c.tc : Thread nD τ).loc main_arg0)) (m ((c.tc : Thread nD τ).loc main_arg1))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v42).trans (after_ops_v42 _ _ _ _ rfl rfl rfl),
      (h c main_arg0).trans (by after_results_simp <;> rfl), (h c main_arg1).trans (by after_results_simp <;> rfl),
      (h c main_arg2).trans (by after_results_simp <;> rfl)⟩)
    (run_seq scopedRefs_eq scopedSems_eq defs main (fun _ => ops) main_eq (fun _ => ops_sub) m ρ)

end Cert.ReferenceIdeal.RStage

end
-- ==== Proof.Spec.lean ====
/-
  The mathematics of the certificate, stated once over the extended reals and free of either program.

  The loss is a weighted mean of per-sample cross entropies. For a row `x` of 1000 logits with label `t`
  the cross entropy is `log (∑ c, exp (x c - M)) + M - x t`, `M` the row's maximum (`rowLoss`; the
  reference writes the same number as `-((x t - M) - log (∑ c, exp (x c - M)))`, `rowLossRef`).
  Per class `c` the sum `s c` of the cross entropies of the samples labelled `c` and their number `n c`
  (`seg`) update the class's gradient magnitude `g c` to `0.9 g c + 0.1 |s c / max (n c) 1|` when the class
  occurs and leave it otherwise (`newMag`); a sample labelled `c` weighs `1 / (newMag + ε)` (`weight`).
  One program returns `(∑ w·ce) / (∑ w)` (`meanA`), the other first renormalises the weights to sum to the
  number of samples `N` and returns `(∑ ((w / ∑ w) · N) · ce) / N` (`meanB`). The two agree whenever every
  weight is a positive real and every cross entropy a real: Proof/LossLaw.lean.

  Float literals stay as the words the programs carry (`Ideal.ofBits .f32 …`); Proof/Consts.lean says which
  positive reals they are.
-/
import Idealize.ShloMosaic.PureOps.Ideal
import Idealize.ShloMosaic.PureOps.Ideal.Laws

noncomputable section

namespace Cert.GBL

open Idealize.ShloMosaic

/-- The number of samples and of classes. -/
abbrev NR : ℕ := 65536
abbrev NC : ℕ := 1000

/-! ## The float words the programs carry -/

/-- 0.9 as an f32 word, -/
abbrev w09 : EReal := Ideal.ofBits .f32 0x3F666666#32
/-- 0.1, -/
abbrev w01 : EReal := Ideal.ofBits .f32 0x3DCCCCCD#32
/-- 1e-6, -/
abbrev wEps : EReal := Ideal.ofBits .f32 0x358637BD#32
/-- 1, -/
abbrev wOne : EReal := Ideal.ofBits .f32 0x3F800000#32
/-- 0, -/
abbrev wZero : EReal := Ideal.ofBits .f32 0x00000000#32
/-- 65536, -/
abbrev wN : EReal := Ideal.ofBits .f32 0x47800000#32
/-- and minus infinity. -/
abbrev wNegInf : EReal := Ideal.ofBits .f32 0xFF800000#32

/-! ## One row's cross entropy -/

/-- The row maximum as both programs fold it: `max` over the classes from minus infinity. -/
def rowMax (x : Fin NC → EReal) : EReal := (Finset.univ : Finset (Fin NC)).fold max wNegInf x

/-- The entry of the row a label picks, as a masked sum over the classes: the kernel compares the label word
    with each class number and sums the selected entries. -/
def picked (x : Fin NC → EReal) (t : BitVec 32) : EReal :=
  ∑ c : Fin NC, Scalar.select (IntOp.cmpi .eq t (BitVec.ofNat 32 c.val)) (x c) wZero

/-- Cross entropy of a row, the kernel's arrangement: log-sum-exp of the shifted row, plus the shift, minus
    the picked entry. -/
def rowLoss (x : Fin NC → EReal) (t : BitVec 32) : EReal :=
  (Ideal.log (∑ c : Fin NC, Ideal.exp (x c - rowMax x)) + rowMax x) - picked x t

/-- Cross entropy of a row, the reference's arrangement: minus the log-softmax entry at the label `k`. The
    reference takes the maximum once more against minus infinity and sums from the zero word. -/
def rowLossRef (x : Fin NC → EReal) (k : Fin NC) : EReal :=
  -((x k - max wNegInf (rowMax x)) - Ideal.log (wZero + ∑ c : Fin NC, Ideal.exp (x c - max wNegInf (rowMax x))))

/-! ## Per-class sums -/

/-- The sum of `u r` over the samples `r` whose label word, read signed, is the class `c`. -/
def seg (T : Fin NR → BitVec 32) (u : Fin NR → EReal) (c : Fin NC) : EReal :=
  ∑ r : Fin NR, if (T r).toInt = (c.val : ℤ) then u r else 0

/-! ## The weights -/

/-- A class's new gradient magnitude from its cross-entropy sum `s`, its count `n` and its old magnitude `g`. -/
def newMag (s n g : EReal) : EReal :=
  Scalar.select (Ideal.cmp .ogt n wZero)
    (w09 * g + w01 * max (Ideal.div s (max n wOne)) (-(Ideal.div s (max n wOne)))) g

/-- The weight of a sample of that class. -/
def weight (s n g : EReal) : EReal := Ideal.div wOne (newMag s n g + wEps)

/-! ## The two weighted means -/

variable {ι : Type} [Fintype ι]

/-- `(∑ w·ce) / (∑ w)`, each sum from the zero word. -/
def meanA (w ce : ι → EReal) : EReal :=
  Ideal.div (wZero + ∑ i, w i * ce i) (wZero + ∑ i, w i)

/-- `(∑ ((w / ∑ w) · N) · ce) / N`, each sum from the zero word. -/
def meanB (w ce : ι → EReal) : EReal :=
  Ideal.div (wZero + ∑ i, (Ideal.div (w i) (wZero + ∑ j, w j) * wN) * ce i) wN

end Cert.GBL

end
-- ==== Proof.LibGather.lean ====
/-
  Two layouts of the host's gather read at an index, at generic extents.
  `gather_vec_apply` — a [C] vector indexed by an [N, 1] column of 32-bit words (`x[idx]`: no offset axis, the
  operand's one axis collapsed and named by the start index, the index vector on axis 1): entry `r` of the result
  is the operand at the word `idx (r, 0)`, read signed and clamped into `[0, C - 1]`.
  `gather_along_apply` — an [N, C] matrix indexed along its last axis, row by row, by an [N, 1, 1] array of words
  (`take_along_axis (x, idx[:, None], axis = -1)`: axis 0 a batching axis of operand and indices, axis 1 collapsed
  and named by the start index, the index vector on axis 2): entry `(r, 0)` of the result is the operand at row
  `r` and the column `idx (r, 0, 0)`, read signed and clamped into `[0, C - 1]`.
-/
import Idealize.ShloMosaic.PureOps.ShapeOps
import Idealize.ShloMosaic.Lib.ValueIdx

noncomputable section

namespace Cert.LibGather

open Idealize.ShloMosaic Idealize.ShloMosaic.ValueIdx

/-- The dimension numbers of the vector layout (operand `[C]`, start indices `[N, 1]`, result `[N]`). -/
private abbrev vecDims (C N : ℕ)
    (wf : GatherDims.WF (⟨1, ![C]⟩ : Shape) (⟨2, ![N, 1]⟩ : Shape) (⟨1, ![N]⟩ : Shape) [] [0] [] [0] [] 1 ![1]) :
    GatherDims (⟨1, ![C]⟩ : Shape) (⟨2, ![N, 1]⟩ : Shape) (⟨1, ![N]⟩ : Shape) :=
  ⟨[], [0], [], [], [0], 1, ![1], wf⟩

/-- The dimension numbers of the row-by-row layout (operand `[N, C]`, start indices `[N, 1, 1]`, result
    `[N, 1]`). -/
private abbrev alongDims (C N : ℕ)
    (wf : GatherDims.WF (⟨2, ![N, C]⟩ : Shape) (⟨3, ![N, 1, 1]⟩ : Shape) (⟨2, ![N, 1]⟩ : Shape) [] [1] [0] [1] [0] 2
      ![1, 1]) :
    GatherDims (⟨2, ![N, C]⟩ : Shape) (⟨3, ![N, 1, 1]⟩ : Shape) (⟨2, ![N, 1]⟩ : Shape) :=
  ⟨[], [1], [0], [0], [1], 2, ![1, 1], wf⟩

/-- A vector indexed by a column of words. With no offset axis, the operand's one axis collapsed and named by the
    start index map, and the index vector on axis 1 of the `[N, 1]` start indices, entry `r` of the gather is the
    operand at the word `idx (r, 0)`, read as a signed integer and clamped into `[0, C - 1]` (the slice size is 1,
    so the clamp's upper end is `C - 1`). -/
theorem gather_vec_apply {α : Type} {C N : ℕ} (hC : 0 < C)
    (d : GatherDims (⟨1, ![C]⟩ : Shape) (⟨2, ![N, 1]⟩ : Shape) (⟨1, ![N]⟩ : Shape))
    (hod : d.offsetDims = []) (hcs : d.collapsedSliceDims = [0]) (hob : d.operandBatchingDims = [])
    (hsb : d.startIndicesBatchingDims = []) (hsim : d.startIndexMap = [0]) (hiv : d.indexVectorDim = 1)
    (hss : d.sliceSizes = ![1])
    (x : (⟨1, ![C]⟩ : Shape).Idx → α) (idx : IVec (⟨2, ![N, 1]⟩ : Shape) 32) (r : Fin N) :
    Host.gather d x idx (ix1 r)
      = x (ix1 ⟨min (idx (ix2 r (0 : Fin 1))).toInt.toNat (C - 1), by omega⟩) := by
  obtain ⟨od, cs, ob, sb, sim, iv, ss, wf⟩ := d
  dsimp only at hod hcs hob hsb hsim hiv hss
  subst hod hcs hob hsb hsim hiv hss
  unfold Host.gather
  congr 1
  funext a
  obtain rfl : a = 0 := Subsingleton.elim _ _
  refine Fin.ext ?_
  show (vecDims C N wf).start (ix1 r) idx 0 + (vecDims C N wf).batchCoord (ix1 r) 0
    + (vecDims C N wf).offCoord (ix1 r) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims C N wf).startIndexMap from List.mem_singleton.mpr rfl)]
  have hsi : ∀ c, (vecDims C N wf).siIdx (ix1 r) c = ix2 r (0 : Fin 1) := by
    intro c
    funext b; refine Fin.ext ?_
    match b with
    | ⟨0, _⟩ => rfl
    | ⟨1, _⟩ => exact Nat.lt_one_iff.mp c.isLt
  rw [hsi]
  rfl

/-- A matrix indexed along its last axis row by row. Axis 0 is a batching axis of operand and start indices (its
    start is 0 and its coordinate is the result's row `r`), axis 1 is collapsed and named by the start index map, and
    the index vector is on axis 2 of the `[N, 1, 1]` start indices: entry `(r, 0)` of the gather is the operand at
    row `r` and the column `idx (r, 0, 0)`, read as a signed integer and clamped into `[0, C - 1]`. -/
theorem gather_along_apply {α : Type} {C N : ℕ} (hC : 0 < C)
    (d : GatherDims (⟨2, ![N, C]⟩ : Shape) (⟨3, ![N, 1, 1]⟩ : Shape) (⟨2, ![N, 1]⟩ : Shape))
    (hod : d.offsetDims = []) (hcs : d.collapsedSliceDims = [1]) (hob : d.operandBatchingDims = [0])
    (hsb : d.startIndicesBatchingDims = [0]) (hsim : d.startIndexMap = [1]) (hiv : d.indexVectorDim = 2)
    (hss : d.sliceSizes = ![1, 1])
    (x : (⟨2, ![N, C]⟩ : Shape).Idx → α) (idx : IVec (⟨3, ![N, 1, 1]⟩ : Shape) 32) (r : Fin N) :
    Host.gather d x idx (ix2 r (0 : Fin 1))
      = x (ix2 r ⟨min (idx (ix3 r (0 : Fin 1) (0 : Fin 1))).toInt.toNat (C - 1), by omega⟩) := by
  obtain ⟨od, cs, ob, sb, sim, iv, ss, wf⟩ := d
  dsimp only at hod hcs hob hsb hsim hiv hss
  subst hod hcs hob hsb hsim hiv hss
  unfold Host.gather
  congr 1
  funext a
  refine Fin.ext ?_
  match a with
  | ⟨0, _⟩ =>
    show (alongDims C N wf).start (ix2 r (0 : Fin 1)) idx 0 + (alongDims C N wf).batchCoord (ix2 r (0 : Fin 1)) 0
      + (alongDims C N wf).offCoord (ix2 r (0 : Fin 1)) 0 = r.val
    have hb : (0 : Fin 2) ∈ (alongDims C N wf).operandBatchingDims := List.mem_singleton.mpr rfl
    rw [GatherDims.start_batching _ _ _ _ hb,
      GatherDims.offCoord_eq_zero _ _ _ (fun h => ((GatherDims.mem_sKept _ _).mp h).2 hb)]
    simp only [Nat.add_zero, Nat.zero_add]
    unfold GatherDims.batchCoord
    rw [dif_pos hb]
    rfl
  | ⟨1, _⟩ =>
    show (alongDims C N wf).start (ix2 r (0 : Fin 1)) idx 1 + (alongDims C N wf).batchCoord (ix2 r (0 : Fin 1)) 1
      + (alongDims C N wf).offCoord (ix2 r (0 : Fin 1)) 1 = min (idx (ix3 r (0 : Fin 1) (0 : Fin 1))).toInt.toNat (C - 1)
    have hnb : (1 : Fin 2) ∉ (alongDims C N wf).operandBatchingDims :=
      fun h => Nat.one_ne_zero (congrArg Fin.val (List.mem_singleton.mp h))
    have hc : (1 : Fin 2) ∈ (alongDims C N wf).collapsedSliceDims := List.mem_singleton.mpr rfl
    have hm : (1 : Fin 2) ∈ (alongDims C N wf).startIndexMap := List.mem_singleton.mpr rfl
    rw [GatherDims.batchCoord_eq_zero _ _ _ hnb,
      GatherDims.offCoord_eq_zero _ _ _ (fun h => ((GatherDims.mem_sKept _ _).mp h).1 hc)]
    simp only [Nat.add_zero]
    unfold GatherDims.start
    rw [dif_pos hm]
    have hsi : ∀ c, (alongDims C N wf).siIdx (ix2 r (0 : Fin 1)) c = ix3 r (0 : Fin 1) (0 : Fin 1) := by
      intro c
      funext b; refine Fin.ext ?_
      match b with
      | ⟨0, _⟩ => rfl
      | ⟨1, _⟩ => rfl
      | ⟨2, _⟩ => exact Nat.lt_one_iff.mp c.isLt
    rw [hsi]
    rfl

end Cert.LibGather

end
-- ==== Proof.LibScatterAdd.lean ====
/-
  The host's accumulating float scatter (`Host.scatterAdd`, at the ideal instance `Ideal.hostScatterAdd`) read at
  an index, at generic extents, for the two layouts a segment sum prints:
  `scatterAdd_rows` — an [N, D] matrix of updates scattered by rows onto a [C, D] operand, row `r` going to the row
  that entry `(r, 0)` of an [N, 1] column of 32-bit indices names (update window axis 1, inserted window axis 0,
  scatter axis 0, index vector axis 1): entry `(c, e)` of the result is the operand's plus the sum over the rows `r`
  whose index, read signed, is `c` of the update entry `(r, e)`;
  `scatterAdd_vec` — an [N] vector of updates scattered onto a [C] operand the same way.
  An index that, read signed, falls outside the operand's rows drops its update.
-/
import Idealize.ShloMosaic.PureOps.Ideal
import Idealize.ShloMosaic.Lib.ValueIdx
import Idealize.ShloMosaic.Lib.ValueIdxRank1

noncomputable section

namespace Cert.ScatterAdd

open Idealize.ShloMosaic Idealize.ShloMosaic.ValueIdx

/-! ## Rows of a matrix -/

section Rows
variable {C D N : ℕ}
  (wf : ScatterDims.WF (⟨2, ![C, D]⟩ : Shape) (⟨2, ![N, 1]⟩ : Shape) (⟨2, ![N, D]⟩ : Shape) [1] [0] [0] 1)

/-- The row scatter's dimension numbers: the updates' axis 1 is the window, the operand's axis 0 is inserted and is
    the one the index names. -/
abbrev rowsDims : ScatterDims (⟨2, ![C, D]⟩ : Shape) (⟨2, ![N, 1]⟩ : Shape) (⟨2, ![N, D]⟩ : Shape) :=
  ⟨[1], [0], [0], 1, wf⟩

/-- On the row axis the window starts at the row the index column names, read signed. -/
theorem rows_start0 (j : (⟨2, ![N, D]⟩ : Shape).Idx) (idx : IVec (⟨2, ![N, 1]⟩ : Shape) 32) :
    (rowsDims wf).start j idx 0 = (idx (ix2 (j 0) (0 : Fin 1))).toInt := by
  unfold ScatterDims.start
  rw [dif_pos (List.mem_singleton.mpr rfl)]
  congr 2
  funext b
  refine Fin.ext ?_
  match b with
  | ⟨0, _⟩ => rfl
  | ⟨1, _⟩ => rfl

/-- On the column axis the window starts at 0. -/
theorem rows_start1 (j : (⟨2, ![N, D]⟩ : Shape).Idx) (idx : IVec (⟨2, ![N, 1]⟩ : Shape) 32) :
    (rowsDims wf).start j idx 1 = 0 := by
  unfold ScatterDims.start
  exact dif_neg (show (1 : Fin 2) ∉ ([0] : List (Fin 2)) by decide)

/-- The row axis is inserted: no window coordinate. -/
theorem rows_window0 (j : (⟨2, ![N, D]⟩ : Shape).Idx) : (rowsDims wf).window j 0 = 0 := by
  unfold ScatterDims.window
  exact dif_neg (show (0 : Fin 2) ∉ (List.finRange 2).filter (· ∉ ([0] : List (Fin 2))) by decide)

/-- The column axis carries the update's column. -/
theorem rows_window1 (j : (⟨2, ![N, D]⟩ : Shape).Idx) : (rowsDims wf).window j 1 = (j 1).val := by
  unfold ScatterDims.window
  exact (dif_pos (show (1 : Fin 2) ∈ (List.finRange 2).filter (· ∉ ([0] : List (Fin 2))) by decide)).trans rfl

/-- An update lands on entry `(c, e)` exactly when its row's index, read signed, is `c` and its column is `e`:
    the range conditions then hold because `c` is a row and `e` a column of the operand. -/
theorem rows_resultIdx_iff (j : (⟨2, ![N, D]⟩ : Shape).Idx) (idx : IVec (⟨2, ![N, 1]⟩ : Shape) 32)
    (c : Fin C) (e : Fin D) :
    (rowsDims wf).resultIdx? j idx = some (ix2 c e)
      ↔ (idx (ix2 (j 0) (0 : Fin 1))).toInt = (c.val : ℤ) ∧ (j 1).val = e.val := by
  have hs0 := rows_start0 wf j idx
  have hs1 := rows_start1 wf j idx
  have hw0 := rows_window0 wf j
  have hw1 := rows_window1 wf j
  have hj1 : (j 1).val < D := idx2_lt1 j
  have hc : c.val < C := c.isLt
  have he : e.val < D := e.isLt
  unfold ScatterDims.resultIdx?
  split
  · rename_i h
    rw [Option.some.injEq]
    constructor
    · intro hf
      have h0 : ((rowsDims wf).start j idx 0 + ((rowsDims wf).window j 0 : ℕ)).toNat = c.val :=
        congrArg Fin.val (congrFun hf 0)
      have h1 : ((rowsDims wf).start j idx 1 + ((rowsDims wf).window j 1 : ℕ)).toNat = e.val :=
        congrArg Fin.val (congrFun hf 1)
      have hh0 : 0 ≤ (rowsDims wf).start j idx 0 + ((rowsDims wf).window j 0 : ℕ) := (h 0).1
      rw [hs0, hw0] at h0 hh0
      rw [hs1, hw1] at h1
      omega
    · intro ⟨h0, h1⟩
      funext a
      refine Fin.ext ?_
      match a with
      | ⟨0, _⟩ =>
        show ((rowsDims wf).start j idx 0 + ((rowsDims wf).window j 0 : ℕ)).toNat = c.val
        rw [hs0, hw0]
        omega
      | ⟨1, _⟩ =>
        show ((rowsDims wf).start j idx 1 + ((rowsDims wf).window j 1 : ℕ)).toNat = e.val
        rw [hs1, hw1]
        omega
  · rename_i h
    constructor
    · intro hf
      exact absurd hf (by simp)
    · intro ⟨h0, h1⟩
      exfalso
      apply h
      intro a
      match a with
      | ⟨0, _⟩ =>
        show 0 ≤ (rowsDims wf).start j idx 0 + ((rowsDims wf).window j 0 : ℕ)
          ∧ (rowsDims wf).start j idx 0 + ((rowsDims wf).window j 0 : ℕ) < (C : ℤ)
        rw [hs0, hw0]
        omega
      | ⟨1, _⟩ =>
        show 0 ≤ (rowsDims wf).start j idx 1 + ((rowsDims wf).window j 1 : ℕ)
          ∧ (rowsDims wf).start j idx 1 + ((rowsDims wf).window j 1 : ℕ) < (D : ℤ)
        rw [hs1, hw1]
        omega

end Rows

/-- Rows: update row `r` (all its columns) lands on operand row `idx r`; so entry `(c, e)` of the result is the
    operand's plus the sum of the entries `(r, e)` of the rows whose index is `c`. -/
theorem scatterAdd_rows {C D N : ℕ}
    (d : ScatterDims (⟨2, ![C, D]⟩ : Shape) (⟨2, ![N, 1]⟩ : Shape) (⟨2, ![N, D]⟩ : Shape))
    (huw : d.updateWindowDims = [1]) (hiw : d.insertedWindowDims = [0]) (hsd : d.scatterDimsToOperandDims = [0])
    (hiv : d.indexVectorDim = 1)
    (x : (⟨2, ![C, D]⟩ : Shape).Idx → EReal) (idx : IVec (⟨2, ![N, 1]⟩ : Shape) 32)
    (upd : (⟨2, ![N, D]⟩ : Shape).Idx → EReal) (c : Fin C) (e : Fin D) :
    Ideal.hostScatterAdd d x idx upd (ix2 c e)
      = x (ix2 c e) + ∑ r : Fin N, if (idx (ix2 r (0 : Fin 1))).toInt = (c.val : ℤ) then upd (ix2 r e) else 0 := by
  obtain ⟨uw, iw, sd, iv, wf⟩ := d
  dsimp only at huw hiw hsd hiv
  subst huw hiw hsd hiv
  unfold Ideal.hostScatterAdd
  congr 1
  rw [Finset.sum_filter, sum_idx2]
  refine Finset.sum_congr rfl fun r _ => ?_
  refine ((Finset.sum_congr rfl fun e' _ => ?_).trans (Finset.sum_ite_eq' Finset.univ e
    (fun e' => if (idx (ix2 r (0 : Fin 1))).toInt = (c.val : ℤ) then upd (ix2 r e') else 0))).trans
    (if_pos (Finset.mem_univ e))
  have hiff : (rowsDims wf).resultIdx? (ix2 r e') idx = some (ix2 c e)
      ↔ (idx (ix2 r (0 : Fin 1))).toInt = (c.val : ℤ) ∧ e'.val = e.val :=
    rows_resultIdx_iff wf (ix2 r e') idx c e
  by_cases he : e' = e
  · subst he
    rw [if_pos rfl]
    exact if_congr (hiff.trans ⟨fun h => h.1, fun h => ⟨h, rfl⟩⟩) rfl rfl
  · rw [if_neg he]
    exact if_neg fun hh => he (Fin.ext (hiff.1 hh).2)

/-! ## Entries of a vector -/

section Vec
variable {C N : ℕ}
  (wf : ScatterDims.WF (⟨1, ![C]⟩ : Shape) (⟨2, ![N, 1]⟩ : Shape) (⟨1, ![N]⟩ : Shape) [] [0] [0] 1)

/-- A sum over a rank-1 index set is the sum over its coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

/-- The entry scatter's dimension numbers: the updates have no window axis, the operand's one axis is inserted and
    is the one the index names. -/
abbrev vecDims : ScatterDims (⟨1, ![C]⟩ : Shape) (⟨2, ![N, 1]⟩ : Shape) (⟨1, ![N]⟩ : Shape) :=
  ⟨[], [0], [0], 1, wf⟩

/-- The window starts at the entry the index column names, read signed. -/
theorem vec_start0 (j : (⟨1, ![N]⟩ : Shape).Idx) (idx : IVec (⟨2, ![N, 1]⟩ : Shape) 32) :
    (vecDims wf).start j idx 0 = (idx (ix2 (j 0) (0 : Fin 1))).toInt := by
  unfold ScatterDims.start
  rw [dif_pos (List.mem_singleton.mpr rfl)]
  congr 2
  funext b
  refine Fin.ext ?_
  match b with
  | ⟨0, _⟩ => rfl
  | ⟨1, _⟩ => rfl

/-- The operand's axis is inserted: no window coordinate. -/
theorem vec_window0 (j : (⟨1, ![N]⟩ : Shape).Idx) : (vecDims wf).window j 0 = 0 := by
  unfold ScatterDims.window
  exact dif_neg (show (0 : Fin 1) ∉ (List.finRange 1).filter (· ∉ ([0] : List (Fin 1))) by decide)

/-- An update lands on entry `c` exactly when its index, read signed, is `c`: the range condition then holds
    because `c` is an entry of the operand. -/
theorem vec_resultIdx_iff (j : (⟨1, ![N]⟩ : Shape).Idx) (idx : IVec (⟨2, ![N, 1]⟩ : Shape) 32) (c : Fin C) :
    (vecDims wf).resultIdx? j idx = some (ix1 c) ↔ (idx (ix2 (j 0) (0 : Fin 1))).toInt = (c.val : ℤ) := by
  have hs0 := vec_start0 wf j idx
  have hw0 := vec_window0 wf j
  have hc : c.val < C := c.isLt
  unfold ScatterDims.resultIdx?
  split
  · rename_i h
    rw [Option.some.injEq]
    constructor
    · intro hf
      have h0 : ((vecDims wf).start j idx 0 + ((vecDims wf).window j 0 : ℕ)).toNat = c.val :=
        congrArg Fin.val (congrFun hf 0)
      have hh0 : 0 ≤ (vecDims wf).start j idx 0 + ((vecDims wf).window j 0 : ℕ) := (h 0).1
      rw [hs0, hw0] at h0 hh0
      omega
    · intro h0
      funext a
      refine Fin.ext ?_
      match a with
      | ⟨0, _⟩ =>
        show ((vecDims wf).start j idx 0 + ((vecDims wf).window j 0 : ℕ)).toNat = c.val
        rw [hs0, hw0]
        omega
  · rename_i h
    constructor
    · intro hf
      exact absurd hf (by simp)
    · intro h0
      exfalso
      apply h
      intro a
      match a with
      | ⟨0, _⟩ =>
        show 0 ≤ (vecDims wf).start j idx 0 + ((vecDims wf).window j 0 : ℕ)
          ∧ (vecDims wf).start j idx 0 + ((vecDims wf).window j 0 : ℕ) < (C : ℤ)
        rw [hs0, hw0]
        omega

end Vec

/-- Entries of a vector: update entry `r` lands on operand entry `idx r`. -/
theorem scatterAdd_vec {C N : ℕ}
    (d : ScatterDims (⟨1, ![C]⟩ : Shape) (⟨2, ![N, 1]⟩ : Shape) (⟨1, ![N]⟩ : Shape))
    (huw : d.updateWindowDims = []) (hiw : d.insertedWindowDims = [0]) (hsd : d.scatterDimsToOperandDims = [0])
    (hiv : d.indexVectorDim = 1)
    (x : (⟨1, ![C]⟩ : Shape).Idx → EReal) (idx : IVec (⟨2, ![N, 1]⟩ : Shape) 32)
    (upd : (⟨1, ![N]⟩ : Shape).Idx → EReal) (c : Fin C) :
    Ideal.hostScatterAdd d x idx upd (ix1 c)
      = x (ix1 c) + ∑ r : Fin N, if (idx (ix2 r (0 : Fin 1))).toInt = (c.val : ℤ) then upd (ix1 r) else 0 := by
  obtain ⟨uw, iw, sd, iv, wf⟩ := d
  dsimp only at huw hiw hsd hiv
  subst huw hiw hsd hiv
  unfold Ideal.hostScatterAdd
  congr 1
  rw [Finset.sum_filter, sum_idx1]
  refine Finset.sum_congr rfl fun r _ => ?_
  exact if_congr (vec_resultIdx_iff wf (ix1 r) idx c) rfl rfl

end Cert.ScatterAdd

end
-- ==== Proof.RefVal.lean ====
/-
  The reference's stages in the vocabulary of Proof/Spec.lean, at the ideal instance and for labels in range.
  The per-sample value is minus the log-softmax entry at the label (`rowLossRef`): the gather along the class axis
  reads the row's entry at the label, the label being a class number (no wrap of a negative one, no fill).
  The two scatters are the per-class sums (`seg`) of the cross entropies and of ones, each from the zero word.
  A sample's weight is `weight` of its class's sum, count and old magnitude: the second gather reads the updated
  magnitude at the label. The result is the renormalised weighted mean `meanB`.
-/
import proofs.«420719_j14912126452149_3_alg».proof.Proof.RefRead
import proofs.«420719_j14912126452149_3_alg».proof.Proof.Spec
import proofs.«420719_j14912126452149_3_alg».proof.Proof.LibGather
import proofs.«420719_j14912126452149_3_alg».proof.Proof.LibScatterAdd
import Idealize.ShloMosaic.Lib.ValueIdx
import Idealize.ShloMosaic.Lib.ValueLayout
import Idealize.ShloMosaic.Lib.Pipeline.Value
import Idealize.ShloMosaic.Lib.ReduceAll
import Idealize.ShloMosaic.PureOps.Ideal.Laws

noncomputable section

namespace Cert.ReferenceIdeal.RVal

open Cert.ReferenceIdeal Cert.ReferenceIdeal.Gen Cert.ReferenceIdeal.ReadP
open Idealize.ShloMosaic Idealize.ShloMosaic.ValueIdx
open Cert.GBL (rowLossRef seg weight meanB wZero wOne)

variable (X : (⟨S65536x1000, .f32⟩ : BufTy).Contents (Elt Ideal)) (T : (⟨S65536, .i32⟩ : BufTy).Contents (Elt Ideal))
  (G : (⟨S1000, .f32⟩ : BufTy).Contents (Elt Ideal))

/-! ## The index maps of the layout operations, at coordinates -/

private theorem idx_v1 (r : Fin 65536) : idx_main_v1 (ix2 r (0 : Fin 1)) = ix1 r :=
  funext fun a => Fin.ext (by match a with | ⟨0, _⟩ => rfl)
private theorem idx_v6 (r : Fin 65536) : idx_main_v6 (ix2 r (0 : Fin 1)) = ix1 r :=
  funext fun a => Fin.ext (by match a with | ⟨0, _⟩ => rfl)
private theorem idx_v10 (r : Fin 65536) : idx_main_v10 (ix2 r (0 : Fin 1)) = ix1 r :=
  funext fun a => Fin.ext (by match a with | ⟨0, _⟩ => rfl)
private theorem idx_v29 (r : Fin 65536) : idx_main_v29 (ix2 r (0 : Fin 1)) = ix1 r :=
  funext fun a => Fin.ext (by match a with | ⟨0, _⟩ => rfl)

/-! ## A label that is a class number -/

/-- A word whose signed value is a natural number is not below zero: the select that would wrap a negative
    label keeps the label. -/
private theorem select_slt_zero {w : BitVec 32} {k : ℕ} (hk : w.toInt = (k : ℤ)) (a : BitVec 32) :
    Scalar.select (IntOp.cmpi .slt w 0#32) a w = w := by
  unfold Scalar.select
  refine if_neg fun h => ?_
  have h1 := IntOp.cmpi_slt.mp h
  have h0 : (0#32 : BitVec 32).toInt = 0 := by decide
  rw [hk, h0] at h1
  omega

/-- The clamp of a class number into `[0, C - 1]` is the class number. -/
private theorem clamp_label {C : ℕ} {w : BitVec 32} (k : Fin C) (hk : w.toInt = (k.val : ℤ))
    (h : min w.toInt.toNat (C - 1) < C) : (⟨min w.toInt.toNat (C - 1), h⟩ : Fin C) = k := by
  apply Fin.ext
  show min w.toInt.toNat (C - 1) = k.val
  rw [hk, Int.toNat_natCast]
  have := k.isLt
  omega

private theorem idx_c1v5 (r : Fin 65536) :
    idx_main_call1_v5 (ix3 r (0 : Fin 1) (0 : Fin 1)) = ix2 r (0 : Fin 1) :=
  funext fun a => Fin.ext (by
    match a with
    | ⟨0, _⟩ => show ((r.val * 1 + 0) * 1 + 0) / 1 = r.val; omega
    | ⟨1, _⟩ => rfl)
private theorem idx_v3 (r : Fin 65536) : idx_main_v3 (ix1 r) = ix2 r (0 : Fin 1) :=
  funext fun a => Fin.ext (by
    match a with
    | ⟨0, _⟩ => show r.val / 1 = r.val; omega
    | ⟨1, _⟩ => rfl)
private theorem idx_c0v3 (r : Fin 65536) : idx_main_call0_v3 (ix2 r (0 : Fin 1)) = ix1 r :=
  funext fun a => Fin.ext (by match a with | ⟨0, _⟩ => rfl)
private theorem idx_c0v8 (r : Fin 65536) : idx_main_call0_v8 (ix2 r (0 : Fin 1)) = ix1 r :=
  funext fun a => Fin.ext (by match a with | ⟨0, _⟩ => rfl)
private theorem idx_c0v4 (r : Fin 65536) (c : Fin 1000) : idx_main_call0_v4 (ix2 r c) = ix2 r (0 : Fin 1) :=
  funext fun a => Fin.ext (by match a with | ⟨0, _⟩ => rfl | ⟨1, _⟩ => rfl)
private theorem idx_c0v10 (r : Fin 65536) (c : Fin 1000) : idx_main_call0_v10 (ix2 r c) = ix2 r (0 : Fin 1) :=
  funext fun a => Fin.ext (by match a with | ⟨0, _⟩ => rfl | ⟨1, _⟩ => rfl)
private theorem idx_c0v7 (r : Fin 65536) (c : Fin 1000) : idx_main_call0_v7 (ix1 r) c = ix2 r c :=
  funext fun a => Fin.ext (by match a with | ⟨0, _⟩ => rfl | ⟨1, _⟩ => rfl)

/-- The label word of sample `r`, as the gather along the class axis reads it: the label itself. -/
private theorem label_apply (r : Fin 65536) (k : ℕ) (hk : (T (ix1 r)).toInt = (k : ℤ)) :
    val_main_call1_v5 (F := Ideal) T (ix3 r (0 : Fin 1) (0 : Fin 1)) = T (ix1 r) := by
  rw [val_main_call1_v5_apply, idx_c1v5, val_main_call1_v4_apply, val_main_call1_v1_apply, val_main_v1_apply, idx_v1,
    val_main_call1_v0_apply, val_main_call1_c_apply]
  exact select_slt_zero hk _

/-! ## The row maximum -/

/-- The class coordinate put back into a sample's index. -/
private theorem lift_row (h : S65536x1000.Reduces [1] S65536) (r : Fin 65536) (c : Fin (S65536x1000.size 1)) :
    h.lift (ix1 r) c = ix2 r (⟨c.val, c.isLt⟩ : Fin 1000) :=
  funext fun a => Fin.ext (by match a with | ⟨0, _⟩ => rfl | ⟨1, _⟩ => rfl)

/-- The maximum-reduce over the class axis, at sample `r`, is the row's maximum folded from minus infinity. -/
private theorem rowmax_apply (r : Fin 65536) :
    val_main_call0_v0 (F := Ideal) X (ix1 r) = Cert.GBL.rowMax (fun c : Fin 1000 => X (ix2 r c)) := by
  unfold val_main_call0_v0
  have h : S65536x1000.Reduces [1] S65536 := by decide
  refine (Host.reduce_eq_fold_single (α := Ideal .f32) (s := S65536x1000) (t := S65536) (a := 1)
    (FloatOps.maximumf (F := Ideal) (φ := .f32)) X _ reducesTo_S65536x1000_S65536_d1 h h_S_ (ix1 r)).trans ?_
  have hf : (X ∘ h.lift (ix1 r)) = fun c : Fin 1000 => X (ix2 r c) := funext fun c => congrArg X (lift_row h r c)
  exact congrArg (fun f => Finset.fold max (Ideal.ofBits .f32 0xFF800000#32) f (Finset.univ : Finset (Fin 1000))) hf

/-! ## The log-softmax entries of a row -/

/-- The shifted entry: the entry minus the row maximum taken once more against minus infinity. -/
private theorem shift_apply (r : Fin 65536) (c : Fin 1000) :
    val_main_call0_v5 (F := Ideal) X (ix2 r c)
      = X (ix2 r c) - max (Ideal.ofBits .f32 0xFF800000#32) (Cert.GBL.rowMax (fun c : Fin 1000 => X (ix2 r c))) := by
  rw [val_main_call0_v5_apply, val_main_call0_v4_apply, idx_c0v4, val_main_call0_v3_apply, idx_c0v3,
    val_main_call0_v2_apply, val_main_call0_v1_apply, val_main_call0_cst_0_apply, rowmax_apply]
  rfl

/-- The log-softmax entry: the shifted entry minus the logarithm of the sum, from the zero word, of the
    exponentials of the row's shifted entries. -/
private theorem logsm_apply (r : Fin 65536) (c : Fin 1000) :
    val_main_v0 (F := Ideal) X (ix2 r c)
      = (X (ix2 r c) - max (Ideal.ofBits .f32 0xFF800000#32) (Cert.GBL.rowMax (fun c : Fin 1000 => X (ix2 r c))))
        - Ideal.log (Ideal.ofBits .f32 0x00000000#32
            + ∑ c' : Fin 1000, Ideal.exp (X (ix2 r c')
                - max (Ideal.ofBits .f32 0xFF800000#32) (Cert.GBL.rowMax (fun c : Fin 1000 => X (ix2 r c))))) := by
  rw [val_main_v0_apply, shift_apply, val_main_call0_v10_apply, idx_c0v10, val_main_call0_v9_apply,
    val_main_call0_v8_apply, idx_c0v8, val_main_call0_v7_apply, val_main_call0_cst_1_apply]
  simp only [val_main_call0_v6_apply, idx_c0v7, shift_apply, Ideal.subf_def, Ideal.hostUnary_log_def,
    Ideal.hostUnary_exp_def, Ideal.ofBits_def]

/-! ## The in-range mask -/

/-- The last coordinate put back into a (sample, 0) index. -/
private theorem lift_mask (h : S65536x1x1.Reduces [2] S65536x1) (r : Fin 65536) (c : Fin (S65536x1x1.size 2)) :
    h.lift (ix2 r (0 : Fin 1)) c = ix3 r (0 : Fin 1) (0 : Fin 1) :=
  funext fun a => Fin.ext (by
    match a with
    | ⟨0, _⟩ => rfl
    | ⟨1, _⟩ => rfl
    | ⟨2, _⟩ => exact Nat.lt_one_iff.mp c.isLt)

/-- With the label a class number both word compares hold, and the and-reduce over the one-element axis from
    the true word is true. -/
private theorem mask_apply (r : Fin 65536) (k : Fin 1000) (hk : (T (ix1 r)).toInt = (k.val : ℤ)) :
    val_main_call1_v12 (F := Ideal) T (ix2 r (0 : Fin 1)) = 1#1 := by
  unfold val_main_call1_v12
  have h : S65536x1x1.Reduces [2] S65536x1 := by decide
  refine (Host.reduce_eq_fold_single (α := BitVec 1) (s := S65536x1x1) (t := S65536x1) (a := 2)
    (IntOp.andi (w := 1)) (val_main_call1_v11 (F := Ideal) T) _ reducesTo_S65536x1x1_S65536x1_d2 h h_S_
    (ix2 r (0 : Fin 1))).trans ?_
  have hf : (val_main_call1_v11 (F := Ideal) T ∘ h.lift (ix2 r (0 : Fin 1))) = fun _ : Fin 1 => (1#1 : BitVec 1) := by
    funext c
    show val_main_call1_v11 (F := Ideal) T (h.lift (ix2 r (0 : Fin 1)) c) = 1#1
    rw [lift_mask h r c, val_main_call1_v11_apply, val_main_call1_v7_apply, val_main_call1_v10_apply,
      label_apply T r k.val hk, val_main_call1_v6_apply, val_main_call1_c_2_apply, val_main_call1_v9_apply,
      val_main_call1_v8_apply, val_main_call1_c_1_apply]
    refine IntOp.andi_eq_one.mpr ⟨IntOp.cmpi_sge.mpr ?_, IntOp.cmpi_sle.mpr ?_⟩
    · have h0 : (0#32 : BitVec 32).toInt = 0 := by decide
      rw [hk, h0]; omega
    · have h9 : (999#32 : BitVec 32).toInt = 999 := by decide
      have := k.isLt
      rw [hk, h9]; omega
  refine (congrArg (fun f => Finset.fold (IntOp.andi (w := 1)) (1#1 : BitVec 1) f (Finset.univ : Finset (Fin 1))) hf).trans ?_
  decide

/-- `meanB` written out, over any finite index type. -/
private theorem meanB_eq {ι : Type} [Fintype ι] (w ce : ι → EReal) :
    Cert.GBL.meanB w ce
      = Ideal.div (Ideal.ofBits .f32 0x00000000#32
          + ∑ i, (Ideal.div (w i) (Ideal.ofBits .f32 0x00000000#32 + ∑ j, w j) * Ideal.ofBits .f32 0x47800000#32) * ce i)
        (Ideal.ofBits .f32 0x47800000#32) := rfl

/-- The per-sample value of sample `r` whose label is the class `k`. -/
theorem ref_ce (r : Fin 65536) (k : Fin 1000) (hk : (T (ix1 r)).toInt = (k.val : ℤ)) :
    val_main_v4 (F := Ideal) X T (ix1 r) = rowLossRef (fun col : Fin 1000 => X (ix2 r col)) k := by
  have hg : val_main_call1_v13 (F := Ideal) X T (ix2 r (0 : Fin 1)) = val_main_v0 (F := Ideal) X (ix2 r k) := by
    unfold val_main_call1_v13
    refine (Cert.LibGather.gather_along_apply (by decide) gather_S65536x1000_S65536x1x1_S65536x1_n_1_0_0_1_2_11 rfl rfl rfl
      rfl rfl rfl rfl _ _ r).trans ?_
    refine congrArg (fun j : Fin 1000 => val_main_v0 (F := Ideal) X (ix2 r j)) (clamp_label k ?_ _)
    rw [label_apply T r k.val hk]
    exact hk
  rw [val_main_v4_apply, val_main_v3_apply, idx_v3, val_main_v2_apply, mask_apply T r k hk, hg, logsm_apply]
  rfl

/-- The per-class sums of the per-sample values. -/
theorem ref_sums (c : Fin 1000) :
    val_main_v7 (F := Ideal) X T (ix1 c)
      = wZero + seg (fun r : Fin 65536 => T (ix1 r)) (fun r : Fin 65536 => val_main_v4 (F := Ideal) X T (ix1 r)) c := by
  unfold val_main_v7
  refine (Cert.ScatterAdd.scatterAdd_vec scatter_S1000_S65536x1_S65536_n_0_0_1 rfl rfl rfl rfl _ _ _ c).trans ?_
  rw [val_main_v5_apply, val_main_cst_apply]
  refine congrArg (fun s : EReal => Ideal.ofBits .f32 0x00000000#32 + s) (Finset.sum_congr rfl fun r _ => ?_)
  rw [val_main_v6_apply, idx_v6]

/-- The per-class counts. -/
theorem ref_counts (c : Fin 1000) :
    val_main_v11 (F := Ideal) T (ix1 c) = wZero + seg (fun r : Fin 65536 => T (ix1 r)) (fun _ : Fin 65536 => wOne) c := by
  unfold val_main_v11
  refine (Cert.ScatterAdd.scatterAdd_vec scatter_S1000_S65536x1_S65536_n_0_0_1 rfl rfl rfl rfl _ _ _ c).trans ?_
  rw [val_main_v9_apply, val_main_cst_1_apply]
  refine congrArg (fun s : EReal => Ideal.ofBits .f32 0x00000000#32 + s) (Finset.sum_congr rfl fun r _ => ?_)
  rw [val_main_v10_apply, idx_v10, val_main_v8_apply, val_main_cst_0_apply]
  rfl

/-- The weight of sample `r` whose label is the class `k`. -/
theorem ref_weight (r : Fin 65536) (k : Fin 1000) (hk : (T (ix1 r)).toInt = (k.val : ℤ)) :
    val_main_v34 (F := Ideal) X T G (ix1 r)
      = weight (val_main_v7 (F := Ideal) X T (ix1 k)) (val_main_v11 (F := Ideal) T (ix1 k)) (G (ix1 k)) := by
  have hg : val_main_v30 (F := Ideal) X T G (ix1 r) = val_main_v23 (F := Ideal) X T G (ix1 k) := by
    unfold val_main_v30
    refine (Cert.LibGather.gather_vec_apply (by decide) gather_S1000_S65536x1_S65536_n_0_n_n_0_1_1 rfl rfl rfl rfl rfl rfl
      rfl _ _ r).trans ?_
    refine congrArg (fun j : Fin 1000 => val_main_v23 (F := Ideal) X T G (ix1 j)) (clamp_label k ?_ _)
    rw [val_main_v29_apply, idx_v29, val_main_v28_apply, val_main_v25_apply, val_main_v24_apply, val_main_c_apply,
      select_slt_zero hk]
    exact hk
  rw [val_main_v34_apply, val_main_v32_apply, val_main_v33_apply, val_main_v31_apply, val_main_cst_8_apply,
    val_main_cst_7_apply, hg, val_main_v23_apply, val_main_v17_apply, val_main_v22_apply, val_main_v19_apply,
    val_main_v21_apply, val_main_v15_apply, val_main_v14_apply, val_main_v13_apply, val_main_v16_apply,
    val_main_v18_apply, val_main_v20_apply, val_main_v12_apply, val_main_cst_3_apply, val_main_cst_4_apply,
    val_main_cst_5_apply, val_main_cst_2_apply]
  simp only [Ideal.hostDivf_def, Ideal.addf_def, Ideal.mulf_def, Ideal.maximumf_def, Ideal.hostAbsf_def,
    Ideal.absf_def, Ideal.cmpf_def, Ideal.ofBits_def]
  rfl

/-- The result: the renormalised weighted mean of the per-sample values under the weights. -/
theorem ref_result :
    val_main_v42 (F := Ideal) X T G ix0
      = meanB (fun i : S65536.Idx => val_main_v34 (F := Ideal) X T G i) (fun i : S65536.Idx => val_main_v4 (F := Ideal) X T i) := by
  rw [val_main_v42_apply, val_main_v41_apply]
  refine Eq.trans ?_ (meanB_eq _ _).symm
  simp only [val_main_cst_12_apply, val_main_cst_11_apply, Ideal.hostDivf_def, Ideal.ofBits_def]
  refine congrArg (fun s : EReal => Ideal.div (Ideal.ofBits .f32 0x00000000#32 + s) (Ideal.ofBits .f32 0x47800000#32)) (Finset.sum_congr rfl fun j _ => ?_)
  rw [val_main_v40_apply, val_main_v39_apply, val_main_v37_apply, val_main_v36_apply, val_main_v35_apply,
    val_main_v38_apply]
  simp only [val_main_cst_9_apply, val_main_cst_10_apply, Ideal.hostDivf_def, Ideal.mulf_def, Ideal.ofBits_def]

end Cert.ReferenceIdeal.RVal

end
-- ==== Proof.Loss.lean ====
/-
  The loss as one function of the three argument arrays: what both programs return under the precondition.
  A label word in the class range names a class (`lab`); sample `r`'s cross entropy is `ceS`; its weight `wS` is
  `weight` of its class's sum of cross entropies, count and old magnitude; the loss `lossS` is the weighted mean
  `meanA` of the cross entropies under the weights.
-/
import proofs.«420719_j14912126452149_3_alg».proof.Proof.Spec
import Idealize.ShloMosaic.Lib.ValueIdx

noncomputable section

namespace Cert.GBL

open Idealize.ShloMosaic Idealize.ShloMosaic.ValueIdx

/-- The class a label word names (its signed value, taken into the class range). -/
def lab (t : BitVec 32) : Fin NC := ⟨t.toInt.toNat % 1000, Nat.mod_lt _ (by decide)⟩

/-- A label word in the class range names its own signed value. -/
theorem lab_val (t : BitVec 32) (h0 : 0 ≤ t.toInt) (h1 : t.toInt < 1000) : t.toInt = ((lab t).val : ℤ) := by
  show t.toInt = ((t.toInt.toNat % 1000 : ℕ) : ℤ)
  omega

variable (X : (⟨2, ![NR, NC]⟩ : Shape).Idx → EReal) (T : (⟨1, ![NR]⟩ : Shape).Idx → BitVec 32)
  (G : (⟨1, ![NC]⟩ : Shape).Idx → EReal)

/-- The cross entropy of sample `r`. -/
def ceS (r : Fin NR) : EReal := rowLoss (fun col : Fin NC => X (ix2 r col)) (T (ix1 r))

/-- The weight of the sample at index `i`. -/
def wS (i : (⟨1, ![NR]⟩ : Shape).Idx) : EReal :=
  weight (seg (fun r : Fin NR => T (ix1 r)) (ceS X T) (lab (T i)))
    (seg (fun r : Fin NR => T (ix1 r)) (fun _ => (1 : EReal)) (lab (T i))) (G (ix1 (lab (T i))))

/-- The loss. -/
def lossS : EReal :=
  meanA (wS X T G) (fun i : (⟨1, ![NR]⟩ : Shape).Idx => ceS X T ⟨(i 0).val, (i 0).isLt⟩)

end Cert.GBL

end
-- ==== Proof.Consts.lean ====
/-
  The float words of Proof/Spec.lean as the extended reals they denote: 0.9, 0.1, 1e-6 and 65536 are positive
  reals (their exact dyadic values are never needed), the unit word is 1, the zero word 0, and the word of
  minus infinity the bottom element.
-/
import proofs.«420719_j14912126452149_3_alg».proof.Proof.Spec
import Idealize.ShloMosaic.Lib.IdealHost

noncomputable section

namespace Cert.GBL

open Idealize.ShloMosaic

/-- The word of 0.9 denotes a positive real. -/
theorem w09_pos : ∃ r : ℝ, 0 < r ∧ w09 = (r : EReal) := by
  refine ⟨_, ?_, by simp [w09, Ideal.ofBits, Ideal.ieee, -EReal.coe_mul]; rfl⟩
  norm_num

/-- The word of 0.1 denotes a positive real. -/
theorem w01_pos : ∃ r : ℝ, 0 < r ∧ w01 = (r : EReal) := by
  refine ⟨_, ?_, by simp [w01, Ideal.ofBits, Ideal.ieee, -EReal.coe_mul]; rfl⟩
  norm_num

/-- The word of 1e-6 denotes a positive real. -/
theorem wEps_pos : ∃ r : ℝ, 0 < r ∧ wEps = (r : EReal) := by
  refine ⟨_, ?_, by simp [wEps, Ideal.ofBits, Ideal.ieee, -EReal.coe_mul]; rfl⟩
  norm_num

/-- The word of 65536 denotes a positive real. -/
theorem wN_pos : ∃ r : ℝ, 0 < r ∧ wN = (r : EReal) := by
  refine ⟨_, ?_, by simp [wN, Ideal.ofBits, Ideal.ieee, -EReal.coe_mul]; rfl⟩
  norm_num

/-- The unit word is 1. -/
theorem wOne_eq : wOne = 1 := by
  exact Ideal.ofBits_one_f32

/-- The zero word is 0. -/
theorem wZero_eq : wZero = 0 := by
  exact Ideal.ofBits_zero_f32

/-- The word of minus infinity is the bottom element. -/
theorem wNegInf_eq : wNegInf = ⊥ := by
  simp [wNegInf, Ideal.ofBits, Ideal.ieee]

end Cert.GBL

end
-- ==== Proof.CeLaw.lean ====
/-
  One row's cross entropy: on a row of real logits with an in-range label the kernel's arrangement
  `log (∑ exp (x - M)) + M - x t` and the reference's `-((x t - M) - log (∑ exp (x - M)))` are one real number.
  The row maximum `M` of real entries is a real (there are 1000 > 0 classes), so every shifted entry is a real,
  every exponential a positive real, their sum a positive real, its logarithm a real; the rest is arithmetic of
  reals inside the extended reals. The masked sum that picks the label's entry has one selected term.
-/
import proofs.«420719_j14912126452149_3_alg».proof.Proof.Spec
import proofs.«420719_j14912126452149_3_alg».proof.Proof.Consts

noncomputable section

namespace Cert.GBL

open Idealize.ShloMosaic

/-- The word of a number below 1000 reads, signed, as that number. -/
private theorem toInt_ofNat_of_lt (n : ℕ) (hn : n < NC) : (BitVec.ofNat 32 n).toInt = (n : ℤ) := by
  have h : n < 1000 := hn
  rw [BitVec.toInt_ofNat']
  have h2 : ((2 : ℕ) ^ 32 : ℕ) = 4294967296 := by norm_num
  rw [h2, Int.bmod_def]
  omega

/-- A label word whose signed value is the class `k` equals class number `c`'s word exactly when `c = k`. -/
theorem cmpi_eq_label (t : BitVec 32) (k c : Fin NC) (ht : t.toInt = (k.val : ℤ)) :
    IntOp.cmpi .eq t (BitVec.ofNat 32 c.val) = if c = k then 1#1 else 0#1 := by
  by_cases hck : c = k
  · subst hck
    have e : t = BitVec.ofNat 32 c.val := BitVec.eq_of_toInt_eq (ht.trans (toInt_ofNat_of_lt c.val c.isLt).symm)
    rw [if_pos rfl, ← e]
    simp [IntOp.cmpi]
  · have ne : t ≠ BitVec.ofNat 32 c.val := by
      intro e
      apply hck
      have h1 : (c.val : ℤ) = (k.val : ℤ) := by
        rw [← toInt_ofNat_of_lt c.val c.isLt, ← e, ht]
      exact Fin.ext (by exact_mod_cast h1)
    have hb : (t == BitVec.ofNat 32 c.val) = false := beq_eq_false_iff_ne.mpr ne
    rw [if_neg hck]
    simp [IntOp.cmpi, hb]

/-- The masked sum picks the label's entry. -/
theorem picked_eq (x : Fin NC → EReal) (t : BitVec 32) (k : Fin NC) (ht : t.toInt = (k.val : ℤ)) :
    picked x t = x k := by
  unfold picked
  have h : ∀ c : Fin NC, Scalar.select (IntOp.cmpi .eq t (BitVec.ofNat 32 c.val)) (x c) wZero
      = if c = k then x c else 0 := by
    intro c
    rw [cmpi_eq_label t k c ht]
    by_cases hck : c = k
    · rw [if_pos hck, if_pos hck]; exact if_pos rfl
    · rw [if_neg hck, if_neg hck, wZero_eq]; exact if_neg (by decide)
  rw [Finset.sum_congr rfl (fun c _ => h c), Finset.sum_ite_eq' Finset.univ k x, if_pos (Finset.mem_univ k)]

/-- The maximum of a row of reals is a real. -/
theorem rowMax_real (x : Fin NC → EReal) (hx : ∀ c, ∃ a : ℝ, x c = (a : EReal)) :
    ∃ a : ℝ, rowMax x = (a : EReal) := by
  have hbot : rowMax x ≠ ⊥ := by
    obtain ⟨a, ha⟩ := hx ⟨0, by decide⟩
    have hle : x ⟨0, by decide⟩ ≤ rowMax x :=
      (Finset.le_fold_max _).mpr (Or.inr ⟨⟨0, by decide⟩, Finset.mem_univ _, le_refl _⟩)
    intro e
    rw [e, ha] at hle
    exact absurd (le_bot_iff.mp hle) (EReal.coe_ne_bot a)
  have htop : rowMax x ≠ ⊤ := by
    have hlt : rowMax x < ⊤ := by
      refine (Finset.fold_max_lt _).mpr ⟨?_, ?_⟩
      · rw [wNegInf_eq]; exact bot_lt_top
      · intro c _
        obtain ⟨a, ha⟩ := hx c
        rw [ha]; exact EReal.coe_lt_top a
    exact ne_of_lt hlt
  exact ⟨(rowMax x).toReal, (EReal.coe_toReal htop hbot).symm⟩

/-- A finite sum of reals, each read in the extended reals, is the real sum read there. -/
private theorem coe_sum {ι : Type} (s : Finset ι) (f : ι → ℝ) :
    (∑ i ∈ s, (f i : EReal)) = ((∑ i ∈ s, f i : ℝ) : EReal) := by
  classical
  refine Finset.induction_on s (by simp) ?_
  intro i s hi ih
  rw [Finset.sum_insert hi, Finset.sum_insert hi, ih, EReal.coe_add]

/-- The log-sum-exp of the shifted row is the real logarithm of a positive real sum: with `x = a` entrywise and shift
    `M`, `log (∑ exp (x - M)) = Real.log (∑ Real.exp (a - M))`. -/
private theorem lse_real (x : Fin NC → EReal) (a : Fin NC → ℝ) (M : ℝ) (ha : ∀ c, x c = (a c : EReal)) :
    Ideal.log (∑ c : Fin NC, Ideal.exp (x c - (M : EReal)))
      = ((Real.log (∑ c : Fin NC, Real.exp (a c - M)) : ℝ) : EReal) := by
  have h1 : ∀ c : Fin NC, Ideal.exp (x c - (M : EReal)) = ((Real.exp (a c - M) : ℝ) : EReal) := by
    intro c
    rw [ha c, ← EReal.coe_sub]
    exact Ideal.exp_coe _
  rw [Finset.sum_congr rfl (fun c _ => h1 c), coe_sum, Ideal.log_coe]
  have hpos : 0 < ∑ c : Fin NC, Real.exp (a c - M) :=
    Finset.sum_pos (fun c _ => Real.exp_pos _) ⟨⟨0, by decide⟩, Finset.mem_univ _⟩
  rw [if_neg (not_le.mpr hpos)]

/-- Both arrangements, on a row of reals `a` with maximum `M` and label `k`, are the real
    `Real.log (∑ Real.exp (a - M)) + M - a k`. -/
private theorem rowLoss_both (x : Fin NC → EReal) (hx : ∀ c, ∃ a : ℝ, x c = (a : EReal)) (t : BitVec 32) (k : Fin NC)
    (ht : t.toInt = (k.val : ℤ)) :
    ∃ r : ℝ, rowLoss x t = (r : EReal) ∧ rowLossRef x k = (r : EReal) := by
  choose a ha using hx
  obtain ⟨M, hM⟩ := rowMax_real x (fun c => ⟨a c, ha c⟩)
  refine ⟨Real.log (∑ c : Fin NC, Real.exp (a c - M)) + M - a k, ?_, ?_⟩
  · unfold rowLoss
    rw [picked_eq x t k ht, hM, lse_real x a M ha, ha k, ← EReal.coe_add, ← EReal.coe_sub]
  · unfold rowLossRef
    have hmax : max wNegInf (rowMax x) = (M : EReal) := by
      rw [wNegInf_eq, hM]; exact max_eq_right bot_le
    rw [hmax, wZero_eq, zero_add, lse_real x a M ha, ha k, ← EReal.coe_sub, ← EReal.coe_sub, ← EReal.coe_neg]
    congr 1
    ring

/-- On a row of reals with an in-range label the cross entropy is a real, -/
theorem rowLoss_real (x : Fin NC → EReal) (hx : ∀ c, ∃ a : ℝ, x c = (a : EReal)) (t : BitVec 32) (k : Fin NC)
    (ht : t.toInt = (k.val : ℤ)) : ∃ a : ℝ, rowLoss x t = (a : EReal) := by
  obtain ⟨r, h1, _⟩ := rowLoss_both x hx t k ht
  exact ⟨r, h1⟩

/-- and the two arrangements agree. -/
theorem rowLoss_eq_ref (x : Fin NC → EReal) (hx : ∀ c, ∃ a : ℝ, x c = (a : EReal)) (t : BitVec 32) (k : Fin NC)
    (ht : t.toInt = (k.val : ℤ)) : rowLoss x t = rowLossRef x k := by
  obtain ⟨r, h1, h2⟩ := rowLoss_both x hx t k ht
  rw [h1, h2]

end Cert.GBL

end
-- ==== Proof.LossLaw.lean ====
/-
  The weights and the two weighted means.
  A class's new magnitude is `0.9 g + 0.1 |s / max n 1|` or `g`: with `g` a non-negative real and `s`, `n`
  reals it is a non-negative real (`max n 1 ≥ 1` is a non-zero real, so the quotient is a real), hence
  `newMag + ε` is a positive real and the weight `1 / (newMag + ε)` a positive real.
  With positive real weights `w` (so `W = ∑ w > 0`, the index set being non-empty) and real cross entropies,
  `(∑ ((w / W) · N) · ce) / N = (∑ w · ce) / W` is the field identity `((a / W) · N · e) / N = a · e / W`
  summed, `N ≠ 0`: both means are that real.
-/
import proofs.«420719_j14912126452149_3_alg».proof.Proof.Spec
import proofs.«420719_j14912126452149_3_alg».proof.Proof.Consts

noncomputable section

namespace Cert.GBL

open Idealize.ShloMosaic

/-- The coercion of the reals into the extended reals goes through a finite sum. -/
private theorem sum_coe {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The coercion of the reals into the extended reals goes through a maximum. -/
private theorem coe_max' (x y : ℝ) : max (x : EReal) (y : EReal) = ((max x y : ℝ) : EReal) :=
  (EReal.coe_strictMono.monotone.map_max).symm

/-- A per-class sum of reals is a real. -/
theorem seg_real (T : Fin NR → BitVec 32) (u : Fin NR → EReal) (hu : ∀ r, ∃ a : ℝ, u r = (a : EReal)) (c : Fin NC) :
    ∃ a : ℝ, seg T u c = (a : EReal) := by
  choose a ha using hu
  refine ⟨∑ r : Fin NR, if (T r).toInt = (c.val : ℤ) then a r else 0, ?_⟩
  unfold seg
  rw [← sum_coe]
  refine Finset.sum_congr rfl fun r _ => ?_
  split_ifs
  · exact ha r
  · simp

/-- The new magnitude of a class with real sum and count and a non-negative real old magnitude is a non-negative real. -/
theorem newMag_nonneg (s n g : EReal) (hs : ∃ a : ℝ, s = (a : EReal)) (hn : ∃ a : ℝ, n = (a : EReal))
    (hg : ∃ a : ℝ, 0 ≤ a ∧ g = (a : EReal)) : ∃ a : ℝ, 0 ≤ a ∧ newMag s n g = (a : EReal) := by
  obtain ⟨a, rfl⟩ := hs
  obtain ⟨b, rfl⟩ := hn
  obtain ⟨c, hc, rfl⟩ := hg
  obtain ⟨p, hp, h09⟩ := w09_pos
  obtain ⟨q, hq, h01⟩ := w01_pos
  unfold newMag
  rw [h09, h01, wOne_eq, wZero_eq]
  unfold Scalar.select
  split_ifs
  · -- the count's maximum with one is a real that is at least one
    have hm : max (b : EReal) 1 = ((max b 1 : ℝ) : EReal) := by rw [← EReal.coe_one, coe_max']
    have hne : max b 1 ≠ 0 := by have := le_max_right b 1; linarith
    rw [hm, Ideal.div_coe hne]
    simp only [← EReal.coe_mul, ← EReal.coe_neg, coe_max', ← EReal.coe_add]
    refine ⟨_, ?_, rfl⟩
    have : 0 ≤ max (a * (1 / max b 1)) (-(a * (1 / max b 1))) := by
      rcases le_total 0 (a * (1 / max b 1)) with h | h
      · exact le_trans h (le_max_left _ _)
      · exact le_trans (neg_nonneg.mpr h) (le_max_right _ _)
    positivity
  · exact ⟨c, hc, rfl⟩

/-- So the weight is a positive real. -/
theorem weight_pos (s n g : EReal) (hs : ∃ a : ℝ, s = (a : EReal)) (hn : ∃ a : ℝ, n = (a : EReal))
    (hg : ∃ a : ℝ, 0 ≤ a ∧ g = (a : EReal)) : ∃ a : ℝ, 0 < a ∧ weight s n g = (a : EReal) := by
  obtain ⟨m, hm, hmag⟩ := newMag_nonneg s n g hs hn hg
  obtain ⟨e, he, hE⟩ := wEps_pos
  have hne : m + e ≠ 0 := by positivity
  unfold weight
  rw [hmag, hE, wOne_eq, ← EReal.coe_add, Ideal.div_coe hne, one_mul]
  exact ⟨1 / (m + e), by positivity, rfl⟩

/-- The two weighted means agree on positive real weights and real cross entropies. -/
theorem mean_eq {ι : Type} [Fintype ι] [Nonempty ι] (w ce : ι → EReal)
    (hw : ∀ i, ∃ a : ℝ, 0 < a ∧ w i = (a : EReal)) (hce : ∀ i, ∃ a : ℝ, ce i = (a : EReal)) :
    meanA w ce = meanB w ce := by
  choose a ha haw using hw
  choose e he using hce
  obtain ⟨N, hN, hNe⟩ := wN_pos
  obtain rfl : w = fun i => ((a i : ℝ) : EReal) := funext haw
  obtain rfl : ce = fun i => ((e i : ℝ) : EReal) := funext he
  have hW : 0 < ∑ i, a i := Finset.sum_pos (fun i _ => ha i) Finset.univ_nonempty
  have hWne : (∑ i, a i) ≠ 0 := ne_of_gt hW
  have hNne : N ≠ 0 := ne_of_gt hN
  unfold meanA meanB
  rw [wZero_eq, hNe]
  simp only [zero_add]
  rw [sum_coe Finset.univ a]
  simp only [Ideal.div_coe hWne, Ideal.div_coe hNne, ← EReal.coe_mul]
  rw [sum_coe, sum_coe, ← EReal.coe_mul, ← EReal.coe_mul]
  congr 1
  rw [Finset.sum_mul, Finset.sum_mul]
  refine Finset.sum_congr rfl fun i _ => ?_
  field_simp

end Cert.GBL

end
-- ==== Proof.RFinal.lean ====
/-
  The reference returns the loss `lossS` of its three argument arrays, when the logits are reals, the gradient
  magnitudes non-negative reals and the labels class numbers. Sample by sample its per-sample value is the cross
  entropy (the two arrangements of Proof/CeLaw.lean agree on a row of reals); so its per-class sums and counts
  are those of `lossS`, and so are its weights; every weight is then a positive real and every cross entropy a
  real, and the renormalised mean it computes is the plain weighted mean (Proof/LossLaw.lean).
-/
import proofs.«420719_j14912126452149_3_alg».proof.Proof.RefVal
import proofs.«420719_j14912126452149_3_alg».proof.Proof.Loss
import proofs.«420719_j14912126452149_3_alg».proof.Proof.CeLaw
import proofs.«420719_j14912126452149_3_alg».proof.Proof.LossLaw
import proofs.«420719_j14912126452149_3_alg».proof.Proof.Consts

noncomputable section

namespace Cert.ReferenceIdeal.RVal

open Cert.ReferenceIdeal Cert.ReferenceIdeal.Gen Cert.ReferenceIdeal.ReadP
open Idealize.ShloMosaic Idealize.ShloMosaic.ValueIdx
open Cert.GBL

variable (X : (⟨S65536x1000, .f32⟩ : BufTy).Contents (Elt Ideal)) (T : (⟨S65536, .i32⟩ : BufTy).Contents (Elt Ideal))
  (G : (⟨S1000, .f32⟩ : BufTy).Contents (Elt Ideal))

/-- The reference's result is the loss. -/
theorem ref_value (hX : ∀ i, ∃ a : ℝ, X i = (a : EReal)) (hG : ∀ i, ∃ a : ℝ, 0 ≤ a ∧ G i = (a : EReal))
    (hT : ∀ i, 0 ≤ (T i).toInt ∧ (T i).toInt < 1000) :
    val_main_v42 (F := Ideal) X T G ix0 = lossS X T G := by
  have hk : ∀ r : Fin 65536, (T (ix1 r)).toInt = ((lab (T (ix1 r))).val : ℤ) := fun r =>
    lab_val _ (hT _).1 (hT _).2
  have hreal : ∀ r : Fin 65536, ∃ a : ℝ, ceS X T r = (a : EReal) := fun r =>
    rowLoss_real _ (fun col => hX _) _ (lab (T (ix1 r))) (hk r)
  have hce : ∀ r : Fin 65536, val_main_v4 (F := Ideal) X T (ix1 r) = ceS X T r := fun r =>
    (ref_ce X T r (lab (T (ix1 r))) (hk r)).trans
      (rowLoss_eq_ref _ (fun col => hX _) _ (lab (T (ix1 r))) (hk r)).symm
  have hsum : ∀ c : Fin 1000,
      val_main_v7 (F := Ideal) X T (ix1 c) = seg (fun r : Fin 65536 => T (ix1 r)) (ceS X T) c := fun c => by
    rw [ref_sums, wZero_eq, zero_add]
    exact congrArg (fun u => seg (fun r : Fin 65536 => T (ix1 r)) u c) (funext hce)
  have hcnt : ∀ c : Fin 1000,
      val_main_v11 (F := Ideal) T (ix1 c) = seg (fun r : Fin 65536 => T (ix1 r)) (fun _ => (1 : EReal)) c := fun c => by
    rw [ref_counts, wZero_eq, zero_add, wOne_eq]
  have hw : ∀ i : S65536.Idx, val_main_v34 (F := Ideal) X T G i = wS X T G i := fun i => by
    obtain ⟨r, rfl⟩ : ∃ r : Fin 65536, i = ix1 r := ⟨i 0, eq_ix1 i⟩
    rw [ref_weight X T G r (lab (T (ix1 r))) (hk r), hsum, hcnt]
    rfl
  have e2 : ∀ i : S65536.Idx, val_main_v4 (F := Ideal) X T i = ceS X T ⟨(i 0).val, (i 0).isLt⟩ := fun i => by
    obtain ⟨r, rfl⟩ : ∃ r : Fin 65536, i = ix1 r := ⟨i 0, eq_ix1 i⟩
    exact hce r
  rw [ref_result, show (fun i : S65536.Idx => val_main_v34 (F := Ideal) X T G i) = wS X T G from funext hw,
    show (fun i : S65536.Idx => val_main_v4 (F := Ideal) X T i)
      = (fun i : S65536.Idx => ceS X T ⟨(i 0).val, (i 0).isLt⟩) from funext e2]
  haveI : Nonempty S65536.Idx := ⟨ix1 (0 : Fin 65536)⟩
  refine (mean_eq (wS X T G) (fun i : S65536.Idx => ceS X T ⟨(i 0).val, (i 0).isLt⟩) (fun i => ?_) (fun i => hreal _)).symm
  exact weight_pos _ _ _ (seg_real _ _ hreal _) (seg_real _ _ (fun _ => ⟨1, EReal.coe_one.symm⟩) _) (hG _)

end Cert.ReferenceIdeal.RVal

end
-- ==== Proof.KPieces.lean ====
/-
  What one grid point of the kernel leaves in its three output blocks, read entry by entry at the ideal instance.
  The body stores the block of per-sample cross entropies whole. Into the two [8, 1000] accumulator blocks it
  writes only row 0: at the first point of a core's run the block is zeroed first, so row 0 ends at the tile's
  product row (the zero word plus it) and rows 1..7 at zero; at every later point row 0 ends at what the point
  before left there plus the tile's product row, and rows 1..7 keep what they held. Row 0 of the first
  accumulator takes row 0 of the [2, 1000] product (cross entropies against the one-hot matrix), row 0 of the
  second takes row 1 (ones against it).
-/
import proofs.«420719_j14912126452149_3_alg».proof.Proof.Gen.KernelIdeal.Frame
import Idealize.ShloMosaic.Lib.WritesUnit
import Idealize.ShloMosaic.Lib.ValueIdx
import Idealize.ShloMosaic.Lib.Pipeline.Value
import Idealize.ShloMosaic.PureOps.Ideal.Laws

set_option maxRecDepth 16384

noncomputable section

namespace Cert.KernelIdeal.KVal

open Idealize.ShloMosaic Idealize.ShloMosaic.TcCoe Idealize.ShloMosaic.Tactic Idealize.SL.Sem Idealize.ShloMosaic.ValueIdx
open Cert.KernelIdeal Cert.KernelIdeal.Gen

theorem hz1 : (![0] : Fin 1 → Nat) = fun _ => 0 := funext fun a => by fin_cases a; rfl
theorem hz2 : (![0, 0] : Fin 2 → Nat) = fun _ => 0 := funext fun a => by fin_cases a <;> rfl

/-! ## The payloads at an entry -/

/-- The zero fill is zero everywhere. -/
theorem pay4_apply (j : S8x1000.Idx) : k0_pay4 (F := Ideal) j = 0 := by
  unfold k0_pay4
  show Ideal.ofBits .f32 0x00000000#32 = 0
  exact Ideal.ofBits_zero_f32

theorem pay5_apply (j : S8x1000.Idx) : k0_pay5 (F := Ideal) j = 0 := by
  unfold k0_pay5
  show Ideal.ofBits .f32 0x00000000#32 = 0
  exact Ideal.ofBits_zero_f32

/-- A one-row block plus row 0 of a two-row product, at a column. -/
theorem row0_update (v33 : FVec Ideal S2x1000 .f32) (v34 : Vec Ideal S1x1000 .f32) (col : Fin 1000) :
    addf (shapeCast S1x1000 v34 shapeCasts_S1x1000_S1x1000)
        (extractStridedSlice S1x1000 ![0, 0] v33 slices_S2x1000_o0_0_S1x1000) (ix2 (0 : Fin 1) col)
      = v34 (ix2 (0 : Fin 1) col) + v33 (ix2 (0 : Fin 2) col) := by
  rw [addf_apply, shapeCast_self]
  congr 1
  exact extractStridedSlice_apply _ _ _ _ (ix2 (0 : Fin 2) col) (fun a => by
    match a with
    | ⟨0, _⟩ => rfl
    | ⟨1, _⟩ => show col.val = 0 + col.val; omega)

/-- Row 0 of the first accumulator after the update: what it held plus row 0 of the product. -/
theorem pay7_apply (v0 : Vec Ideal S1024x1000 .f32) (v10 : Vec Ideal S1024 .i32) (v34 : Vec Ideal S1x1000 .f32)
    (col : Fin 1000) :
    k0_pay7 (F := Ideal) v0 v10 v34 (ix2 (0 : Fin 1) col)
      = v34 (ix2 (0 : Fin 1) col) + k0_pay6 (F := Ideal) v0 v10 (ix2 (0 : Fin 2) col) := by
  unfold k0_pay7
  exact row0_update (k0_pay6 (F := Ideal) v0 v10) v34 col

/-- Row 0 of an [8, 1000] block read through the one-row rectangle at the origin. -/
theorem ld_row0 (X : Vec Ideal S8x1000 .f32) (inb) (col : Fin 1000) :
    View.ld X (Rect.unit (s := S8x1000) ![0, 0] ![1, 1000] inb) (ix2 (0 : Fin 1) col) = X (ix2 (0 : Fin 8) col) := by
  show X ((Rect.unit (s := S8x1000) ![0, 0] ![1, 1000] inb).emb (ix2 (0 : Fin 1) col)) = _
  congr 1
  funext a
  apply Fin.ext
  match a with
  | ⟨0, _⟩ => show 0 + 1 * 0 = 0; rfl
  | ⟨1, _⟩ => show 0 + 1 * col.val = col.val; omega

/-- Row 0 of the second accumulator after the update: what it held plus row 1 of the product. -/
theorem pay1_apply (v33 : FVec Ideal S2x1000 .f32) (v39 : Vec Ideal S1x1000 .f32) (col : Fin 1000) :
    k0_pay1 (F := Ideal) v33 v39 (ix2 (0 : Fin 1) col) = v39 (ix2 (0 : Fin 1) col) + v33 (ix2 (1 : Fin 2) col) := by
  unfold k0_pay1
  rw [addf_apply, shapeCast_self]
  congr 1
  exact extractStridedSlice_apply _ _ _ _ (ix2 (1 : Fin 2) col) (fun a => by
    match a with
    | ⟨0, _⟩ => rfl
    | ⟨1, _⟩ => show col.val = 0 + col.val; omega)

/-! ## The block of cross entropies -/

/-- At a first point the cross-entropy block is the body's one covering store. -/
theorem outA2 (c : Dev nD) (i : grid0.Coords) (arg2 : Memref sig .tc .vmem S1024x1000 .f32) (harg2 : arg2.IsWhole) (arg3 : Memref sig .tc .vmem S1024 .i32) (harg3 : arg3.IsWhole) (arg4 : Memref sig .tc .vmem S1024 .f32) (harg4 : arg4.IsWhole) (arg5 : Memref sig .tc .vmem S8x1000 .f32) (harg5 : arg5.IsWhole) (arg6 : Memref sig .tc .vmem S8x1000 .f32) (harg6 : arg6.IsWhole) (hc0 : cond0_0 i) (x0 : Vec Ideal S1024x1000 .f32) (x1 : Vec Ideal S1024 .i32) :
    out0_A_2 c i arg2 harg2 arg3 harg3 arg4 harg4 arg5 harg5 arg6 harg6 hc0 x0 x1 = k0_pay3 x0 x1 := by
  unfold out0_A_2
  rw [View.read_writes_eq_canon _ _ _ (cover0_A_2 c i arg2 harg2 arg3 harg3 arg4 harg4 arg5 harg5 arg6 harg6 hc0 x0 x1)]
  unfold kernelRun0_A
  dsimp only
  sl_unfold_words
  rw [View.canon_unit_zero hz1]
  simp only [View.readAt_eq_ld, harg2.read_unread, harg3.read_unread, View.ld_unit_zero (S := S1024x1000) hz2, View.ld_unit_zero (S := S1024) hz1]

/-- At a later point too. -/
theorem outB2 (c : Dev nD) (i : grid0.Coords) (arg2 : Memref sig .tc .vmem S1024x1000 .f32) (harg2 : arg2.IsWhole) (arg3 : Memref sig .tc .vmem S1024 .i32) (harg3 : arg3.IsWhole) (arg4 : Memref sig .tc .vmem S1024 .f32) (harg4 : arg4.IsWhole) (arg5 : Memref sig .tc .vmem S8x1000 .f32) (harg5 : arg5.IsWhole) (arg6 : Memref sig .tc .vmem S8x1000 .f32) (harg6 : arg6.IsWhole) (hc0 : ¬cond0_0 i) (x0 : Vec Ideal S1024x1000 .f32) (x1 : Vec Ideal S1024 .i32) (xo3 xo4 : Vec Ideal S8x1000 .f32) :
    out0_B_2 c i arg2 harg2 arg3 harg3 arg4 harg4 arg5 harg5 arg6 harg6 hc0 x0 x1 xo3 xo4 = k0_pay3 x0 x1 := by
  unfold out0_B_2
  rw [View.read_writes_eq_canon _ _ _ (cover0_B_2 c i arg2 harg2 arg3 harg3 arg4 harg4 arg5 harg5 arg6 harg6 hc0 x0 x1 xo3 xo4)]
  unfold kernelRun0_B
  dsimp only
  sl_unfold_words
  rw [View.canon_unit_zero hz1]
  simp only [View.readAt_eq_ld, harg2.read_unread, harg3.read_unread, View.ld_unit_zero (S := S1024x1000) hz2, View.ld_unit_zero (S := S1024) hz1]

/-! ## The first accumulator block -/

/-- At a first point row 0 is row 0 of the tile's product (added to the zero just stored). -/
theorem outA3_row0 (c : Dev nD) (i : grid0.Coords) (arg2 : Memref sig .tc .vmem S1024x1000 .f32) (harg2 : arg2.IsWhole) (arg3 : Memref sig .tc .vmem S1024 .i32) (harg3 : arg3.IsWhole) (arg4 : Memref sig .tc .vmem S1024 .f32) (harg4 : arg4.IsWhole) (arg5 : Memref sig .tc .vmem S8x1000 .f32) (harg5 : arg5.IsWhole) (arg6 : Memref sig .tc .vmem S8x1000 .f32) (harg6 : arg6.IsWhole) (hc0 : cond0_0 i) (x0 : Vec Ideal S1024x1000 .f32) (x1 : Vec Ideal S1024 .i32) (col : Fin 1000) :
    out0_A_3 c i arg2 harg2 arg3 harg3 arg4 harg4 arg5 harg5 arg6 harg6 hc0 x0 x1 (ix2 (0 : Fin 8) col) = k0_pay6 (F := Ideal) x0 x1 (ix2 (0 : Fin 2) col) := by
  unfold out0_A_3 kernelRun0_A
  dsimp only
  sl_unfold_words
  refine (View.read_writes_cons_rows_of_mem (o := 0) _ _ _ _ _ (ix2 (0 : Fin 8) col) (ix2 (0 : Fin 1) col) rfl rfl rfl).trans ?_
  simp only [View.readAt_eq_ld, harg2.read_unread, harg3.read_unread, View.ld_unit_zero (S := S1024x1000) hz2, View.ld_unit_zero (S := S1024) hz1]
  rw [pay7_apply, View.readCov_eq_canon', View.canon_unit_zero hz2]
  simp only [pay4_apply, zero_add]

/-- At a first point rows 1 to 7 are zero. -/
theorem outA3_rest (c : Dev nD) (i : grid0.Coords) (arg2 : Memref sig .tc .vmem S1024x1000 .f32) (harg2 : arg2.IsWhole) (arg3 : Memref sig .tc .vmem S1024 .i32) (harg3 : arg3.IsWhole) (arg4 : Memref sig .tc .vmem S1024 .f32) (harg4 : arg4.IsWhole) (arg5 : Memref sig .tc .vmem S8x1000 .f32) (harg5 : arg5.IsWhole) (arg6 : Memref sig .tc .vmem S8x1000 .f32) (harg6 : arg6.IsWhole) (hc0 : cond0_0 i) (x0 : Vec Ideal S1024x1000 .f32) (x1 : Vec Ideal S1024 .i32) (a : Fin 8) (ha : a.val ≠ 0) (col : Fin 1000) :
    out0_A_3 c i arg2 harg2 arg3 harg3 arg4 harg4 arg5 harg5 arg6 harg6 hc0 x0 x1 (ix2 a col) = 0 := by
  unfold out0_A_3 kernelRun0_A
  dsimp only
  sl_unfold_words
  refine (View.read_writes_cons_rows_of_not_mem (o := 0) (W := 1) _ _ _ _ _ (ix2 a col) rfl rfl (Or.inr (by show 0 + 1 ≤ a.val; omega))).trans ?_
  refine (View.read_writes_cons_unit_of_mem _ _ _ _ _ (ix2 a col) (ix2 a col) rfl (fun b => by
    match b with
    | ⟨0, _⟩ => show a.val = 0 + a.val; omega
    | ⟨1, _⟩ => show col.val = 0 + col.val; omega)).trans ?_
  exact pay4_apply _

/-- At a later point row 0 is what the point before left there plus row 0 of the tile's product. -/
theorem outB3_row0 (c : Dev nD) (i : grid0.Coords) (arg2 : Memref sig .tc .vmem S1024x1000 .f32) (harg2 : arg2.IsWhole) (arg3 : Memref sig .tc .vmem S1024 .i32) (harg3 : arg3.IsWhole) (arg4 : Memref sig .tc .vmem S1024 .f32) (harg4 : arg4.IsWhole) (arg5 : Memref sig .tc .vmem S8x1000 .f32) (harg5 : arg5.IsWhole) (arg6 : Memref sig .tc .vmem S8x1000 .f32) (harg6 : arg6.IsWhole) (hc0 : ¬cond0_0 i) (x0 : Vec Ideal S1024x1000 .f32) (x1 : Vec Ideal S1024 .i32) (xo3 xo4 : Vec Ideal S8x1000 .f32) (col : Fin 1000) :
    out0_B_3 c i arg2 harg2 arg3 harg3 arg4 harg4 arg5 harg5 arg6 harg6 hc0 x0 x1 xo3 xo4 (ix2 (0 : Fin 8) col)
      = xo3 (ix2 (0 : Fin 8) col) + k0_pay6 (F := Ideal) x0 x1 (ix2 (0 : Fin 2) col) := by
  unfold out0_B_3 kernelRun0_B
  dsimp only
  sl_unfold_words
  refine (View.read_writes_cons_rows_of_mem (o := 0) _ _ _ _ _ (ix2 (0 : Fin 8) col) (ix2 (0 : Fin 1) col) rfl rfl rfl).trans ?_
  simp only [View.readAt_eq_ld, harg2.read_unread, harg3.read_unread, View.ld_unit_zero (S := S1024x1000) hz2, View.ld_unit_zero (S := S1024) hz1]
  rw [pay7_apply]
  simp only [View.readAt_eq_ld, harg5.read_unread]
  rw [ld_row0]

/-- At a later point rows 1 to 7 keep what they held. -/
theorem outB3_rest (c : Dev nD) (i : grid0.Coords) (arg2 : Memref sig .tc .vmem S1024x1000 .f32) (harg2 : arg2.IsWhole) (arg3 : Memref sig .tc .vmem S1024 .i32) (harg3 : arg3.IsWhole) (arg4 : Memref sig .tc .vmem S1024 .f32) (harg4 : arg4.IsWhole) (arg5 : Memref sig .tc .vmem S8x1000 .f32) (harg5 : arg5.IsWhole) (arg6 : Memref sig .tc .vmem S8x1000 .f32) (harg6 : arg6.IsWhole) (hc0 : ¬cond0_0 i) (x0 : Vec Ideal S1024x1000 .f32) (x1 : Vec Ideal S1024 .i32) (xo3 xo4 : Vec Ideal S8x1000 .f32) (a : Fin 8) (ha : a.val ≠ 0) (col : Fin 1000) :
    out0_B_3 c i arg2 harg2 arg3 harg3 arg4 harg4 arg5 harg5 arg6 harg6 hc0 x0 x1 xo3 xo4 (ix2 a col) = xo3 (ix2 a col) := by
  unfold out0_B_3 kernelRun0_B
  dsimp only
  sl_unfold_words
  refine (View.read_writes_cons_rows_of_not_mem (o := 0) (W := 1) _ _ _ _ _ (ix2 a col) rfl rfl (Or.inr (by show 0 + 1 ≤ a.val; omega))).trans ?_
  rw [View.writes_nil, harg5.read_unread]

/-! ## The second accumulator block -/

/-- At a first point row 0 is row 1 of the tile's product. -/
theorem outA4_row0 (c : Dev nD) (i : grid0.Coords) (arg2 : Memref sig .tc .vmem S1024x1000 .f32) (harg2 : arg2.IsWhole) (arg3 : Memref sig .tc .vmem S1024 .i32) (harg3 : arg3.IsWhole) (arg4 : Memref sig .tc .vmem S1024 .f32) (harg4 : arg4.IsWhole) (arg5 : Memref sig .tc .vmem S8x1000 .f32) (harg5 : arg5.IsWhole) (arg6 : Memref sig .tc .vmem S8x1000 .f32) (harg6 : arg6.IsWhole) (hc0 : cond0_0 i) (x0 : Vec Ideal S1024x1000 .f32) (x1 : Vec Ideal S1024 .i32) (col : Fin 1000) :
    out0_A_4 c i arg2 harg2 arg3 harg3 arg4 harg4 arg5 harg5 arg6 harg6 hc0 x0 x1 (ix2 (0 : Fin 8) col) = k0_pay6 (F := Ideal) x0 x1 (ix2 (1 : Fin 2) col) := by
  unfold out0_A_4 kernelRun0_A
  dsimp only
  sl_unfold_words
  refine (View.read_writes_cons_rows_of_mem (o := 0) _ _ _ _ _ (ix2 (0 : Fin 8) col) (ix2 (0 : Fin 1) col) rfl rfl rfl).trans ?_
  simp only [View.readAt_eq_ld, harg2.read_unread, harg3.read_unread, View.ld_unit_zero (S := S1024x1000) hz2, View.ld_unit_zero (S := S1024) hz1]
  rw [pay1_apply, View.readCov_eq_canon', View.canon_unit_zero hz2]
  simp only [pay5_apply, zero_add]

/-- At a first point rows 1 to 7 are zero. -/
theorem outA4_rest (c : Dev nD) (i : grid0.Coords) (arg2 : Memref sig .tc .vmem S1024x1000 .f32) (harg2 : arg2.IsWhole) (arg3 : Memref sig .tc .vmem S1024 .i32) (harg3 : arg3.IsWhole) (arg4 : Memref sig .tc .vmem S1024 .f32) (harg4 : arg4.IsWhole) (arg5 : Memref sig .tc .vmem S8x1000 .f32) (harg5 : arg5.IsWhole) (arg6 : Memref sig .tc .vmem S8x1000 .f32) (harg6 : arg6.IsWhole) (hc0 : cond0_0 i) (x0 : Vec Ideal S1024x1000 .f32) (x1 : Vec Ideal S1024 .i32) (a : Fin 8) (ha : a.val ≠ 0) (col : Fin 1000) :
    out0_A_4 c i arg2 harg2 arg3 harg3 arg4 harg4 arg5 harg5 arg6 harg6 hc0 x0 x1 (ix2 a col) = 0 := by
  unfold out0_A_4 kernelRun0_A
  dsimp only
  sl_unfold_words
  refine (View.read_writes_cons_rows_of_not_mem (o := 0) (W := 1) _ _ _ _ _ (ix2 a col) rfl rfl (Or.inr (by show 0 + 1 ≤ a.val; omega))).trans ?_
  refine (View.read_writes_cons_unit_of_mem _ _ _ _ _ (ix2 a col) (ix2 a col) rfl (fun b => by
    match b with
    | ⟨0, _⟩ => show a.val = 0 + a.val; omega
    | ⟨1, _⟩ => show col.val = 0 + col.val; omega)).trans ?_
  exact pay5_apply _

/-- At a later point row 0 is what the point before left there plus row 1 of the tile's product. -/
theorem outB4_row0 (c : Dev nD) (i : grid0.Coords) (arg2 : Memref sig .tc .vmem S1024x1000 .f32) (harg2 : arg2.IsWhole) (arg3 : Memref sig .tc .vmem S1024 .i32) (harg3 : arg3.IsWhole) (arg4 : Memref sig .tc .vmem S1024 .f32) (harg4 : arg4.IsWhole) (arg5 : Memref sig .tc .vmem S8x1000 .f32) (harg5 : arg5.IsWhole) (arg6 : Memref sig .tc .vmem S8x1000 .f32) (harg6 : arg6.IsWhole) (hc0 : ¬cond0_0 i) (x0 : Vec Ideal S1024x1000 .f32) (x1 : Vec Ideal S1024 .i32) (xo3 xo4 : Vec Ideal S8x1000 .f32) (col : Fin 1000) :
    out0_B_4 c i arg2 harg2 arg3 harg3 arg4 harg4 arg5 harg5 arg6 harg6 hc0 x0 x1 xo3 xo4 (ix2 (0 : Fin 8) col)
      = xo4 (ix2 (0 : Fin 8) col) + k0_pay6 (F := Ideal) x0 x1 (ix2 (1 : Fin 2) col) := by
  unfold out0_B_4 kernelRun0_B
  dsimp only
  sl_unfold_words
  refine (View.read_writes_cons_rows_of_mem (o := 0) _ _ _ _ _ (ix2 (0 : Fin 8) col) (ix2 (0 : Fin 1) col) rfl rfl rfl).trans ?_
  simp only [View.readAt_eq_ld, harg2.read_unread, harg3.read_unread, View.ld_unit_zero (S := S1024x1000) hz2, View.ld_unit_zero (S := S1024) hz1]
  rw [pay1_apply]
  simp only [View.readAt_eq_ld, harg6.read_unread]
  rw [ld_row0]

/-- At a later point rows 1 to 7 keep what they held. -/
theorem outB4_rest (c : Dev nD) (i : grid0.Coords) (arg2 : Memref sig .tc .vmem S1024x1000 .f32) (harg2 : arg2.IsWhole) (arg3 : Memref sig .tc .vmem S1024 .i32) (harg3 : arg3.IsWhole) (arg4 : Memref sig .tc .vmem S1024 .f32) (harg4 : arg4.IsWhole) (arg5 : Memref sig .tc .vmem S8x1000 .f32) (harg5 : arg5.IsWhole) (arg6 : Memref sig .tc .vmem S8x1000 .f32) (harg6 : arg6.IsWhole) (hc0 : ¬cond0_0 i) (x0 : Vec Ideal S1024x1000 .f32) (x1 : Vec Ideal S1024 .i32) (xo3 xo4 : Vec Ideal S8x1000 .f32) (a : Fin 8) (ha : a.val ≠ 0) (col : Fin 1000) :
    out0_B_4 c i arg2 harg2 arg3 harg3 arg4 harg4 arg5 harg5 arg6 harg6 hc0 x0 x1 xo3 xo4 (ix2 a col) = xo4 (ix2 a col) := by
  unfold out0_B_4 kernelRun0_B
  dsimp only
  sl_unfold_words
  refine (View.read_writes_cons_rows_of_not_mem (o := 0) (W := 1) _ _ _ _ _ (ix2 a col) rfl rfl (Or.inr (by show 0 + 1 ≤ a.val; omega))).trans ?_
  rw [View.writes_nil, harg6.read_unread]

end Cert.KernelIdeal.KVal

end
-- ==== Proof.KAccum.lean ====
/-
  The two accumulator blocks point by point. A core's run is 32 consecutive grid points; at the run's first
  point (point number divisible by 32) a block's row 0 is the tile's product row and rows 1..7 are zero, at each
  later point row 0 grows by the tile's product row and rows 1..7 stay. So after point `n` row 0 holds the sum of
  the product rows of the points `32·(n / 32) … n` of the run so far, and rows 1..7 hold zero: by induction on the
  point. The cross-entropy block of a point is the body's covering store at either kind of point.
-/
import proofs.«420719_j14912126452149_3_alg».proof.Proof.KPieces

set_option maxRecDepth 16384

noncomputable section

namespace Cert.KernelIdeal.KVal

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

/-- The tile of logits the body reads at point `t`, -/
abbrev xblk (c : Dev nD) (t : Fin cfg0.N) : Vec Ideal S1024x1000 .f32 := iblk m c 0 t
/-- and its tile of labels. -/
abbrev tblk (c : Dev nD) (t : Fin cfg0.N) : Vec Ideal S1024 .i32 := iblk m c 1 t

/-- Entry `(row, col)` of the [2, 1000] product the body forms at point `t` (zero past the grid). -/
def prodAt (c : Dev nD) (row : Fin 2) (t : ℕ) (col : Fin 1000) : EReal :=
  if h : t < cfg0.N then k0_pay6 (F := Ideal) (xblk m c ⟨t, h⟩) (tblk m c ⟨t, h⟩) (ix2 row col) else 0

/-- The sum of the product rows over the run so far: the points from the run's first up to `n`. -/
def runSum (c : Dev nD) (row : Fin 2) (n : ℕ) (col : Fin 1000) : EReal :=
  ∑ j ∈ Finset.range (n % 32 + 1), prodAt m c row (n / 32 * 32 + j) col

/-! ## One point -/

/-- The cross-entropy block after point `t`: the body's store. -/
theorem ce_at (c : Dev nD) (t : Fin cfg0.N) :
    (outsAt0 m c t.val t.isLt).1 = k0_pay3 (F := Ideal) (xblk m c t) (tblk m c t) := by
  by_cases h0 : t.val % 32 = 0
  · rw [outsAt0_A m c t h0]
    dsimp only
    exact outA2 c (grid0.coords t) (ms0_0 t) (hs0_0 t) (ms0_1 t) (hs0_1 t) (ms0_2 t) (hs0_2 t) (ms0_3 t) (hs0_3 t) (ms0_4 t) (hs0_4 t) ((hcond0_0 t).mpr h0) (xblk m c t) (tblk m c t)
  · rw [outsAt0_B m c t h0]
    dsimp only
    exact outB2 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (xblk m c t) (tblk m c t) (outsAt0 m c (t.val - 1) (Nat.lt_of_le_of_lt (Nat.sub_le _ _) t.isLt)).2.1 (outsAt0 m c (t.val - 1) (Nat.lt_of_le_of_lt (Nat.sub_le _ _) t.isLt)).2.2

/-- First accumulator, a run's first point. -/
theorem acc3_first (c : Dev nD) (t : Fin cfg0.N) (h0 : t.val % 32 = 0) (a : Fin 8) (col : Fin 1000) :
    (outsAt0 m c t.val t.isLt).2.1 (ix2 a col)
      = if a.val = 0 then k0_pay6 (F := Ideal) (xblk m c t) (tblk m c t) (ix2 (0 : Fin 2) col) else 0 := by
  rw [outsAt0_A m c t h0]
  dsimp only
  by_cases ha : a.val = 0
  · rw [if_pos ha]
    obtain rfl : a = 0 := Fin.ext ha
    exact outA3_row0 c (grid0.coords t) (ms0_0 t) (hs0_0 t) (ms0_1 t) (hs0_1 t) (ms0_2 t) (hs0_2 t) (ms0_3 t) (hs0_3 t) (ms0_4 t) (hs0_4 t) ((hcond0_0 t).mpr h0) (xblk m c t) (tblk m c t) col
  · rw [if_neg ha]
    exact outA3_rest c (grid0.coords t) (ms0_0 t) (hs0_0 t) (ms0_1 t) (hs0_1 t) (ms0_2 t) (hs0_2 t) (ms0_3 t) (hs0_3 t) (ms0_4 t) (hs0_4 t) ((hcond0_0 t).mpr h0) (xblk m c t) (tblk m c t) a ha col

/-- First accumulator, a later point of a run. -/
theorem acc3_later (c : Dev nD) (t : Fin cfg0.N) (h0 : ¬t.val % 32 = 0) (a : Fin 8) (col : Fin 1000) :
    (outsAt0 m c t.val t.isLt).2.1 (ix2 a col)
      = if a.val = 0 then (outsAt0 m c (t.val - 1) (Nat.lt_of_le_of_lt (Nat.sub_le _ _) t.isLt)).2.1 (ix2 (0 : Fin 8) col)
            + k0_pay6 (F := Ideal) (xblk m c t) (tblk m c t) (ix2 (0 : Fin 2) col)
        else (outsAt0 m c (t.val - 1) (Nat.lt_of_le_of_lt (Nat.sub_le _ _) t.isLt)).2.1 (ix2 a col) := by
  rw [outsAt0_B m c t h0]
  dsimp only
  by_cases ha : a.val = 0
  · rw [if_pos ha]
    obtain rfl : a = 0 := Fin.ext ha
    exact outB3_row0 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (xblk m c t) (tblk m c t) (outsAt0 m c (t.val - 1) (Nat.lt_of_le_of_lt (Nat.sub_le _ _) t.isLt)).2.1 (outsAt0 m c (t.val - 1) (Nat.lt_of_le_of_lt (Nat.sub_le _ _) t.isLt)).2.2 col
  · rw [if_neg ha]
    exact outB3_rest c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (xblk m c t) (tblk m c t) (outsAt0 m c (t.val - 1) (Nat.lt_of_le_of_lt (Nat.sub_le _ _) t.isLt)).2.1 (outsAt0 m c (t.val - 1) (Nat.lt_of_le_of_lt (Nat.sub_le _ _) t.isLt)).2.2 a ha col

/-- Second accumulator, a run's first point. -/
theorem acc4_first (c : Dev nD) (t : Fin cfg0.N) (h0 : t.val % 32 = 0) (a : Fin 8) (col : Fin 1000) :
    (outsAt0 m c t.val t.isLt).2.2 (ix2 a col)
      = if a.val = 0 then k0_pay6 (F := Ideal) (xblk m c t) (tblk m c t) (ix2 (1 : Fin 2) col) else 0 := by
  rw [outsAt0_A m c t h0]
  dsimp only
  by_cases ha : a.val = 0
  · rw [if_pos ha]
    obtain rfl : a = 0 := Fin.ext ha
    exact outA4_row0 c (grid0.coords t) (ms0_0 t) (hs0_0 t) (ms0_1 t) (hs0_1 t) (ms0_2 t) (hs0_2 t) (ms0_3 t) (hs0_3 t) (ms0_4 t) (hs0_4 t) ((hcond0_0 t).mpr h0) (xblk m c t) (tblk m c t) col
  · rw [if_neg ha]
    exact outA4_rest c (grid0.coords t) (ms0_0 t) (hs0_0 t) (ms0_1 t) (hs0_1 t) (ms0_2 t) (hs0_2 t) (ms0_3 t) (hs0_3 t) (ms0_4 t) (hs0_4 t) ((hcond0_0 t).mpr h0) (xblk m c t) (tblk m c t) a ha col

/-- Second accumulator, a later point of a run. -/
theorem acc4_later (c : Dev nD) (t : Fin cfg0.N) (h0 : ¬t.val % 32 = 0) (a : Fin 8) (col : Fin 1000) :
    (outsAt0 m c t.val t.isLt).2.2 (ix2 a col)
      = if a.val = 0 then (outsAt0 m c (t.val - 1) (Nat.lt_of_le_of_lt (Nat.sub_le _ _) t.isLt)).2.2 (ix2 (0 : Fin 8) col)
            + k0_pay6 (F := Ideal) (xblk m c t) (tblk m c t) (ix2 (1 : Fin 2) col)
        else (outsAt0 m c (t.val - 1) (Nat.lt_of_le_of_lt (Nat.sub_le _ _) t.isLt)).2.2 (ix2 a col) := by
  rw [outsAt0_B m c t h0]
  dsimp only
  by_cases ha : a.val = 0
  · rw [if_pos ha]
    obtain rfl : a = 0 := Fin.ext ha
    exact outB4_row0 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (xblk m c t) (tblk m c t) (outsAt0 m c (t.val - 1) (Nat.lt_of_le_of_lt (Nat.sub_le _ _) t.isLt)).2.1 (outsAt0 m c (t.val - 1) (Nat.lt_of_le_of_lt (Nat.sub_le _ _) t.isLt)).2.2 col
  · rw [if_neg ha]
    exact outB4_rest c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (xblk m c t) (tblk m c t) (outsAt0 m c (t.val - 1) (Nat.lt_of_le_of_lt (Nat.sub_le _ _) t.isLt)).2.1 (outsAt0 m c (t.val - 1) (Nat.lt_of_le_of_lt (Nat.sub_le _ _) t.isLt)).2.2 a ha col

/-! ## The run so far -/

/-- At a run's first point the run so far is that point's product row. -/
theorem runSum_first (c : Dev nD) (row : Fin 2) (n : ℕ) (h : n < cfg0.N) (h0 : n % 32 = 0) (col : Fin 1000) :
    runSum m c row n col = k0_pay6 (F := Ideal) (xblk m c ⟨n, h⟩) (tblk m c ⟨n, h⟩) (ix2 row col) := by
  unfold runSum
  rw [h0, Finset.sum_range_one, Nat.add_zero, Nat.div_mul_cancel (Nat.dvd_of_mod_eq_zero h0)]
  unfold prodAt
  rw [dif_pos h]

/-- At a later point it is the run up to the point before plus this point's product row. -/
theorem runSum_later (c : Dev nD) (row : Fin 2) (n : ℕ) (h : n + 1 < cfg0.N) (h0 : ¬(n + 1) % 32 = 0) (col : Fin 1000) :
    runSum m c row (n + 1) col
      = runSum m c row n col + k0_pay6 (F := Ideal) (xblk m c ⟨n + 1, h⟩) (tblk m c ⟨n + 1, h⟩) (ix2 row col) := by
  have hm : (n + 1) % 32 = n % 32 + 1 := by omega
  have hd : (n + 1) / 32 = n / 32 := by omega
  unfold runSum
  rw [hm, hd, Finset.sum_range_succ]
  congr 1
  unfold prodAt
  have e : n / 32 * 32 + (n % 32 + 1) = n + 1 := by omega
  rw [dif_pos (by rw [e]; exact h)]
  congr 3 <;> exact Fin.ext e

/-- After point `n`: row 0 of each accumulator holds the run so far, rows 1..7 hold zero. -/
theorem acc_eq (c : Dev nD) : ∀ (n : ℕ) (h : n < cfg0.N) (a : Fin 8) (col : Fin 1000),
    (outsAt0 m c n h).2.1 (ix2 a col) = (if a.val = 0 then runSum m c 0 n col else 0)
      ∧ (outsAt0 m c n h).2.2 (ix2 a col) = (if a.val = 0 then runSum m c 1 n col else 0)
  | 0, h, a, col => by
    have e3 := acc3_first m c ⟨0, h⟩ rfl a col
    have e4 := acc4_first m c ⟨0, h⟩ rfl a col
    rw [runSum_first m c 0 0 h rfl col, runSum_first m c 1 0 h rfl col]
    exact ⟨e3, e4⟩
  | n + 1, h, a, col => by
    by_cases h0 : (n + 1) % 32 = 0
    · have e3 := acc3_first m c ⟨n + 1, h⟩ h0 a col
      have e4 := acc4_first m c ⟨n + 1, h⟩ h0 a col
      rw [runSum_first m c 0 (n + 1) h h0 col, runSum_first m c 1 (n + 1) h h0 col]
      exact ⟨e3, e4⟩
    · have e3 := acc3_later m c ⟨n + 1, h⟩ h0 a col
      have e4 := acc4_later m c ⟨n + 1, h⟩ h0 a col
      have ih0 := acc_eq c n (Nat.lt_of_succ_lt h) 0 col
      have iha := acc_eq c n (Nat.lt_of_succ_lt h) a col
      rw [runSum_later m c 0 n h h0 col, runSum_later m c 1 n h h0 col]
      refine ⟨e3.trans ?_, e4.trans ?_⟩
      · by_cases ha : a.val = 0
        · rw [if_pos ha, if_pos ha]
          show (outsAt0 m c n _).2.1 (ix2 (0 : Fin 8) col) + _ = _
          rw [ih0.1, if_pos (show (0 : Fin 8).val = 0 from rfl)]
        · rw [if_neg ha, if_neg ha]
          show (outsAt0 m c n _).2.1 (ix2 a col) = _
          rw [iha.1, if_neg ha]
      · by_cases ha : a.val = 0
        · rw [if_pos ha, if_pos ha]
          show (outsAt0 m c n _).2.2 (ix2 (0 : Fin 8) col) + _ = _
          rw [ih0.2, if_pos (show (0 : Fin 8).val = 0 from rfl)]
        · rw [if_neg ha, if_neg ha]
          show (outsAt0 m c n _).2.2 (ix2 a col) = _
          rw [iha.2, if_neg ha]

end Cert.KernelIdeal.KVal

end
-- ==== Proof.Tiles.lean ====
/-
  The per-class sums tile by tile. The 65536 samples are 64 tiles of 1024; the kernel forms, per tile, the
  product of the row of cross entropies (or of ones) with the tile's one-hot matrix, whose entry for a sample
  and a class is 1 when the sample's label is the class and 0 otherwise (`hot`: the comparison bit widened to
  an integer and converted). Summed over the tiles this is the per-class sum over all samples.
-/
import proofs.«420719_j14912126452149_3_alg».proof.Proof.Spec
import Mathlib.Algebra.BigOperators.Fin
import Mathlib.Logic.Equiv.Fin.Basic

noncomputable section

namespace Cert.GBL

open Idealize.ShloMosaic

/-- Sample number `k` of tile `t`. -/
def rowOf (t : Fin 64) (k : Fin 1024) : Fin NR :=
  ⟨t.val * 1024 + k.val, by show t.val * 1024 + k.val < 65536; have := t.isLt; have := k.isLt; omega⟩

/-- The one-hot entry as the kernel builds it: the comparison bit, widened to 32 bits, converted to a float. -/
def hot (t : BitVec 32) (c : Fin NC) : EReal :=
  ((((IntOp.cmpi .eq t (BitVec.ofNat 32 c.val)).setWidth 32).toInt : ℝ) : EReal)

/-- A class number, written as a 32-bit word, reads back signed as itself: it is below 2^31. -/
private theorem toInt_ofNat_class (n : ℕ) (hn : n < 1000) : (BitVec.ofNat 32 n).toInt = (n : ℤ) := by
  have e := BitVec.toInt_eq_toNat_cond (BitVec.ofNat 32 n)
  have e2 : (BitVec.ofNat 32 n).toNat = n := by
    rw [BitVec.toNat_ofNat]; omega
  rw [e2] at e
  omega

/-- It is 1 on the label's class and 0 elsewhere. -/
theorem hot_eq (t : BitVec 32) (c : Fin NC) : hot t c = if t.toInt = (c.val : ℤ) then 1 else 0 := by
  have hc : c.val < 1000 := c.isLt
  unfold hot
  by_cases h : t = BitVec.ofNat 32 c.val
  · -- equal words: the bit is 1, widened it is the word 1, whose signed reading is 1
    have h1 : IntOp.cmpi .eq t (BitVec.ofNat 32 c.val) = 1#1 := by
      simp only [IntOp.cmpi, h, beq_self_eq_true, BitVec.ofBool_true]; rfl
    have h2 : t.toInt = (c.val : ℤ) := by rw [h]; exact toInt_ofNat_class _ hc
    have h3 : ((1#1 : BitVec 1).setWidth 32).toInt = 1 := by decide
    rw [h1, if_pos h2, h3]
    simp only [Int.cast_one, EReal.coe_one]
  · -- different words: the bit is 0; and the signed readings differ, since the signed reading is injective
    have h1 : IntOp.cmpi .eq t (BitVec.ofNat 32 c.val) = 0#1 := by
      simp only [IntOp.cmpi, beq_eq_false_iff_ne.mpr h, BitVec.ofBool_false]; rfl
    have h2 : ¬ t.toInt = (c.val : ℤ) := by
      intro e
      apply h
      apply BitVec.eq_of_toInt_eq
      rw [e, toInt_ofNat_class _ hc]
    have h3 : ((0#1 : BitVec 1).setWidth 32).toInt = 0 := by decide
    rw [h1, if_neg h2, h3]
    simp only [Int.cast_zero, EReal.coe_zero]

/-- One tile's contribution to class `c`: the tile's entries of `u` against the one-hot column. -/
def tileSum (u : Fin NR → EReal) (T : Fin NR → BitVec 32) (t : Fin 64) (c : Fin NC) : EReal :=
  ∑ k : Fin 1024, u (rowOf t k) * hot (T (rowOf t k)) c

/-- Tile and position within the tile number the samples exactly once: `(t, k) ↦ 1024 t + k` is injective
    (division with remainder by 1024), and both sides have 65536 elements. -/
private theorem rowOf_bijective : Function.Bijective (fun x : Fin 64 × Fin 1024 => rowOf x.1 x.2) := by
  rw [Fintype.bijective_iff_injective_and_card]
  constructor
  · rintro ⟨t, k⟩ ⟨t', k'⟩ h
    have h' : t.val * 1024 + k.val = t'.val * 1024 + k'.val := congrArg Fin.val h
    have := k.isLt; have := k'.isLt
    have ht : t.val = t'.val := by omega
    have hk : k.val = k'.val := by omega
    exact Prod.ext (Fin.ext ht) (Fin.ext hk)
  · simp only [Fintype.card_prod, Fintype.card_fin]

/-- The tiles' contributions add up to the per-class sum. -/
theorem sum_tiles_eq_seg (u : Fin NR → EReal) (T : Fin NR → BitVec 32) (c : Fin NC) :
    ∑ t : Fin 64, tileSum u T t c = seg T u c := by
  -- a product with the one-hot entry keeps the factor on the label's class and is zero elsewhere
  have key : ∀ r : Fin NR, u r * hot (T r) c = if (T r).toInt = (c.val : ℤ) then u r else 0 := by
    intro r
    rw [hot_eq]
    by_cases h : (T r).toInt = (c.val : ℤ)
    · rw [if_pos h, if_pos h, mul_one]
    · rw [if_neg h, if_neg h, mul_zero]
  unfold tileSum seg
  simp only [key]
  -- the double sum is a sum over pairs, and the pairs are the samples
  rw [← Fintype.sum_prod_type']
  exact Fintype.sum_bijective (fun x : Fin 64 × Fin 1024 => rowOf x.1 x.2) rowOf_bijective _ _ (fun _ => rfl)

/-- The same with the 64 tiles taken as two runs of 32 (one per core), each run summed in order. -/
theorem two_runs_eq_seg (u : Fin NR → EReal) (T : Fin NR → BitVec 32) (c : Fin NC) :
    (∑ j ∈ Finset.range 32, if h : j < 64 then tileSum u T ⟨j, h⟩ c else 0)
      + (∑ j ∈ Finset.range 32, if h : 32 + j < 64 then tileSum u T ⟨32 + j, h⟩ c else 0) = seg T u c := by
  -- the first run is the tiles 0..31,
  have h1 : (∑ j ∈ Finset.range 32, if h : j < 64 then tileSum u T ⟨j, h⟩ c else 0)
      = ∑ i : Fin 32, tileSum u T (Fin.castAdd 32 i) c := by
    rw [← Fin.sum_univ_eq_sum_range (fun j => if h : j < 64 then tileSum u T ⟨j, h⟩ c else 0) 32]
    refine Finset.sum_congr rfl (fun i _ => ?_)
    have hi : i.val < 64 := by have := i.isLt; omega
    rw [dif_pos hi]
    rfl
  -- the second the tiles 32..63,
  have h2 : (∑ j ∈ Finset.range 32, if h : 32 + j < 64 then tileSum u T ⟨32 + j, h⟩ c else 0)
      = ∑ i : Fin 32, tileSum u T (Fin.natAdd 32 i) c := by
    rw [← Fin.sum_univ_eq_sum_range (fun j => if h : 32 + j < 64 then tileSum u T ⟨32 + j, h⟩ c else 0) 32]
    refine Finset.sum_congr rfl (fun i _ => ?_)
    have hi : 32 + i.val < 64 := by have := i.isLt; omega
    rw [dif_pos hi]
    rfl
  -- and a sum over 32 + 32 indices splits into these two.
  rw [h1, h2]
  exact (Fin.sum_univ_add (fun t : Fin (32 + 32) => tileSum u T t c)).symm.trans (sum_tiles_eq_seg u T c)

end Cert.GBL

end
-- ==== Proof.KPay.lean ====
/-
  The kernel body's arithmetic at an entry, at the ideal instance, in the vocabulary of Proof/Spec.lean and
  Proof/Tiles.lean. Row `k` of the tile's cross-entropy block is the cross entropy (`Cert.GBL.rowLoss`) of row
  `k` of the tile's logits with the tile's `k`-th label. The [2, 1000] product of the stacked rows (cross
  entropies; ones) with the tile's one-hot matrix has, in column `c`, the sum over the tile's samples of the
  cross entropy (row 0) or of one (row 1) times the one-hot entry: a change of float format is the identity here,
  and the product onto a zero accumulator is the plain contraction over the 1024 samples.
-/
import proofs.«420719_j14912126452149_3_alg».proof.Proof.Gen.KernelIdeal.Skeleton
import proofs.«420719_j14912126452149_3_alg».proof.Proof.Spec
import proofs.«420719_j14912126452149_3_alg».proof.Proof.Tiles
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.KernelIdeal.KPay

open Idealize.ShloMosaic Idealize.ShloMosaic.ValueIdx
open Cert.KernelIdeal Cert.KernelIdeal.Gen

section Layout
variable {α : Type}

/-- A [1024] vector viewed as a column [1024, 1] reads, at row `k`, the vector at `k`. -/
private theorem cast_col (x : S1024.Idx → α) (h : S1024.ShapeCasts S1024x1) (k : Fin 1024) (z : Fin 1) :
    shapeCast S1024x1 x h (ix2 k z) = x (ix1 k) :=
  shapeCast_apply x h _ _ (by
    have hz : z.val = 0 := by omega
    rw [Shape.rowMajor_val_two, Shape.rowMajor_val_one]
    show k.val = k.val * 1 + z.val
    omega)

/-- A column [1024, 1] viewed as a [1024] vector reads, at `k`, the column's row `k`. -/
private theorem cast_back (x : S1024x1.Idx → α) (h : S1024x1.ShapeCasts S1024) (k : Fin 1024) :
    shapeCast S1024 x h (ix1 k) = x (ix2 k (0 : Fin 1)) :=
  shapeCast_apply x h _ _ (by
    rw [Shape.rowMajor_val_two, Shape.rowMajor_val_one]
    show k.val * 1 + 0 = k.val
    omega)

/-- A column [1024, 1] broadcast along the 1000 lanes reads, at `(k, c)`, the column's row `k`. -/
private theorem bcast_col (x : S1024x1.Idx → α) (h : S1024x1.Broadcasts S1024x1000) (k : Fin 1024) (c : Fin 1000) :
    broadcastTo S1024x1000 x h (ix2 k c) = x (ix2 k (0 : Fin 1)) := by
  refine broadcastTo_apply x h (ix2 k c) (ix2 k (0 : Fin 1)) fun ax => ?_
  match ax with
  | ⟨0, _⟩ => rfl
  | ⟨1, _⟩ => rfl

/-- The index a lane reduction inserts lane `c` into, over row `k`, is `(k, c)`. -/
private theorem lift_row (h : S1024x1000.Reduces [1] S1024) (k : Fin 1024) (c : Fin 1000) :
    h.lift (ix1 k) c = ix2 k c := by
  funext a
  match a with
  | ⟨0, _⟩ => rfl
  | ⟨1, _⟩ => rfl

end Layout

section Reduce

/-- The lane maximum of row `k`: the fold of `max` from minus infinity over the row's 1000 entries. -/
private theorem red_max (x : FVec Ideal S1024x1000 .f32) (h : S1024x1000.Reduces [1] S1024) (hφ : FKind.Formats .f32)
    (hacc : (0xFF800000#32 : BitVec 32) = FKind.maximumf.neutral .f32 hφ) (k : Fin 1024) :
    multiReduction .maximumf [1] S1024 x 0xFF800000#32 h hφ hacc (ix1 k)
      = Cert.GBL.rowMax (fun c : Fin 1000 => x (ix2 k c)) := by
  refine (Ideal.multiReduction_maximumf_single x _ h hφ hacc (ix1 k)).trans ?_
  have e : (fun c : Fin 1000 => x (h.lift (ix1 k) c)) = (fun c : Fin 1000 => x (ix2 k c)) :=
    funext fun c => congrArg x (lift_row h k c)
  exact congrArg (fun f : Fin 1000 → EReal =>
    (Finset.univ : Finset (Fin 1000)).fold max (Ideal.ofBits .f32 0xFF800000#32) f) e

/-- The lane sum of row `k`: the sum of the row's 1000 entries. -/
private theorem red_add (x : FVec Ideal S1024x1000 .f32) (h : S1024x1000.Reduces [1] S1024) (hφ : FKind.Formats .f32)
    (hacc : (0x00000000#32 : BitVec 32) = FKind.add.neutral .f32 hφ) (k : Fin 1024) :
    multiReduction .add [1] S1024 x 0x00000000#32 h hφ hacc (ix1 k) = ∑ c : Fin 1000, x (ix2 k c) := by
  refine (Ideal.multiReduction_add_single x _ h hφ hacc (ix1 k)).trans ?_
  show ∑ c : Fin 1000, x (h.lift (ix1 k) c) = _
  exact Finset.sum_congr rfl fun c _ => congrArg x (lift_row h k c)

end Reduce

/-- The comparison bit at `(k, c)`: label `k` against the class number `c`. -/
private theorem pay2_apply (v10 : Vec Ideal S1024 .i32) (k : Fin 1024) (c : Fin 1000) :
    k0_pay2 (F := Ideal) v10 (ix2 k c) = IntOp.cmpi .eq (v10 (ix1 k)) (BitVec.ofNat 32 c.val) := by
  unfold k0_pay2
  show IntOp.cmpi .eq _ _ = _
  refine congrArg₂ (IntOp.cmpi .eq) ?_ ?_
  · refine (bcast_col _ _ k c).trans ?_
    refine (cast_col _ _ k 0).trans ?_
    rw [shapeCast_self]
  · exact iota_single_apply .tc S1024x1000 32 1 _ (ix2 k c)

section Product

/-- Two coordinates of one index at equal positions are equal. -/
private theorem coord_congr {s : Shape} (j : s.Idx) (p q : Nat) (hp : p < s.rank) (hq : q < s.rank) (h : p = q) :
    (j ⟨p, hp⟩).val = (j ⟨q, hq⟩).val := by subst h; rfl

/-- The left operand's row is the result's row. -/
private theorem lhs_ax0 (j : S2x1000.Idx) (q : dot_S2x1024_S1024x1000_S2x1000_1_0_0_1_n_n.contr.Idx) :
    (dot_S2x1024_S1024x1000_S2x1000_1_0_0_1_n_n.lhsIdx j q 0).val = (j 0).val := by
  unfold DotDims.lhsIdx
  rw [dif_neg (show ¬(0 : Fin S2x1024.rank) ∈ dot_S2x1024_S1024x1000_S2x1000_1_0_0_1_n_n.lhsBatch by decide),
    dif_pos (show (0 : Fin S2x1024.rank) ∈ dot_S2x1024_S1024x1000_S2x1000_1_0_0_1_n_n.lhsNonContracting by decide)]
  simp only [Fin.val_cast]
  exact coord_congr j _ _ _ _ (by decide)

/-- The left operand's column is the contraction coordinate. -/
private theorem lhs_ax1 (j : S2x1000.Idx) (q : dot_S2x1024_S1024x1000_S2x1000_1_0_0_1_n_n.contr.Idx) :
    (dot_S2x1024_S1024x1000_S2x1000_1_0_0_1_n_n.lhsIdx j q 1).val = (q ⟨0, by decide⟩).val :=
  dot_S2x1024_S1024x1000_S2x1000_1_0_0_1_n_n.lhsIdx_val_of_single rfl j q

/-- The right operand's row is the contraction coordinate. -/
private theorem rhs_ax0 (j : S2x1000.Idx) (q : dot_S2x1024_S1024x1000_S2x1000_1_0_0_1_n_n.contr.Idx) :
    (dot_S2x1024_S1024x1000_S2x1000_1_0_0_1_n_n.rhsIdx j q 0).val = (q ⟨0, by decide⟩).val :=
  dot_S2x1024_S1024x1000_S2x1000_1_0_0_1_n_n.rhsIdx_val_of_single rfl j q

/-- The right operand's column is the result's column. -/
private theorem rhs_ax1 (j : S2x1000.Idx) (q : dot_S2x1024_S1024x1000_S2x1000_1_0_0_1_n_n.contr.Idx) :
    (dot_S2x1024_S1024x1000_S2x1000_1_0_0_1_n_n.rhsIdx j q 1).val = (j 1).val := by
  unfold DotDims.rhsIdx
  rw [dif_neg (show ¬(1 : Fin S1024x1000.rank) ∈ dot_S2x1024_S1024x1000_S2x1000_1_0_0_1_n_n.rhsBatch by decide),
    dif_pos (show (1 : Fin S1024x1000.rank) ∈ dot_S2x1024_S1024x1000_S2x1000_1_0_0_1_n_n.rhsNonContracting by decide)]
  simp only [Fin.val_cast]
  exact coord_congr j _ _ _ _ (by decide)

/-- The product onto the zero block, at `(r, c)`: the contraction over the 1024 samples. -/
private theorem matmul_at (A : FVec Ideal S2x1024 .bf16) (B : FVec Ideal S1024x1000 .bf16) (r : Fin 2) (c : Fin 1000) :
    matmul dot_S2x1024_S1024x1000_S2x1000_1_0_0_1_n_n none A B (constant (F := Ideal) S2x1000 .f32 0x00000000#32) (ix2 r c)
      = ∑ k : Fin 1024, A (ix2 r k) * B (ix2 k c) := by
  show FloatOps.matmul dot_S2x1024_S1024x1000_S2x1000_1_0_0_1_n_n none A B (constant (F := Ideal) S2x1000 .f32 0x00000000#32) (ix2 r c) = _
  rw [Ideal.matmul_constant_zero_apply,
    ← Equiv.sum_comp (contrEquiv1 dot_S2x1024_S1024x1000_S2x1000_1_0_0_1_n_n 1024 rfl rfl).symm]
  refine Finset.sum_congr rfl fun k _ => ?_
  have ck := contrEquiv1_symm_val dot_S2x1024_S1024x1000_S2x1000_1_0_0_1_n_n 1024 rfl rfl k
  have hl : dot_S2x1024_S1024x1000_S2x1000_1_0_0_1_n_n.lhsIdx (ix2 r c)
      ((contrEquiv1 dot_S2x1024_S1024x1000_S2x1000_1_0_0_1_n_n 1024 rfl rfl).symm k) = ix2 r k := by
    funext ax; apply Fin.ext
    match ax with
    | ⟨0, _⟩ => exact lhs_ax0 _ _
    | ⟨1, _⟩ => exact (lhs_ax1 _ _).trans ck
  have hr : dot_S2x1024_S1024x1000_S2x1000_1_0_0_1_n_n.rhsIdx (ix2 r c)
      ((contrEquiv1 dot_S2x1024_S1024x1000_S2x1000_1_0_0_1_n_n 1024 rfl rfl).symm k) = ix2 k c := by
    funext ax; apply Fin.ext
    match ax with
    | ⟨0, _⟩ => exact (rhs_ax0 _ _).trans ck
    | ⟨1, _⟩ => exact rhs_ax1 _ _
  rw [hl, hr]

end Product

section Stack
variable {α : Type}

/-- Row 0 of two stacked rows is the first row. -/
private theorem concat_row0 (x y : S1x1024.Idx → α) (h : Shape.Concatenates [S1x1024, S1x1024] S2x1024 0) (k : Fin 1024) :
    concatenate S2x1024 0 [⟨S1x1024, x⟩, ⟨S1x1024, y⟩] h (ix2 (0 : Fin 2) k) = x (ix2 (0 : Fin 1) k) :=
  concatenate_pair_apply_left 0 x y h (ix2 (0 : Fin 2) k) rfl (ix2 (0 : Fin 1) k) (fun b => by
    match b with
    | ⟨0, _⟩ => rfl
    | ⟨1, _⟩ => rfl)

/-- Row 1 of two stacked rows is the second row. -/
private theorem concat_row1 (x y : S1x1024.Idx → α) (h : Shape.Concatenates [S1x1024, S1x1024] S2x1024 0) (k : Fin 1024) :
    concatenate S2x1024 0 [⟨S1x1024, x⟩, ⟨S1x1024, y⟩] h (ix2 (1 : Fin 2) k) = y (ix2 (0 : Fin 1) k) :=
  concatenate_pair_apply_right 0 x y h (ix2 (1 : Fin 2) k) rfl rfl (ix2 (0 : Fin 1) k) (fun b hb => by
    match b, hb with
    | ⟨0, _⟩, hb => exact absurd rfl hb
    | ⟨1, _⟩, _ => rfl) rfl

end Stack

/-- The one-hot matrix at `(k, c)`: the comparison bit widened and converted; narrowing the format changes nothing. -/
private theorem onehot_at (v10 : Vec Ideal S1024 .i32) (h32 : 1 < 32) (hb : FTy.bits .bf16 < FTy.bits .f32)
    (k : Fin 1024) (c : Fin 1000) :
    truncf .bf16 (sitofp (F := Ideal) .f32 (extui 32 (k0_pay2 (F := Ideal) v10) h32)) hb (ix2 k c)
      = Cert.GBL.hot (v10 (ix1 k)) c := by
  show (((((k0_pay2 (F := Ideal) v10 (ix2 k c)).setWidth 32).toInt : ℝ) : EReal)) = _
  rw [pay2_apply]
  rfl

/-- The block's last casts and arithmetic at row `k`: from a sum `s`, a shift `m` and a picked entry `p`, each a
    [1024] vector viewed as a column, the value `log s + m - p` at `k`. -/
private theorem loss_at (s m p : FVec Ideal S1024 .f32) (h1 : S1024.ShapeCasts S1024x1) (h2 : S1024x1.ShapeCasts S1024)
    (k : Fin 1024) :
    shapeCast S1024 (subf (addf (log (shapeCast S1024x1 s h1)) (shapeCast S1024x1 m h1)) (shapeCast S1024x1 p h1)) h2 (ix1 k)
      = (Ideal.log (s (ix1 k)) + m (ix1 k)) - p (ix1 k) := by
  refine (cast_back _ _ k).trans ?_
  show (Ideal.log (shapeCast S1024x1 s h1 (ix2 k 0)) + shapeCast S1024x1 m h1 (ix2 k 0)) - shapeCast S1024x1 p h1 (ix2 k 0) = _
  rw [cast_col, cast_col, cast_col]

/-- The shifted exponential at `(k, c)`: the entry less the column of shifts at row `k`, exponentiated. -/
private theorem shifted_exp_at (x : FVec Ideal S1024x1000 .f32) (m : FVec Ideal S1024 .f32) (h1 : S1024.ShapeCasts S1024x1)
    (hb : S1024x1.Broadcasts S1024x1000) (k : Fin 1024) (c : Fin 1000) :
    exp (subf x (broadcastTo S1024x1000 (shapeCast S1024x1 m h1) hb)) (ix2 k c) = Ideal.exp (x (ix2 k c) - m (ix1 k)) := by
  show Ideal.exp (x (ix2 k c) - broadcastTo S1024x1000 (shapeCast S1024x1 m h1) hb (ix2 k c)) = _
  rw [bcast_col, cast_col]

/-- Entry `k` of the tile's cross-entropy block: the cross entropy of row `k` of the logits with label `k`. -/
theorem pay3_apply (v0 : Vec Ideal S1024x1000 .f32) (v10 : Vec Ideal S1024 .i32) (k : Fin 1024) :
    k0_pay3 (F := Ideal) v0 v10 (ix1 k) = Cert.GBL.rowLoss (fun col : Fin 1000 => v0 (ix2 k col)) (v10 (ix1 k)) := by
  unfold k0_pay3
  refine (loss_at _ _ _ _ _ k).trans ?_
  unfold Cert.GBL.rowLoss
  -- the shift is the row's maximum,
  have hmax := red_max v0 Facts₀.reduces_S1024x1000_S1024 (.inl rfl) rfl k
  -- the sum is over the shifted exponentials,
  have hsum : ∀ (x : FVec Ideal S1024x1000 .f32), x = exp (subf v0 (broadcastTo S1024x1000 (shapeCast S1024x1
      (multiReduction .maximumf [1] S1024 v0 0xFF800000#32 Facts₀.reduces_S1024x1000_S1024 (.inl rfl) rfl)
      Facts₀.shapeCasts_S1024_S1024x1) Facts₀.broadcasts_S1024x1_S1024x1000)) →
      multiReduction .add [1] S1024 x 0x00000000#32 Facts₀.reduces_S1024x1000_S1024 (.inl rfl) rfl (ix1 k)
        = ∑ c : Fin 1000, Ideal.exp (v0 (ix2 k c) - Cert.GBL.rowMax (fun col : Fin 1000 => v0 (ix2 k col))) := by
    intro x hx
    refine (red_add x _ _ _ k).trans ?_
    refine Finset.sum_congr rfl fun c _ => ?_
    rw [hx, shifted_exp_at, hmax]
  -- and the picked entry is the masked sum.
  have hpick : ∀ (x : FVec Ideal S1024x1000 .f32), x = select (k0_pay2 (F := Ideal) v10) v0
      (broadcast S1024x1000 (Scalar.ofBits (F := Ideal) .f32 0x00000000#32)) →
      multiReduction .add [1] S1024 x 0x00000000#32 Facts₀.reduces_S1024x1000_S1024 (.inl rfl) rfl (ix1 k)
        = Cert.GBL.picked (fun col : Fin 1000 => v0 (ix2 k col)) (v10 (ix1 k)) := by
    intro x hx
    refine (red_add x _ _ _ k).trans ?_
    unfold Cert.GBL.picked
    refine Finset.sum_congr rfl fun c _ => ?_
    rw [hx]
    show Scalar.select (k0_pay2 (F := Ideal) v10 (ix2 k c)) (v0 (ix2 k c)) (Ideal.ofBits .f32 0x00000000#32) = _
    rw [pay2_apply]
  rw [hsum _ rfl, hmax, hpick _ rfl]

/-- Row 0 of the product, column `col`: the cross entropies against the one-hot column. -/
theorem pay6_row0 (v0 : Vec Ideal S1024x1000 .f32) (v10 : Vec Ideal S1024 .i32) (col : Fin 1000) :
    k0_pay6 (F := Ideal) v0 v10 (ix2 (0 : Fin 2) col)
      = ∑ k : Fin 1024, k0_pay3 (F := Ideal) v0 v10 (ix1 k) * Cert.GBL.hot (v10 (ix1 k)) col := by
  unfold k0_pay6
  refine (matmul_at _ _ 0 col).trans ?_
  refine Finset.sum_congr rfl fun k _ => ?_
  refine congrArg₂ (· * ·) ?_ (onehot_at v10 _ _ k col)
  -- the first stacked row is the cross-entropy block laid out as a row
  refine (concat_row0 _ _ _ k).trans ?_
  show shapeCast S1x1024 (k0_pay3 (F := Ideal) v0 v10) _ (ix2 (0 : Fin 1) k) = _
  exact shapeCast_a_1a_apply _ _ 0 k

/-- Row 1 of the product, column `col`: ones against the one-hot column. -/
theorem pay6_row1 (v0 : Vec Ideal S1024x1000 .f32) (v10 : Vec Ideal S1024 .i32) (col : Fin 1000) :
    k0_pay6 (F := Ideal) v0 v10 (ix2 (1 : Fin 2) col)
      = ∑ k : Fin 1024, (1 : EReal) * Cert.GBL.hot (v10 (ix1 k)) col := by
  unfold k0_pay6
  refine (matmul_at _ _ 1 col).trans ?_
  refine Finset.sum_congr rfl fun k _ => ?_
  refine congrArg₂ (· * ·) ?_ (onehot_at v10 _ _ k col)
  -- the second stacked row is the splat of the word of one
  refine (concat_row1 _ _ _ k).trans ?_
  show Ideal.ofBits .bf16 0x3F80#16 = 1
  exact Ideal.ofBits_one_bf16

end Cert.KernelIdeal.KPay

end
-- ==== Proof.KArr.lean ====
/-
  The three output arrays after the run, as functions of the arrays the region finds.
  Point `t` of the 64-point grid reads tile `t` of the logits (rows `1024·t … 1024·t + 1023`) and of the labels
  and writes tile `t` of the cross entropies, whose entry `k` is the cross entropy of sample `1024·t + k`: the
  tiles cover the 65536 samples, so the cross-entropy array ends at the cross entropy of every sample.
  The two accumulator arrays have 16 rows, 8 per core; core `q`'s block is written back once, after its run's last
  point `32·q + 31`, when its row 0 holds the sum of the run's 32 product rows and its other rows hold zero. Each
  product row is the tile's cross entropies (or ones) against its one-hot columns (`Cert.GBL.tileSum`); so rows 0
  and 8 of the first array add up to the per-class sums of the cross entropies over all samples, and those of the
  second to the per-class counts.
-/
import proofs.«420719_j14912126452149_3_alg».proof.Proof.KAccum
import proofs.«420719_j14912126452149_3_alg».proof.Proof.KPay
import proofs.«420719_j14912126452149_3_alg».proof.Proof.Tiles

set_option maxRecDepth 16384

noncomputable section

namespace Cert.KernelIdeal.KVal

open Idealize.ShloMosaic Idealize.ShloMosaic.TcCoe Idealize.SL.Sem Idealize.ShloMosaic.ValueIdx
open Idealize.ShloMosaic.Pipeline (Dat)
open Cert.KernelIdeal Cert.KernelIdeal.Gen
open Cert.GBL (rowLoss rowOf hot tileSum seg)

variable (m : (ℓ : Loc nD τ sig) → Buf (Elt Ideal) ℓ)

/-- The logits as the region finds them, -/
abbrev xarr (c : Dev nD) : Vec Ideal S65536x1000 .f32 := V m c main_arg0
/-- and the labels (the clamped ones the host prepared). -/
abbrev tarr (c : Dev nD) : Vec Ideal S65536 .i32 := V m c main_v0

/-- A grid point as a tile number. -/
abbrev tileOf (t : Fin cfg0.N) : Fin 64 := ⟨t.val, lt_of_lt_of_eq t.isLt (show cfg0.N = 64 from N_0)⟩

/-- The printed index maps over the grid: the logits', labels' and cross entropies' block index is the point
    number; an accumulator's is the core number `t / 32`. -/
theorem idx_facts : ∀ t : Fin cfg0.N,
    win0_0.index t (0 : Fin 2) = t.val ∧ win0_0.index t (1 : Fin 2) = 0
    ∧ win0_1.index t (0 : Fin 1) = t.val ∧ win0_2.index t (0 : Fin 1) = t.val
    ∧ win0_3.index t (0 : Fin 2) = t.val / 32 ∧ win0_3.index t (1 : Fin 2) = 0
    ∧ win0_4.index t (0 : Fin 2) = t.val / 32 ∧ win0_4.index t (1 : Fin 2) = 0 :=
  (by decide +kernel : ∀ t : Fin grid0.N, _)

/-! ## The tiles the body reads -/

/-- Entry `(k, col)` of the tile of logits at point `t` is the logit of sample `1024·t + k`. -/
theorem xblk_apply (c : Dev nD) (t : Fin cfg0.N) (k : Fin 1024) (col : Fin 1000) :
    xblk m c t (ix2 k col) = xarr m c (ix2 (rowOf (tileOf t) k) col) := by
  obtain ⟨e0, e1, -⟩ := idx_facts t
  unfold xblk iblk
  rw [View.read_apply]
  show V m c main_arg0 (((cfg0.win 0).blk t).view.emb (ix2 k col)) = V m c main_arg0 (ix2 (rowOf (tileOf t) k) col)
  congr 1
  funext a
  apply Fin.ext
  match a with
  | ⟨0, _⟩ => show win0_0.index t (0 : Fin 2) * 1024 + 1 * k.val = t.val * 1024 + k.val; rw [e0]; omega
  | ⟨1, _⟩ => show win0_0.index t (1 : Fin 2) * 1000 + 1 * col.val = col.val; rw [e1]; omega

/-- Entry `k` of the tile of labels at point `t` is the label of sample `1024·t + k`. -/
theorem tblk_apply (c : Dev nD) (t : Fin cfg0.N) (k : Fin 1024) :
    tblk m c t (ix1 k) = tarr m c (ix1 (rowOf (tileOf t) k)) := by
  obtain ⟨-, -, e2, -⟩ := idx_facts t
  unfold tblk iblk
  rw [View.read_apply]
  show V m c main_v0 (((cfg0.win 1).blk t).view.emb (ix1 k)) = V m c main_v0 (ix1 (rowOf (tileOf t) k))
  congr 1
  funext a
  apply Fin.ext
  match a with
  | ⟨0, _⟩ => show win0_1.index t (0 : Fin 1) * 1024 + 1 * k.val = t.val * 1024 + k.val; rw [e2]; omega

/-! ## The cross entropies -/

/-- The cross entropy of sample `r`. -/
def ceOf (c : Dev nD) (r : Fin 65536) : EReal :=
  rowLoss (fun col : Fin 1000 => xarr m c (ix2 r col)) (tarr m c (ix1 r))

/-- The label word of sample `r`. -/
def labOf (c : Dev nD) (r : Fin 65536) : BitVec 32 := tarr m c (ix1 r)

/-- The array of all cross entropies. -/
def ceArr (c : Dev nD) : S65536.Idx → EReal := fun i => ceOf m c ⟨(i 0).val, (i 0).isLt⟩

/-- Entry `k` of the body's cross-entropy block at point `t` is the cross entropy of sample `1024·t + k`. -/
theorem pay3_at (c : Dev nD) (t : Fin cfg0.N) (k : Fin 1024) :
    k0_pay3 (F := Ideal) (xblk m c t) (tblk m c t) (ix1 k) = ceOf m c (rowOf (tileOf t) k) := by
  refine (KPay.pay3_apply (xblk m c t) (tblk m c t) k).trans ?_
  unfold ceOf
  rw [tblk_apply m c t k]
  congr 1
  funext col
  exact xblk_apply m c t k col

/-- What point `t` writes back is tile `t` of the cross-entropy array. -/
theorem flushed2_eq (c : Dev nD) (t : Fin cfg0.N) :
    (dats m 0 c).flushed 2 t = ((cfg0.win 2).blk t).view.read (Elt Ideal) (ceArr m c) := by
  obtain ⟨-, -, -, e3, -⟩ := idx_facts t
  show (cfg0.win 2).cut (grid0.coords t) ((dats m 0 c).after 2 t) = _
  rw [after0_2, ce_at m c t]
  funext j
  show k0_pay3 (F := Ideal) (xblk m c t) (tblk m c t) j = ceArr m c (((cfg0.win 2).blk t).view.emb j)
  have hj : j = ix1 (⟨(j 0).val, (j 0).isLt⟩ : Fin 1024) := funext fun d => by match d with | ⟨0, _⟩ => rfl
  refine (congrArg (k0_pay3 (F := Ideal) (xblk m c t) (tblk m c t)) hj).trans ?_
  refine (pay3_at m c t _).trans ?_
  show ceOf m c _ = ceOf m c _
  refine congrArg (ceOf m c) (Fin.ext ?_)
  show t.val * 1024 + (j 0).val = win0_2.index t (0 : Fin 1) * 1024 + 1 * (j 0).val
  rw [e3]; omega

/-- An index is in point `t`'s tile iff its coordinate is in the tile's range. -/
theorem mem_blk2 (t : Fin cfg0.N) (i : S65536.Idx) :
    i ∈ ((cfg0.win 2).blk t).view.set
      ↔ ∀ a : Fin 1, win0_2.index t a * S1024.size a ≤ (i a).val ∧ (i a).val < win0_2.index t a * S1024.size a + S1024.size a := by
  show i ∈ ((View.whole main_v1_0).slice (win0_2.rect t)).set ↔ _
  rw [View.set_slice_whole, Rect.mem_set_unit]
  exact Iff.rfl

/-- The cross-entropy array after the run. -/
theorem final2 (c : Dev nD) : (dats m 0 c).arrAt 2 cfg0.N = ceArr m c :=
  (dats m 0 c).arrAt_eq_of_cover 2 (ceArr m c) (fun t _ => flushed2_eq m c t) fun i => by
    have hi : (i 0).val < 65536 := (i 0).isLt
    have hN : cfg0.N = 64 := N_0
    let t : Fin cfg0.N := ⟨(i 0).val / 1024, by rw [hN]; omega⟩
    obtain ⟨-, -, -, e3, -⟩ := idx_facts t
    refine ⟨t, flush0_2 t, ?_⟩
    rw [mem_blk2]
    intro a
    match a with
    | ⟨0, _⟩ =>
      show win0_2.index t (0 : Fin 1) * 1024 ≤ (i 0).val ∧ (i 0).val < win0_2.index t (0 : Fin 1) * 1024 + 1024
      rw [e3]
      show (i 0).val / 1024 * 1024 ≤ (i 0).val ∧ (i 0).val < (i 0).val / 1024 * 1024 + 1024
      omega

/-! ## The accumulators -/

/-- The first accumulator array after the run: rows 0 and 8 hold the cores' sums of product rows, the rest zero. -/
def accArr (c : Dev nD) (row : Fin 2) : S16x1000.Idx → EReal := fun i =>
  if (i 0).val % 8 = 0 then runSum m c row ((i 0).val / 8 * 32 + 31) ⟨(i 1).val, (i 1).isLt⟩ else 0

/-- What a run's last point writes back is its core's block of the accumulator array (first accumulator). -/
theorem flushed3_eq (c : Dev nD) (t : Fin cfg0.N) (hf : (cfg0.win 3).flush t = true) :
    (dats m 0 c).flushed 3 t = ((cfg0.win 3).blk t).view.read (Elt Ideal) (accArr m c 0) := by
  have h31 : t.val % 32 = 31 := (flush0_3 t).mp hf
  obtain ⟨-, -, -, -, e4, e5, -⟩ := idx_facts t
  show (cfg0.win 3).cut (grid0.coords t) ((dats m 0 c).after 3 t) = _
  rw [after0_3]
  funext j
  show (outsAt0 m c t.val t.isLt).2.1 j = accArr m c 0 (((cfg0.win 3).blk t).view.emb j)
  have hj : j = ix2 (⟨(j 0).val, (j 0).isLt⟩ : Fin 8) (⟨(j 1).val, (j 1).isLt⟩ : Fin 1000) :=
    funext fun d => by match d with | ⟨0, _⟩ => rfl | ⟨1, _⟩ => rfl
  have hj0 : (j 0).val < 8 := (j 0).isLt
  have hj1 : (j 1).val < 1000 := (j 1).isLt
  have r0 : ((((cfg0.win 3).blk t).view.emb j) 0).val = t.val / 32 * 8 + (j 0).val := by
    show win0_3.index t (0 : Fin 2) * 8 + 1 * (j 0).val = _
    rw [e4]; omega
  have r1 : ((((cfg0.win 3).blk t).view.emb j) 1).val = (j 1).val := by
    show win0_3.index t (1 : Fin 2) * 1000 + 1 * (j 1).val = _
    rw [e5]; omega
  refine (congrArg (outsAt0 m c t.val t.isLt).2.1 hj).trans ?_
  refine ((acc_eq m c t.val t.isLt _ _).1).trans ?_
  unfold accArr
  by_cases ha : (j 0).val = 0
  · rw [if_pos ha, if_pos (by rw [r0]; omega)]
    have en : ((((cfg0.win 3).blk t).view.emb j) 0).val / 8 * 32 + 31 = t.val := by rw [r0]; omega
    rw [en]
    exact congrArg (runSum m c 0 t.val) (Fin.ext r1.symm)
  · rw [if_neg ha, if_neg (by rw [r0]; omega)]

/-- The same for the second accumulator. -/
theorem flushed4_eq (c : Dev nD) (t : Fin cfg0.N) (hf : (cfg0.win 4).flush t = true) :
    (dats m 0 c).flushed 4 t = ((cfg0.win 4).blk t).view.read (Elt Ideal) (accArr m c 1) := by
  have h31 : t.val % 32 = 31 := (flush0_4 t).mp hf
  obtain ⟨-, -, -, -, -, -, e6, e7⟩ := idx_facts t
  show (cfg0.win 4).cut (grid0.coords t) ((dats m 0 c).after 4 t) = _
  rw [after0_4]
  funext j
  show (outsAt0 m c t.val t.isLt).2.2 j = accArr m c 1 (((cfg0.win 4).blk t).view.emb j)
  have hj : j = ix2 (⟨(j 0).val, (j 0).isLt⟩ : Fin 8) (⟨(j 1).val, (j 1).isLt⟩ : Fin 1000) :=
    funext fun d => by match d with | ⟨0, _⟩ => rfl | ⟨1, _⟩ => rfl
  have hj0 : (j 0).val < 8 := (j 0).isLt
  have hj1 : (j 1).val < 1000 := (j 1).isLt
  have r0 : ((((cfg0.win 4).blk t).view.emb j) 0).val = t.val / 32 * 8 + (j 0).val := by
    show win0_4.index t (0 : Fin 2) * 8 + 1 * (j 0).val = _
    rw [e6]; omega
  have r1 : ((((cfg0.win 4).blk t).view.emb j) 1).val = (j 1).val := by
    show win0_4.index t (1 : Fin 2) * 1000 + 1 * (j 1).val = _
    rw [e7]; omega
  refine (congrArg (outsAt0 m c t.val t.isLt).2.2 hj).trans ?_
  refine ((acc_eq m c t.val t.isLt _ _).2).trans ?_
  unfold accArr
  by_cases ha : (j 0).val = 0
  · rw [if_pos ha, if_pos (by rw [r0]; omega)]
    have en : ((((cfg0.win 4).blk t).view.emb j) 0).val / 8 * 32 + 31 = t.val := by rw [r0]; omega
    rw [en]
    exact congrArg (runSum m c 1 t.val) (Fin.ext r1.symm)
  · rw [if_neg ha, if_neg (by rw [r0]; omega)]

/-- An index is in point `t`'s accumulator block iff its coordinates are in the block's ranges (first accumulator). -/
theorem mem_blk3 (t : Fin cfg0.N) (i : S16x1000.Idx) :
    i ∈ ((cfg0.win 3).blk t).view.set
      ↔ ∀ a : Fin 2, win0_3.index t a * S8x1000.size a ≤ (i a).val ∧ (i a).val < win0_3.index t a * S8x1000.size a + S8x1000.size a := by
  show i ∈ ((View.whole main_v1_1).slice (win0_3.rect t)).set ↔ _
  rw [View.set_slice_whole, Rect.mem_set_unit]
  exact Iff.rfl

theorem mem_blk4 (t : Fin cfg0.N) (i : S16x1000.Idx) :
    i ∈ ((cfg0.win 4).blk t).view.set
      ↔ ∀ a : Fin 2, win0_4.index t a * S8x1000.size a ≤ (i a).val ∧ (i a).val < win0_4.index t a * S8x1000.size a + S8x1000.size a := by
  show i ∈ ((View.whole main_v1_2).slice (win0_4.rect t)).set ↔ _
  rw [View.set_slice_whole, Rect.mem_set_unit]
  exact Iff.rfl

/-- The first accumulator array after the run. -/
theorem final3 (c : Dev nD) : (dats m 0 c).arrAt 3 cfg0.N = accArr m c 0 :=
  (dats m 0 c).arrAt_eq_of_cover 3 (accArr m c 0) (fun t hf => flushed3_eq m c t hf) fun i => by
    have hi0 : (i 0).val < 16 := (i 0).isLt
    have hi1 : (i 1).val < 1000 := (i 1).isLt
    have hN : cfg0.N = 64 := N_0
    let t : Fin cfg0.N := ⟨(i 0).val / 8 * 32 + 31, by rw [hN]; omega⟩
    obtain ⟨-, -, -, -, e4, e5, -⟩ := idx_facts t
    have ht : t.val = (i 0).val / 8 * 32 + 31 := rfl
    refine ⟨t, (flush0_3 t).mpr (by rw [ht]; omega), ?_⟩
    rw [mem_blk3]
    intro a
    match a with
    | ⟨0, _⟩ =>
      show win0_3.index t (0 : Fin 2) * 8 ≤ (i 0).val ∧ (i 0).val < win0_3.index t (0 : Fin 2) * 8 + 8
      rw [e4, ht]; omega
    | ⟨1, _⟩ =>
      show win0_3.index t (1 : Fin 2) * 1000 ≤ (i 1).val ∧ (i 1).val < win0_3.index t (1 : Fin 2) * 1000 + 1000
      rw [e5]; omega

/-- The second accumulator array after the run. -/
theorem final4 (c : Dev nD) : (dats m 0 c).arrAt 4 cfg0.N = accArr m c 1 :=
  (dats m 0 c).arrAt_eq_of_cover 4 (accArr m c 1) (fun t hf => flushed4_eq m c t hf) fun i => by
    have hi0 : (i 0).val < 16 := (i 0).isLt
    have hi1 : (i 1).val < 1000 := (i 1).isLt
    have hN : cfg0.N = 64 := N_0
    let t : Fin cfg0.N := ⟨(i 0).val / 8 * 32 + 31, by rw [hN]; omega⟩
    obtain ⟨-, -, -, -, -, -, e6, e7⟩ := idx_facts t
    have ht : t.val = (i 0).val / 8 * 32 + 31 := rfl
    refine ⟨t, (flush0_4 t).mpr (by rw [ht]; omega), ?_⟩
    rw [mem_blk4]
    intro a
    match a with
    | ⟨0, _⟩ =>
      show win0_4.index t (0 : Fin 2) * 8 ≤ (i 0).val ∧ (i 0).val < win0_4.index t (0 : Fin 2) * 8 + 8
      rw [e6, ht]; omega
    | ⟨1, _⟩ =>
      show win0_4.index t (1 : Fin 2) * 1000 ≤ (i 1).val ∧ (i 1).val < win0_4.index t (1 : Fin 2) * 1000 + 1000
      rw [e7]; omega

/-! ## Rows 0 and 8 add up to the per-class sums -/

/-- A point's product row 0 is its tile's cross entropies against the one-hot columns. -/
theorem prod0_eq (c : Dev nD) (t : ℕ) (h : t < 64) (col : Fin 1000) :
    prodAt m c 0 t col = tileSum (ceOf m c) (labOf m c) ⟨t, h⟩ col := by
  have hN : cfg0.N = 64 := N_0
  unfold prodAt
  rw [dif_pos (by rw [hN]; exact h)]
  refine (KPay.pay6_row0 _ _ col).trans ?_
  unfold tileSum
  refine Finset.sum_congr rfl fun k _ => ?_
  rw [pay3_at m c ⟨t, by rw [hN]; exact h⟩ k, tblk_apply m c ⟨t, by rw [hN]; exact h⟩ k]
  rfl

/-- A point's product row 1 is ones against the one-hot columns. -/
theorem prod1_eq (c : Dev nD) (t : ℕ) (h : t < 64) (col : Fin 1000) :
    prodAt m c 1 t col = tileSum (fun _ => (1 : EReal)) (labOf m c) ⟨t, h⟩ col := by
  have hN : cfg0.N = 64 := N_0
  unfold prodAt
  rw [dif_pos (by rw [hN]; exact h)]
  refine (KPay.pay6_row1 _ _ col).trans ?_
  unfold tileSum
  refine Finset.sum_congr rfl fun k _ => ?_
  rw [tblk_apply m c ⟨t, by rw [hN]; exact h⟩ k]
  rfl

/-- Row `A` of an accumulator array, `A` a multiple of 8: the sum of the product rows of core `A / 8`'s run. -/
theorem accArr_row (c : Dev nD) (row : Fin 2) (A : Fin 16) (hA : A.val % 8 = 0) (col : Fin 1000) :
    accArr m c row (ix2 A col) = runSum m c row (A.val / 8 * 32 + 31) col := by
  show (if A.val % 8 = 0 then runSum m c row (A.val / 8 * 32 + 31) ⟨col.val, col.isLt⟩ else 0) = _
  rw [if_pos hA]

/-- Rows 0 and 8 of the first accumulator array add up to the per-class sums of the cross entropies. -/
theorem sums_eq (c : Dev nD) (col : Fin 1000) :
    accArr m c 0 (ix2 (0 : Fin 16) col) + accArr m c 0 (ix2 (8 : Fin 16) col)
      = seg (labOf m c) (ceOf m c) col := by
  rw [← Cert.GBL.two_runs_eq_seg (ceOf m c) (labOf m c) col, accArr_row m c 0 0 rfl col, accArr_row m c 0 8 rfl col]
  unfold runSum
  show (∑ j ∈ Finset.range 32, prodAt m c 0 (0 + j) col) + (∑ j ∈ Finset.range 32, prodAt m c 0 (32 + j) col) = _
  refine congrArg₂ (· + ·) ?_ ?_
  · refine Finset.sum_congr rfl fun j hj => ?_
    have hj' : j < 32 := Finset.mem_range.mp hj
    rw [Nat.zero_add, dif_pos (by omega : j < 64)]
    exact prod0_eq m c j (by omega) col
  · refine Finset.sum_congr rfl fun j hj => ?_
    have hj' : j < 32 := Finset.mem_range.mp hj
    rw [dif_pos (by omega : 32 + j < 64)]
    exact prod0_eq m c (32 + j) (by omega) col

/-- Rows 0 and 8 of the second accumulator array add up to the per-class counts. -/
theorem counts_eq (c : Dev nD) (col : Fin 1000) :
    accArr m c 1 (ix2 (0 : Fin 16) col) + accArr m c 1 (ix2 (8 : Fin 16) col)
      = seg (labOf m c) (fun _ => (1 : EReal)) col := by
  rw [← Cert.GBL.two_runs_eq_seg (fun _ => (1 : EReal)) (labOf m c) col, accArr_row m c 1 0 rfl col, accArr_row m c 1 8 rfl col]
  unfold runSum
  show (∑ j ∈ Finset.range 32, prodAt m c 1 (0 + j) col) + (∑ j ∈ Finset.range 32, prodAt m c 1 (32 + j) col) = _
  refine congrArg₂ (· + ·) ?_ ?_
  · refine Finset.sum_congr rfl fun j hj => ?_
    have hj' : j < 32 := Finset.mem_range.mp hj
    rw [Nat.zero_add, dif_pos (by omega : j < 64)]
    exact prod1_eq m c j (by omega) col
  · refine Finset.sum_congr rfl fun j hj => ?_
    have hj' : j < 32 := Finset.mem_range.mp hj
    rw [dif_pos (by omega : 32 + j < 64)]
    exact prod1_eq m c (32 + j) (by omega) col

end Cert.KernelIdeal.KVal

end
-- ==== Proof.KTailFun.lean ====
/-
  The host program around the kernel call as four functions of arrays, at the ideal instance.
  `clipK` clamps the label words into `[0, 999]`. `sumsK` adds rows 0 and 8 of a [16, 1000] accumulator array
  (the two cores' rows). `newGmK` is the update of the gradient magnitudes from the two accumulator arrays:
  where the count is positive, `0.9 g + 0.1 |sum / max count 1|`, else `g`. `wK` gathers the updated magnitude at
  each sample's label (a negative label wrapped by 1000 first) and returns `1 / (magnitude + ε)`. `lossK` is the
  ratio of the weighted sum of the cross entropies to the sum of the weights.
-/
import proofs.«420719_j14912126452149_3_alg».proof.Proof.Gen.KernelIdeal
import Idealize.ShloMosaic.PureOps.Ideal

noncomputable section

namespace Cert.KernelIdeal.KVal

open Idealize.ShloMosaic
open Cert.KernelIdeal Cert.KernelIdeal.Gen

/-- The labels clamped into the class range. -/
def clipK (T : IVec S65536 32) : IVec S65536 32 :=
  minsi (broadcastInDim S65536 ![] bcast_S_S65536 (constantI S_ 32 999#32))
    (maxsi (broadcastInDim S65536 ![] bcast_S_S65536 (constantI S_ 32 0#32)) T)

/-- Rows 0 and 8 of an accumulator array, added. -/
def sumsK (S : FVec Ideal S16x1000 .f32) : FVec Ideal S1000 .f32 :=
  addf (shapeCast S1000 (extractStridedSlice S1x1000 ![0, 0] S slices_S16x1000_S1x1000_0_0) shapeCasts_S1x1000_S1000)
    (shapeCast S1000 (extractStridedSlice S1x1000 ![8, 0] S slices_S16x1000_S1x1000_8_0) shapeCasts_S1x1000_S1000)

/-- The updated gradient magnitudes from the sums' and the counts' accumulator arrays and the old magnitudes. -/
def newGmK (S Cn : FVec Ideal S16x1000 .f32) (G : FVec Ideal S1000 .f32) : FVec Ideal S1000 .f32 :=
  select (cmpf .ogt (sumsK Cn) (broadcastInDim S1000 ![] bcast_S_S1000 (constant S_ .f32 0x00000000#32)))
    (addf (mulf (broadcastInDim S1000 ![] bcast_S_S1000 (constant S_ .f32 0x3F666666#32)) G)
      (mulf (broadcastInDim S1000 ![] bcast_S_S1000 (constant S_ .f32 0x3DCCCCCD#32))
        (Host.absf (Host.divf (sumsK S)
          (maximumf (sumsK Cn) (broadcastInDim S1000 ![] bcast_S_S1000 (constant S_ .f32 0x3F800000#32)))))))
    G

/-- The per-sample weights from the updated magnitudes and the labels. -/
def wK (NG : FVec Ideal S1000 .f32) (T : IVec S65536 32) : FVec Ideal S65536 .f32 :=
  Host.divf (broadcastInDim S65536 ![] bcast_S_S65536 (constant S_ .f32 0x3F800000#32))
    (addf
      (Host.gather gather_S1000_S65536x1_S65536_n_0_n_n_0_1_1 NG
        (broadcastInDim S65536x1 ![0] bcast_S65536_S65536x1_0
          (select (cmpi .slt T (broadcastInDim S65536 ![] bcast_S_S65536 (constantI S_ 32 0#32)))
            (addi T (broadcastInDim S65536 ![] bcast_S_S65536 (constantI S_ 32 1000#32))) T)))
      (broadcastInDim S65536 ![] bcast_S_S65536 (constant S_ .f32 0x358637BD#32)))

/-- The weighted mean of the cross entropies. -/
def lossK (NG : FVec Ideal S1000 .f32) (T : IVec S65536 32) (CE : FVec Ideal S65536 .f32) : FVec Ideal S_ .f32 :=
  Host.divf
    (Host.reduceAdd (mulf (wK NG T) CE) (constant S_ .f32 0x00000000#32) reducesTo_S65536_S_d0 h_S_)
    (Host.reduceAdd (wK NG T) (constant S_ .f32 0x00000000#32) reducesTo_S65536_S_d0 h_S_)

end Cert.KernelIdeal.KVal

end
-- ==== Proof.KTail.lean ====
/-
  The host program around the kernel call, read back. Before the call the host clamps the labels; after it, it
  adds the cores' accumulator rows, updates the gradient magnitudes, gathers a weight per sample and divides the
  weighted sum of the cross entropies by the sum of the weights. Each stretch of host operations, run from any
  contents of the buffers, leaves the corresponding function of Proof/KTailFun.lean of the buffers it reads and
  leaves alone the buffers it does not write; after the region the kernel's three result arrays hold what
  Proof/KArr.lean says. So the program's result is `lossK` of the updated magnitudes, the clamped labels and the
  cross-entropy array.
-/
import proofs.«420719_j14912126452149_3_alg».proof.Proof.KArr
import proofs.«420719_j14912126452149_3_alg».proof.Proof.KTailFun
import Idealize.ShloMosaic.Lib.StableHlo.Run

set_option maxRecDepth 16384

noncomputable section

namespace Cert.KernelIdeal.KVal

open Idealize.ShloMosaic Idealize.ShloMosaic.TcCoe Idealize.SL.Sem Idealize.ShloMosaic.ValueIdx Idealize.ShloMosaic.StableHlo
open Idealize.ShloMosaic.Pipeline (Dat)
open Cert.KernelIdeal Cert.KernelIdeal.Gen

/-! ## The stretches over any contents -/

section Stretch
variable (W : Valuation τ sig (Elt Ideal))

/-- The stretch before the call leaves the clamped labels. -/
theorem prefix_v0 :
    StableHlo.after ((hostOps0 (F := Ideal)) ++ hostOps0_1) W (Proc.devRef .tc main_v0)
      = clipK (W (Proc.devRef .tc main_arg1)) := by
  simp only [hostOps0, hostOps0_1, List.cons_append, List.nil_append]
  after_results_simp
  rfl

/-- The first stretch after the call leaves the updated magnitudes, -/
theorem tailA_v23 :
    StableHlo.after ((hostOps1 (F := Ideal)) ++ hostOps1_1) W (Proc.devRef .tc main_v23)
      = newGmK (W (Proc.devRef .tc main_v1_1)) (W (Proc.devRef .tc main_v1_2)) (W (Proc.devRef .tc main_arg2)) := by
  simp only [hostOps1, hostOps1_1, List.cons_append, List.nil_append]
  after_results_simp
  rfl

/-- and does not write the labels -/
theorem tailA_keep_v0 :
    StableHlo.after ((hostOps1 (F := Ideal)) ++ hostOps1_1) W (Proc.devRef .tc main_v0) = W (Proc.devRef .tc main_v0) :=
  StableHlo.after_of_forall_not_mem _ _ (List.forall_iff_forall_mem.mp (by
    simp only [hostOps1, hostOps1_1, List.cons_append, List.nil_append, List.Forall, StableHlo.nullary_writes, StableHlo.unary_writes,
      StableHlo.binary_writes, StableHlo.ternary_writes, StableHlo.quaternary_writes, StableHlo.reshape_writes,
      StableHlo.binaryIndexed_writes, Finset.mem_singleton]
    repeat' apply And.intro
    all_goals exact StableHlo.devRef_ne_of_ne (by decide)))

/-- nor the cross entropies. -/
theorem tailA_keep_v1_0 :
    StableHlo.after ((hostOps1 (F := Ideal)) ++ hostOps1_1) W (Proc.devRef .tc main_v1_0) = W (Proc.devRef .tc main_v1_0) :=
  StableHlo.after_of_forall_not_mem _ _ (List.forall_iff_forall_mem.mp (by
    simp only [hostOps1, hostOps1_1, List.cons_append, List.nil_append, List.Forall, StableHlo.nullary_writes, StableHlo.unary_writes,
      StableHlo.binary_writes, StableHlo.ternary_writes, StableHlo.quaternary_writes, StableHlo.reshape_writes,
      StableHlo.binaryIndexed_writes, Finset.mem_singleton]
    repeat' apply And.intro
    all_goals exact StableHlo.devRef_ne_of_ne (by decide)))

/-- The last stretch leaves the weighted mean. -/
theorem tailB_v38 :
    StableHlo.after (hostOps1_2 (F := Ideal)) W (Proc.devRef .tc main_v38)
      = lossK (W (Proc.devRef .tc main_v23)) (W (Proc.devRef .tc main_v0)) (W (Proc.devRef .tc main_v1_0)) := by
  simp only [hostOps1_2]
  after_results_simp
  rfl

end Stretch

/-! ## The program's result -/

variable (m : (ℓ : Loc nD τ sig) → Buf (Elt Ideal) ℓ)

/-- The contents the lines after the region start from: the kernel's arrays as the region leaves them, every other
    buffer as the region found it. -/
abbrev Wtail (c : Dev nD) : Valuation τ sig (Elt Ideal) :=
  Pipeline.withArrays (cfgs 0).spec c (V0 m c) fun w => (dats m 0 c).arrAt w (cfgs 0).N

theorem Wtail_ce (c : Dev nD) : Wtail m c (Proc.devRef .tc main_v1_0) = ceArr m c :=
  (Pipeline.withArrays_arr spec0 launch0.win.arr_inj c _ _ 2).trans (final2 m c)

theorem Wtail_sums (c : Dev nD) : Wtail m c (Proc.devRef .tc main_v1_1) = accArr m c 0 :=
  (Pipeline.withArrays_arr spec0 launch0.win.arr_inj c _ _ 3).trans (final3 m c)

theorem Wtail_counts (c : Dev nD) : Wtail m c (Proc.devRef .tc main_v1_2) = accArr m c 1 :=
  (Pipeline.withArrays_arr spec0 launch0.win.arr_inj c _ _ 4).trans (final4 m c)

theorem Wtail_labels (c : Dev nD) : Wtail m c (Proc.devRef .tc main_v0) = tarr m c :=
  (Pipeline.withArrays_arr spec0 launch0.win.arr_inj c _ _ 1).trans
    (((dats m 0 c).arrAt_in 1 rfl _).trans (A_eq m c 1))

theorem Wtail_mags (c : Dev nD) : Wtail m c (Proc.devRef .tc main_arg2) = V m c main_arg2 :=
  Pipeline.withArrays_of_ne _ c (V0 m c) _ main_arg2 (by exact (by decide : ∀ w, Pipeline.arrRef spec0 w ≠ main_arg2))

/-- The labels the region finds are the clamped argument labels. -/
theorem tarr_eq (c : Dev nD) : tarr m c = clipK (m ((c : Thread nD τ).loc main_arg1)) := by
  show StableHlo.after (List.flatten [hostOps0, hostOps0_1]) (fun b => m (c, b)) (Proc.devRef .tc main_v0) = _
  rw [show (List.flatten [(hostOps0 (F := Ideal)), hostOps0_1]) = hostOps0 ++ hostOps0_1 from by
    simp only [List.flatten_cons, List.flatten_nil, List.append_nil]]
  exact prefix_v0 _

/-- The program's result buffer after the run. -/
theorem tail_value (c : Dev nD) :
    Pipeline.afterTail₀ cfgs (dats m) 0 (V0 m) [hostOps1, hostOps1_1, hostOps1_2] c main_v38
      = lossK (newGmK (accArr m c 0) (accArr m c 1) (V m c main_arg2)) (tarr m c) (ceArr m c) := by
  unfold Pipeline.afterTail₀
  show StableHlo.after (List.flatten [(hostOps1 (F := Ideal)), hostOps1_1, hostOps1_2]) (Wtail m c) (Proc.devRef .tc main_v38) = _
  rw [show (List.flatten [(hostOps1 (F := Ideal)), hostOps1_1, hostOps1_2]) = (hostOps1 ++ hostOps1_1) ++ hostOps1_2 from by
    simp only [List.flatten_cons, List.flatten_nil, List.append_nil, List.append_assoc]]
  rw [StableHlo.after_append, tailB_v38, tailA_v23, tailA_keep_v0, tailA_keep_v1_0,
    Wtail_ce, Wtail_sums, Wtail_counts, Wtail_labels, Wtail_mags]

end Cert.KernelIdeal.KVal

end
-- ==== Proof.KTailRead.lean ====
/-
  The functions of Proof/KTailFun.lean read at an entry, in the vocabulary of Proof/Spec.lean.
  A label in range is its own clamp. An accumulator array's rows 0 and 8 add entry by entry. The updated
  magnitude of class `col` is `newMag` of that class's sum, count and old magnitude. For a sample whose label is
  the class `k` the gather reads the updated magnitude of `k` (the label is not negative, so it is not wrapped, and
  it is below 1000, so it is not clamped), and the weight is `1 / (magnitude + ε)`. The host's two sums run over
  all samples from the zero word, so the result is `meanA` of the weights and the cross entropies.
-/
import proofs.«420719_j14912126452149_3_alg».proof.Proof.KTailFun
import proofs.«420719_j14912126452149_3_alg».proof.Proof.Spec
import proofs.«420719_j14912126452149_3_alg».proof.Proof.LibGather
import Idealize.ShloMosaic.Lib.ValueIdx
import Idealize.ShloMosaic.Lib.ValueLayout
import Idealize.ShloMosaic.Lib.Pipeline.Value
import Idealize.ShloMosaic.Lib.StableHlo.Predicate
import Idealize.ShloMosaic.Lib.Affine
import Idealize.ShloMosaic.PureOps.Ideal.Laws

noncomputable section

namespace Cert.KernelIdeal.KVal

open Idealize.ShloMosaic Idealize.ShloMosaic.ValueIdx
open Cert.KernelIdeal Cert.KernelIdeal.Gen
open Cert.GBL (newMag weight meanA wOne wEps)

/-- A word whose signed value lies in the class range is its own clamp: it is not below zero, so the maximum with
    zero keeps it, and it is not above 999, so the minimum with 999 keeps it. -/
private theorem clamp_word (t : BitVec 32) (h0 : 0 ≤ t.toInt) (h1 : t.toInt < 1000) :
    IntOp.minsi 999#32 (IntOp.maxsi 0#32 t) = t := by
  have z0 : (0#32 : BitVec 32).toInt = 0 := by decide
  have z999 : (999#32 : BitVec 32).toInt = 999 := by decide
  have e1 : IntOp.maxsi 0#32 t = t := by
    unfold IntOp.maxsi
    rw [if_neg]
    simp only [BitVec.slt, z0, decide_eq_true_eq]
    omega
  rw [e1]
  unfold IntOp.minsi
  rw [if_neg]
  simp only [BitVec.slt, z999, decide_eq_true_eq]
  omega

/-- A label word in the class range is its own clamp. -/
theorem clipK_apply (T : IVec S65536 32) (i : S65536.Idx) (h0 : 0 ≤ (T i).toInt) (h1 : (T i).toInt < 1000) :
    clipK T i = T i :=
  clamp_word (T i) h0 h1

/-- Rows 0 and 8 of an accumulator array add entry by entry. -/
theorem sumsK_apply (S : FVec Ideal S16x1000 .f32) (col : Fin 1000) :
    sumsK S (ix1 col) = S (ix2 (0 : Fin 16) col) + S (ix2 (8 : Fin 16) col) := by
  have e0 : shapeCast S1000 (extractStridedSlice S1x1000 ![0, 0] S slices_S16x1000_S1x1000_0_0) shapeCasts_S1x1000_S1000 (ix1 col)
      = S (ix2 (0 : Fin 16) col) :=
    (shapeCast_1a_a_apply _ shapeCasts_S1x1000_S1000 col).trans
      (slice2_axis0_apply 0 S slices_S16x1000_S1x1000_0_0 (0 : Fin 1) col (0 : Fin 16) rfl)
  have e8 : shapeCast S1000 (extractStridedSlice S1x1000 ![8, 0] S slices_S16x1000_S1x1000_8_0) shapeCasts_S1x1000_S1000 (ix1 col)
      = S (ix2 (8 : Fin 16) col) :=
    (shapeCast_1a_a_apply _ shapeCasts_S1x1000_S1000 col).trans
      (slice2_axis0_apply 8 S slices_S16x1000_S1x1000_8_0 (0 : Fin 1) col (8 : Fin 16) rfl)
  show shapeCast S1000 (extractStridedSlice S1x1000 ![0, 0] S slices_S16x1000_S1x1000_0_0) shapeCasts_S1x1000_S1000 (ix1 col)
      + shapeCast S1000 (extractStridedSlice S1x1000 ![8, 0] S slices_S16x1000_S1x1000_8_0) shapeCasts_S1x1000_S1000 (ix1 col) = _
  rw [e0, e8]

/-- The updated magnitude of a class. -/
theorem newGmK_apply (S Cn : FVec Ideal S16x1000 .f32) (G : FVec Ideal S1000 .f32) (col : Fin 1000) :
    newGmK S Cn G (ix1 col) = newMag (sumsK S (ix1 col)) (sumsK Cn (ix1 col)) (G (ix1 col)) := by
  rfl

/-- A word that is not negative fails the signed comparison with zero. -/
private theorem slt_zero_of_nonneg (t : BitVec 32) (h0 : 0 ≤ t.toInt) : IntOp.cmpi .slt t 0#32 = 0#1 := by
  have z0 : (0#32 : BitVec 32).toInt = 0 := by decide
  unfold IntOp.cmpi
  have : t.slt 0#32 = false := by
    simp only [BitVec.slt, z0, decide_eq_false_iff_not]
    omega
  simp only [this]
  rfl

/-- The wrapped label of a sample in class `k`: the label word itself, whose signed value clamped into
    `[0, 999]` is `k`. -/
private theorem wrap_word (t : BitVec 32) (k : Fin 1000) (hk : t.toInt = (k.val : ℤ)) :
    min (Scalar.select (IntOp.cmpi .slt t 0#32) (IntOp.addi t 1000#32) t).toInt.toNat (1000 - 1) = k.val := by
  rw [slt_zero_of_nonneg t (by rw [hk]; exact Int.natCast_nonneg _), select_zero, hk]
  have := k.isLt
  simp only [Int.toNat_natCast]
  omega

/-- A column of words made from a vector reads, at `(r, 0)`, the vector at `r`. -/
private theorem col_apply (sel : IVec S65536 32) (r : Fin 65536) :
    broadcastInDim S65536x1 ![0] bcast_S65536_S65536x1_0 sel (ix2 r (0 : Fin 1)) = sel (ix1 r) :=
  broadcastInDim_apply _ bcast_S65536_S65536x1_0 sel (ix2 r (0 : Fin 1)) (ix1 r)
    (fun a => match a with | ⟨0, _⟩ => rfl)

/-- The gather of the magnitudes at a column of words reads, at sample `r`, the magnitude at the word of row
    `r`, read signed and clamped into `[0, 999]`. -/
private theorem gatherK_apply (NG : FVec Ideal S1000 .f32) (idx : IVec S65536x1 32) (r : Fin 65536) :
    Host.gather gather_S1000_S65536x1_S65536_n_0_n_n_0_1_1 NG idx (ix1 r)
      = NG (ix1 ⟨min (idx (ix2 r (0 : Fin 1))).toInt.toNat (1000 - 1), by omega⟩) :=
  Cert.LibGather.gather_vec_apply (by decide) gather_S1000_S65536x1_S65536_n_0_n_n_0_1_1 rfl rfl rfl rfl rfl rfl rfl NG idx r

/-- The weight of a sample whose label is the class `k`. -/
theorem wK_apply (NG : FVec Ideal S1000 .f32) (T : IVec S65536 32) (r : Fin 65536) (k : Fin 1000)
    (hk : (T (ix1 r)).toInt = (k.val : ℤ)) :
    wK NG T (ix1 r) = Ideal.div wOne (NG (ix1 k) + wEps) := by
  -- the wrapped labels, and the start index of sample r among them
  let sel : IVec S65536 32 :=
    select (cmpi .slt T (broadcastInDim S65536 ![] bcast_S_S65536 (constantI S_ 32 0#32)))
      (addi T (broadcastInDim S65536 ![] bcast_S_S65536 (constantI S_ 32 1000#32))) T
  have hmin : min (broadcastInDim S65536x1 ![0] bcast_S65536_S65536x1_0 sel (ix2 r (0 : Fin 1))).toInt.toNat (1000 - 1)
      = k.val :=
    (congrArg (fun w : BitVec 32 => min w.toInt.toNat (1000 - 1)) (col_apply sel r)).trans (wrap_word (T (ix1 r)) k hk)
  show Ideal.div wOne
      (Host.gather gather_S1000_S65536x1_S65536_n_0_n_n_0_1_1 NG
        (broadcastInDim S65536x1 ![0] bcast_S65536_S65536x1_0 sel) (ix1 r) + wEps) = _
  rw [gatherK_apply]
  exact congrArg (fun v => Ideal.div wOne (NG (ix1 v) + wEps)) (Fin.ext hmin)

/-- The host's quotient at an index is the quotient of the entries. -/
private theorem hostDivf_apply {s : Shape} (x y : FVec Ideal s .f32) (i : s.Idx) :
    Host.divf x y i = Ideal.div (x i) (y i) := rfl

/-- The host's sum of all samples from the zero word. -/
private theorem hostSum_apply (y : FVec Ideal S65536 .f32) :
    Host.reduceAdd y (constant S_ .f32 0x00000000#32) reducesTo_S65536_S_d0 h_S_ ix0
      = Cert.GBL.wZero + ∑ j : S65536.Idx, y j := by
  simp only [Host.reduceAdd, Ideal.hostReduceAdd_def]
  exact Ideal.hostReduceAdd_total reducesTo_S65536_S_d0 (fun b => b.elim0) y _ ix0

/-- The result: the weighted mean of the cross entropies under the weights. -/
theorem lossK_apply (NG : FVec Ideal S1000 .f32) (T : IVec S65536 32) (CE : FVec Ideal S65536 .f32) :
    lossK NG T CE ix0 = meanA (fun i : S65536.Idx => wK NG T i) (fun i : S65536.Idx => CE i) := by
  unfold lossK meanA
  rw [hostDivf_apply, hostSum_apply, hostSum_apply]
  rfl

end Cert.KernelIdeal.KVal

end
-- ==== Proof.KFinal.lean ====
/-
  The kernel's program returns the loss `lossS` of its three argument arrays when the labels are class numbers.
  The region finds the logits and the magnitudes as launched and the labels clamped, which changes nothing for
  class numbers; so the cross-entropy array holds every sample's cross entropy, rows 0 and 8 of the accumulator
  arrays add up to the per-class sums and counts, the updated magnitude of a class is `newMag` of them, the weight
  of a sample `weight` at its label's class, and the host's final quotient the weighted mean.
-/
import proofs.«420719_j14912126452149_3_alg».proof.Proof.KTail
import proofs.«420719_j14912126452149_3_alg».proof.Proof.KTailRead
import proofs.«420719_j14912126452149_3_alg».proof.Proof.Loss

set_option maxRecDepth 16384

noncomputable section

namespace Cert.KernelIdeal.KVal

open Idealize.ShloMosaic Idealize.ShloMosaic.TcCoe Idealize.SL.Sem Idealize.ShloMosaic.ValueIdx
open Cert.KernelIdeal Cert.KernelIdeal.Gen
open Cert.GBL

variable (m : (ℓ : Loc nD τ sig) → Buf (Elt Ideal) ℓ)

/-- The program's result buffer after the run holds the loss. -/
theorem kernel_value (c : Dev nD)
    (hT : ∀ i, 0 ≤ ((m ((c : Thread nD τ).loc main_arg1)) i).toInt ∧ ((m ((c : Thread nD τ).loc main_arg1)) i).toInt < 1000) :
    Pipeline.afterTail₀ cfgs (dats m) 0 (V0 m) [hostOps1, hostOps1_1, hostOps1_2] c main_v38 ix0
      = lossS (m ((c : Thread nD τ).loc main_arg0)) (m ((c : Thread nD τ).loc main_arg1)) (m ((c : Thread nD τ).loc main_arg2)) := by
  have hx : xarr m c = (m ((c : Thread nD τ).loc main_arg0)) := V_main_arg0 m c
  have hg : V m c main_arg2 = (m ((c : Thread nD τ).loc main_arg2)) := V_main_arg2 m c
  have ht : tarr m c = (m ((c : Thread nD τ).loc main_arg1)) := by
    rw [tarr_eq]
    funext i
    exact clipK_apply _ i (hT i).1 (hT i).2
  have hk : ∀ r : Fin 65536, ((m ((c : Thread nD τ).loc main_arg1)) (ix1 r)).toInt = ((lab ((m ((c : Thread nD τ).loc main_arg1)) (ix1 r))).val : ℤ) :=
    fun r => lab_val _ (hT _).1 (hT _).2
  have hce : ceOf m c = ceS (m ((c : Thread nD τ).loc main_arg0)) (m ((c : Thread nD τ).loc main_arg1)) := by
    funext r
    unfold ceOf ceS
    rw [hx, ht]
  have hlab : labOf m c = fun r : Fin 65536 => (m ((c : Thread nD τ).loc main_arg1)) (ix1 r) := by
    funext r
    unfold labOf
    rw [ht]
  rw [tail_value, lossK_apply]
  unfold lossS
  refine congrArg₂ meanA (funext fun i => ?_) (funext fun i => ?_)
  · obtain ⟨r, rfl⟩ : ∃ r : Fin 65536, i = ix1 r := ⟨i 0, eq_ix1 i⟩
    rw [wK_apply _ _ r (lab ((m ((c : Thread nD τ).loc main_arg1)) (ix1 r))) (by rw [ht]; exact hk r), newGmK_apply, sumsK_apply, sumsK_apply,
      sums_eq, counts_eq, hce, hlab, hg]
    rfl
  · show ceArr m c i = _
    unfold ceArr
    rw [hce]

end Cert.KernelIdeal.KVal

end
-- ==== Proof.PreDecode.lean ====
/-
  What the precondition says of the three argument arrays, read out of its printed form: the conjunction of
  five `all`-reductions being true gives, entry by entry, that every logit is a real (its absolute value is below
  plus infinity), that every gradient magnitude is a real and is at least zero, and that every label word, read
  signed, lies in `[0, 1000)`.
-/
import proofs.«420719_j14912126452149_3_alg».proof.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.GBL

open Idealize.ShloMosaic Cert.Pre_finite_inputs

/-- A one-bit word made from a Boolean is the word 1 exactly when the Boolean is true. -/
private theorem ofBool_eq_one {b : Bool} : BitVec.ofBool b = 1#1 ↔ b = true := by cases b <;> decide

/-- The rank-0 shape has one index: a function out of the empty set of axes. -/
private instance subsingleton_S_ : Subsingleton S_.Idx := ⟨fun _ _ => funext fun d => d.elim0⟩

/-- The word `0x7F800000` (sign clear, exponent all ones, significand zero) denotes plus infinity. -/
private theorem ofBits_inf : Ideal.ofBits .f32 0x7F800000#32 = (⊤ : EReal) := by
  simp [Ideal.ofBits, Ideal.ieee]

/-- An extended real whose absolute value `max x (-x)` is below plus infinity is a real: at either infinity the
    maximum is plus infinity. -/
private theorem real_of_abs_lt_top (x : EReal) (h : max x (-x) < ⊤) : ∃ a : ℝ, x = (a : EReal) := by
  induction x using EReal.rec with
  | bot => simp at h
  | coe a => exact ⟨a, rfl⟩
  | top => simp at h

/-- The comparison `|x| < +inf` holding at the extended reals says `x` is a real. -/
private theorem real_of_cmp (x : EReal)
    (h : FloatOps.cmpf (F := Ideal) (φ := .f32) .olt (FloatOps.hostAbsf (F := Ideal) (φ := .f32) x)
      (FloatOps.ofBits (F := Ideal) .f32 0x7F800000#32) = 1#1) : ∃ a : ℝ, x = (a : EReal) := by
  apply real_of_abs_lt_top
  have h' : Ideal.cmp .olt (max x (-x)) (Ideal.ofBits .f32 0x7F800000#32) = 1#1 := h
  rw [ofBits_inf] at h'
  simpa [Ideal.cmp, ofBool_eq_one] using h'

/-- The comparison `g ≥ 0` holding at the extended reals says `0 ≤ g`. -/
private theorem nonneg_of_cmp (x : EReal)
    (h : FloatOps.cmpf (F := Ideal) (φ := .f32) .oge x (FloatOps.ofBits (F := Ideal) .f32 0x00000000#32) = 1#1) :
    (0 : EReal) ≤ x := by
  have h' : Ideal.cmp .oge x (Ideal.ofBits .f32 0x00000000#32) = 1#1 := h
  rw [Ideal.ofBits_zero_f32] at h'
  simpa [Ideal.cmp, ofBool_eq_one] using h'

/-- Under the precondition every logit is a real, every gradient magnitude a non-negative real, and every label
    word, read signed, a class number. -/
theorem pre_facts [Cert.Pre_finite_inputs.Facts]
    (x0 : FVec Ideal Cert.Pre_finite_inputs.S65536x1000 .f32) (x1 : IVec Cert.Pre_finite_inputs.S65536 32)
    (x2 : FVec Ideal Cert.Pre_finite_inputs.S1000 .f32)
    (h : Cert.Pre_finite_inputs.fn (F := Ideal) x0 x1 x2 = fun _ => 1#1) :
    (∀ i, ∃ a : ℝ, x0 i = (a : EReal))
      ∧ (∀ i, ∃ a : ℝ, 0 ≤ a ∧ x2 i = (a : EReal))
      ∧ (∀ i, 0 ≤ (x1 i).toInt ∧ (x1 i).toInt < 1000) := by
  -- the claim at the one index of the rank-0 result, with the chain of `let`s opened so that the five reductions show
  have e := congrFun h ValueIdx.ix0
  dsimp only [fn, fn_part1] at e
  -- the four `and`s of the five reductions, each reduction then 1
  simp only [andi, IntOp.andi_eq_one] at e
  obtain ⟨⟨⟨⟨h3, h7⟩, h11⟩, h15⟩, h19⟩ := e
  refine ⟨fun i => ?_, fun i => ?_, fun i => ?_⟩
  · -- a logit: the first reduction's element at `i` is the comparison `|x0 i| < +inf`
    exact real_of_cmp _ (Host.reduce_andi_all _ _ _ _ _ h3 i)
  · -- a gradient magnitude: a real by the second reduction, and at least zero by the fifth
    obtain ⟨a, ha⟩ := real_of_cmp _ (Host.reduce_andi_all _ _ _ _ _ h7 i)
    have h0 := nonneg_of_cmp _ (Host.reduce_andi_all _ _ _ _ _ h19 i)
    rw [ha] at h0
    exact ⟨a, EReal.coe_nonneg.1 h0, ha⟩
  · -- a label: the third and fourth reductions' elements are the signed comparisons with the words 0 and 1000
    have ha : IntOp.cmpi .sge (x1 i) 0#32 = 1#1 := Host.reduce_andi_all _ _ _ _ _ h11 i
    have hb : IntOp.cmpi .slt (x1 i) 1000#32 = 1#1 := Host.reduce_andi_all _ _ _ _ _ h15 i
    have z : (0#32 : BitVec 32).toInt = 0 := by decide
    have k : (1000#32 : BitVec 32).toInt = 1000 := by decide
    rw [IntOp.cmpi_sge, z] at ha
    rw [IntOp.cmpi_slt, k] at hb
    exact ⟨ha, hb⟩

end Cert.GBL

end
-- ==== Proof.lean ====
/-
  The certificate of a class-balanced cross-entropy loss (65536 samples, 1000 classes): the kernel's program and
  the jnp reference, at the ideal instance and from memories agreeing on the three arguments, return the same
  extended real, under the precondition that the logits and the gradient magnitudes are finite, the labels are
  class numbers and the gradient magnitudes are not negative.

  Both programs compute per-sample cross entropies, their per-class sums and counts, updated gradient magnitudes
  `0.9 g + 0.1 |sum / max count 1|` for the classes that occur, per-sample weights `1 / (magnitude + ε)`, and a weighted
  mean of the cross entropies. The kernel's pallas_call produces the cross entropies tile by tile and the per-class
  sums and counts as products with one-hot matrices, accumulated over each core's 32 grid points
  (Proof/KPieces.lean, KAccum.lean, KArr.lean, over the generated frame run); the host lines around it are read in
  Proof/KTail.lean and KTailRead.lean; Proof/KFinal.lean concludes that the program returns `Cert.GBL.lossS` of the
  arguments. The reference's run is read stage by stage (Proof/RefStages.lean over the stages of Proof/RefRead.lean),
  its stages in the same vocabulary in Proof/RefVal.lean, and Proof/RFinal.lean concludes that it returns `lossS`
  too: there the two arrangements of the cross entropy agree on rows of reals (Proof/CeLaw.lean) and the
  reference's renormalised mean `(∑ ((w / ∑ w) · N) · ce) / N` is the kernel's `(∑ w · ce) / (∑ w)` because every weight
  is a positive real (Proof/LossLaw.lean): this is where the sign of the gradient magnitudes is used. What the
  precondition says entry by entry is Proof/PreDecode.lean. The idealization rewrote nothing, so `preserves` is
  trivial; the two kernel frames are the generated ones, the reference's frame is its run with the result dropped.
-/
import proofs.«420719_j14912126452149_3_alg».proof.Defs
import proofs.«420719_j14912126452149_3_alg».proof.Proof.Gen.Kernel
import proofs.«420719_j14912126452149_3_alg».proof.Proof.Gen.Kernel.Skeleton
import proofs.«420719_j14912126452149_3_alg».proof.Proof.Gen.Kernel.Launch
import proofs.«420719_j14912126452149_3_alg».proof.Proof.Gen.Kernel.Points
import proofs.«420719_j14912126452149_3_alg».proof.Proof.Gen.Kernel.Frame
import proofs.«420719_j14912126452149_3_alg».proof.Proof.Gen.KernelIdeal
import proofs.«420719_j14912126452149_3_alg».proof.Proof.Gen.KernelIdeal.Skeleton
import proofs.«420719_j14912126452149_3_alg».proof.Proof.Gen.KernelIdeal.Launch
import proofs.«420719_j14912126452149_3_alg».proof.Proof.Gen.KernelIdeal.Points
import proofs.«420719_j14912126452149_3_alg».proof.Proof.Gen.KernelIdeal.Frame
import proofs.«420719_j14912126452149_3_alg».proof.Proof.Gen.ReferenceIdeal
import proofs.«420719_j14912126452149_3_alg».proof.Proof.RefRun
import proofs.«420719_j14912126452149_3_alg».proof.Proof.RefRead
import proofs.«420719_j14912126452149_3_alg».proof.Proof.RefStages
import proofs.«420719_j14912126452149_3_alg».proof.Proof.RFinal
import proofs.«420719_j14912126452149_3_alg».proof.Proof.KFinal
import proofs.«420719_j14912126452149_3_alg».proof.Proof.PreDecode
import proofs.«420719_j14912126452149_3_alg».proof.Proof.Gen.Pre_finite_inputs
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

/-- The reference's frame: its run with the result dropped. -/
theorem frame_ri : Cert.frame_ReferenceIdeal := fun m ρ _ =>
  (θ_run Cert.ReferenceIdeal.defs _ _).mono (fun _ h c => (h c).2) (Cert.ReferenceIdeal.RStage.run (F := Ideal) m ρ)

theorem preserves : Cert.preserves_Kernel_KernelIdeal := trivial

section KernelRun

open Cert.KernelIdeal Cert.KernelIdeal.Gen

/-- The kernel's run with its result buffer named: what the lines after the region leave there. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v38)
          = Pipeline.afterTail₀ cfgs (dats m) 0 (V0 m) [hostOps1, hostOps1_1, hostOps1_2] c main_v38
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c).2 main_v38 (Pipeline.mem_restRefs_of main_v38 (by decide) (by decide)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end KernelRun

/-- At the ideal instance the kernel's program and the reference return the loss of the arguments: the kernel's
    result buffer (Proof/KFinal.lean) and the reference's last stage (Proof/RFinal.lean) are that one extended real,
    the logits being reals, the gradient magnitudes non-negative reals and the labels class numbers
    (Proof/PreDecode.lean). -/
theorem algebraic : Cert.algebraic_KernelIdeal_ReferenceIdeal := by
  intro m ρ m' ρ' hpre hagree
  refine ⟨fun c => Pipeline.afterTail₀ Cert.KernelIdeal.cfgs (Cert.KernelIdeal.Gen.dats m) 0 (Cert.KernelIdeal.Gen.V0 m)
      [Cert.KernelIdeal.Gen.hostOps1, Cert.KernelIdeal.Gen.hostOps1_1, Cert.KernelIdeal.Gen.hostOps1_2] c
      Cert.KernelIdeal.main_v38, kernel_run m ρ, ?_⟩
  refine (θ_run Cert.ReferenceIdeal.defs _ _).mono (fun _ h c => ⟨(h c).1.trans ?_, (h c).2⟩)
    (Cert.ReferenceIdeal.RStage.run (F := Ideal) m' ρ')
  obtain ⟨hX, hG, hT⟩ := Cert.GBL.pre_facts _ _ _ (hpre c)
  rw [(hagree c).1, (hagree c).2.1, (hagree c).2.2]
  funext i
  rw [eq_ix0 i]
  exact (Cert.ReferenceIdeal.RVal.ref_value _ _ _ hX hG hT).trans (Cert.KernelIdeal.KVal.kernel_value m c hT).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
